-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S2048x1024 : Shape := ⟨2, ![2048, 1024]⟩
abbrev S1x1024 : Shape := ⟨2, ![1, 1024]⟩
abbrev S1024x1024 : Shape := ⟨2, ![1024, 1024]⟩
abbrev S8x1024 : Shape := ⟨2, ![8, 1024]⟩
abbrev S7 : Shape := ⟨1, ![7]⟩
abbrev S_ : Shape := ⟨0, ![]⟩
abbrev S1024 : Shape := ⟨1, ![1024]⟩
abbrev S1 : Shape := ⟨1, ![1]⟩

abbrev nBuf : Space → Nat
  | .hbm => 2
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2
abbrev barrier0 : Sem sig := 0

abbrev nD : Nat := 8
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_dev1 (d17 : Dev nD) : Nat :=
  let c0_i32_12 : BitVec 32 := 0#32
  let v17 : BitVec 32 := Dev.word d17
  let c1_i32_7 : BitVec 32 := 1#32
  let v18 : BitVec 32 := Scalar.divsi v17 c1_i32_7
  let c8_i32 : BitVec 32 := 8#32
  let v19 : BitVec 32 := Scalar.remsi v18 c8_i32
  let c1_i32_8 : BitVec 32 := 1#32
  let v20 : BitVec 32 := Scalar.addi v19 c1_i32_8
  let c8_i32_9 : BitVec 32 := 8#32
  let v21 : BitVec 32 := Scalar.remsi v20 c8_i32_9
  let c1_i32_11 : BitVec 32 := 1#32
  let v22 : BitVec 32 := Scalar.muli v21 c1_i32_11
  let v23 : BitVec 32 := Scalar.addi c0_i32_12 v22
  v23.toNat
def k0_dev2 (d17 : Dev nD) : Nat :=
  let c0_i32_16 : BitVec 32 := 0#32
  let v17 : BitVec 32 := Dev.word d17
  let c1_i32_7 : BitVec 32 := 1#32
  let v18 : BitVec 32 := Scalar.divsi v17 c1_i32_7
  let c8_i32 : BitVec 32 := 8#32
  let v19 : BitVec 32 := Scalar.remsi v18 c8_i32
  let c2_i32 : BitVec 32 := 2#32
  let v24 : BitVec 32 := Scalar.addi v19 c2_i32
  let c8_i32_13 : BitVec 32 := 8#32
  let v25 : BitVec 32 := Scalar.remsi v24 c8_i32_13
  let c1_i32_15 : BitVec 32 := 1#32
  let v26 : BitVec 32 := Scalar.muli v25 c1_i32_15
  let v27 : BitVec 32 := Scalar.addi c0_i32_16 v26
  v27.toNat
def k0_dev3 (d17 : Dev nD) : Nat :=
  let c0_i32_20 : BitVec 32 := 0#32
  let v17 : BitVec 32 := Dev.word d17
  let c1_i32_7 : BitVec 32 := 1#32
  let v18 : BitVec 32 := Scalar.divsi v17 c1_i32_7
  let c8_i32 : BitVec 32 := 8#32
  let v19 : BitVec 32 := Scalar.remsi v18 c8_i32
  let c3_i32 : BitVec 32 := 3#32
  let v28 : BitVec 32 := Scalar.addi v19 c3_i32
  let c8_i32_17 : BitVec 32 := 8#32
  let v29 : BitVec 32 := Scalar.remsi v28 c8_i32_17
  let c1_i32_19 : BitVec 32 := 1#32
  let v30 : BitVec 32 := Scalar.muli v29 c1_i32_19
  let v31 : BitVec 32 := Scalar.addi c0_i32_20 v30
  v31.toNat
def k0_dev4 (d17 : Dev nD) : Nat :=
  let c0_i32_24 : BitVec 32 := 0#32
  let v17 : BitVec 32 := Dev.word d17
  let c1_i32_7 : BitVec 32 := 1#32
  let v18 : BitVec 32 := Scalar.divsi v17 c1_i32_7
  let c8_i32 : BitVec 32 := 8#32
  let v19 : BitVec 32 := Scalar.remsi v18 c8_i32
  let c4_i32 : BitVec 32 := 4#32
  let v32 : BitVec 32 := Scalar.addi v19 c4_i32
  let c8_i32_21 : BitVec 32 := 8#32
  let v33 : BitVec 32 := Scalar.remsi v32 c8_i32_21
  let c1_i32_23 : BitVec 32 := 1#32
  let v34 : BitVec 32 := Scalar.muli v33 c1_i32_23
  let v35 : BitVec 32 := Scalar.addi c0_i32_24 v34
  v35.toNat
def k0_dev5 (d17 : Dev nD) : Nat :=
  let c0_i32_28 : BitVec 32 := 0#32
  let v17 : BitVec 32 := Dev.word d17
  let c1_i32_7 : BitVec 32 := 1#32
  let v18 : BitVec 32 := Scalar.divsi v17 c1_i32_7
  let c8_i32 : BitVec 32 := 8#32
  let v19 : BitVec 32 := Scalar.remsi v18 c8_i32
  let c5_i32 : BitVec 32 := 5#32
  let v36 : BitVec 32 := Scalar.addi v19 c5_i32
  let c8_i32_25 : BitVec 32 := 8#32
  let v37 : BitVec 32 := Scalar.remsi v36 c8_i32_25
  let c1_i32_27 : BitVec 32 := 1#32
  let v38 : BitVec 32 := Scalar.muli v37 c1_i32_27
  let v39 : BitVec 32 := Scalar.addi c0_i32_28 v38
  v39.toNat
def k0_dev6 (d17 : Dev nD) : Nat :=
  let c0_i32_32 : BitVec 32 := 0#32
  let v17 : BitVec 32 := Dev.word d17
  let c1_i32_7 : BitVec 32 := 1#32
  let v18 : BitVec 32 := Scalar.divsi v17 c1_i32_7
  let c8_i32 : BitVec 32 := 8#32
  let v19 : BitVec 32 := Scalar.remsi v18 c8_i32
  let c6_i32 : BitVec 32 := 6#32
  let v40 : BitVec 32 := Scalar.addi v19 c6_i32
  let c8_i32_29 : BitVec 32 := 8#32
  let v41 : BitVec 32 := Scalar.remsi v40 c8_i32_29
  let c1_i32_31 : BitVec 32 := 1#32
  let v42 : BitVec 32 := Scalar.muli v41 c1_i32_31
  let v43 : BitVec 32 := Scalar.addi c0_i32_32 v42
  v43.toNat
def k0_dev7 (d17 : Dev nD) : Nat :=
  let c0_i32_36 : BitVec 32 := 0#32
  let v17 : BitVec 32 := Dev.word d17
  let c1_i32_7 : BitVec 32 := 1#32
  let v18 : BitVec 32 := Scalar.divsi v17 c1_i32_7
  let c8_i32 : BitVec 32 := 8#32
  let v19 : BitVec 32 := Scalar.remsi v18 c8_i32
  let c7_i32 : BitVec 32 := 7#32
  let v44 : BitVec 32 := Scalar.addi v19 c7_i32
  let c8_i32_33 : BitVec 32 := 8#32
  let v45 : BitVec 32 := Scalar.remsi v44 c8_i32_33
  let c1_i32_35 : BitVec 32 := 1#32
  let v46 : BitVec 32 := Scalar.muli v45 c1_i32_35
  let v47 : BitVec 32 := Scalar.addi c0_i32_36 v46
  v47.toNat
def k0_cond4 (i : grid0.Coords) : BitVec 1 :=
  let arg0 : BitVec 32 := BitVec.ofNat 32 (i 0).val
  let c1_i32 : BitVec 32 := 1#32
  let v14 : BitVec 1 := Scalar.cmpi .eq arg0 c1_i32
  let v15 : BitVec 32 := Scalar.extui v14
  let c0_i32_6 : BitVec 32 := 0#32
  let v16 : BitVec 1 := Scalar.cmpi .ne v15 c0_i32_6
  v16

def k0_off1 (d17 : Dev nD) : Fin 2 → Nat :=
  let v17 : BitVec 32 := Dev.word d17
  let c1_i32_7 : BitVec 32 := 1#32
  let v18 : BitVec 32 := Scalar.divsi v17 c1_i32_7
  let c8_i32 : BitVec 32 := 8#32
  let v19 : BitVec 32 := Scalar.remsi v18 c8_i32
  let v21 : Index := Scalar.indexCast v19
  let c0_10 : Index := 0#32
  ![v21.toNat, 0]
def k0_off2 (d17 : Dev nD) : Fin 2 → Nat :=
  let v17 : BitVec 32 := Dev.word d17
  let c1_i32_7 : BitVec 32 := 1#32
  let v18 : BitVec 32 := Scalar.divsi v17 c1_i32_7
  let c8_i32 : BitVec 32 := 8#32
  let v19 : BitVec 32 := Scalar.remsi v18 c8_i32
  let c0_i32_17 : BitVec 32 := 0#32
  ![v19.toNat, 0]
def k0_dev8 (d17 : Dev nD) : Nat :=
  let c0_i32_16 : BitVec 32 := 0#32
  let v17 : BitVec 32 := Dev.word d17
  let c1_i32_7 : BitVec 32 := 1#32
  let v18 : BitVec 32 := Scalar.divsi v17 c1_i32_7
  let c8_i32 : BitVec 32 := 8#32
  let v19 : BitVec 32 := Scalar.remsi v18 c8_i32
  let c1_i32_11 : BitVec 32 := 1#32
  let v25 : BitVec 32 := Scalar.addi v19 c1_i32_11
  let c8_i32_12 : BitVec 32 := 8#32
  let v26 : BitVec 32 := Scalar.remsi v25 c8_i32_12
  let c1_i32_15 : BitVec 32 := 1#32
  let v27 : BitVec 32 := Scalar.muli v26 c1_i32_15
  let v28 : BitVec 32 := Scalar.addi c0_i32_16 v27
  v28.toNat
def k0_dev9 (d17 : Dev nD) : Nat :=
  let c0_i32_23 : BitVec 32 := 0#32
  let v17 : BitVec 32 := Dev.word d17
  let c1_i32_7 : BitVec 32 := 1#32
  let v18 : BitVec 32 := Scalar.divsi v17 c1_i32_7
  let c8_i32 : BitVec 32 := 8#32
  let v19 : BitVec 32 := Scalar.remsi v18 c8_i32
  let c2_i32 : BitVec 32 := 2#32
  let v35 : BitVec 32 := Scalar.addi v19 c2_i32
  let c8_i32_19 : BitVec 32 := 8#32
  let v36 : BitVec 32 := Scalar.remsi v35 c8_i32_19
  let c1_i32_22 : BitVec 32 := 1#32
  let v37 : BitVec 32 := Scalar.muli v36 c1_i32_22
  let v38 : BitVec 32 := Scalar.addi c0_i32_23 v37
  v38.toNat
def k0_dev10 (d17 : Dev nD) : Nat :=
  let c0_i32_30 : BitVec 32 := 0#32
  let v17 : BitVec 32 := Dev.word d17
  let c1_i32_7 : BitVec 32 := 1#32
  let v18 : BitVec 32 := Scalar.divsi v17 c1_i32_7
  let c8_i32 : BitVec 32 := 8#32
  let v19 : BitVec 32 := Scalar.remsi v18 c8_i32
  let c3_i32 : BitVec 32 := 3#32
  let v45 : BitVec 32 := Scalar.addi v19 c3_i32
  let c8_i32_26 : BitVec 32 := 8#32
  let v46 : BitVec 32 := Scalar.remsi v45 c8_i32_26
  let c1_i32_29 : BitVec 32 := 1#32
  let v47 : BitVec 32 := Scalar.muli v46 c1_i32_29
  let v48 : BitVec 32 := Scalar.addi c0_i32_30 v47
  v48.toNat
def k0_dev11 (d17 : Dev nD) : Nat :=
  let c0_i32_37 : BitVec 32 := 0#32
  let v17 : BitVec 32 := Dev.word d17
  let c1_i32_7 : BitVec 32 := 1#32
  let v18 : BitVec 32 := Scalar.divsi v17 c1_i32_7
  let c8_i32 : BitVec 32 := 8#32
  let v19 : BitVec 32 := Scalar.remsi v18 c8_i32
  let c4_i32 : BitVec 32 := 4#32
  let v55 : BitVec 32 := Scalar.addi v19 c4_i32
  let c8_i32_33 : BitVec 32 := 8#32
  let v56 : BitVec 32 := Scalar.remsi v55 c8_i32_33
  let c1_i32_36 : BitVec 32 := 1#32
  let v57 : BitVec 32 := Scalar.muli v56 c1_i32_36
  let v58 : BitVec 32 := Scalar.addi c0_i32_37 v57
  v58.toNat
def k0_dev12 (d17 : Dev nD) : Nat :=
  let c0_i32_44 : BitVec 32 := 0#32
  let v17 : BitVec 32 := Dev.word d17
  let c1_i32_7 : BitVec 32 := 1#32
  let v18 : BitVec 32 := Scalar.divsi v17 c1_i32_7
  let c8_i32 : BitVec 32 := 8#32
  let v19 : BitVec 32 := Scalar.remsi v18 c8_i32
  let c5_i32 : BitVec 32 := 5#32
  let v65 : BitVec 32 := Scalar.addi v19 c5_i32
  let c8_i32_40 : BitVec 32 := 8#32
  let v66 : BitVec 32 := Scalar.remsi v65 c8_i32_40
  let c1_i32_43 : BitVec 32 := 1#32
  let v67 : BitVec 32 := Scalar.muli v66 c1_i32_43
  let v68 : BitVec 32 := Scalar.addi c0_i32_44 v67
  v68.toNat
def k0_dev13 (d17 : Dev nD) : Nat :=
  let c0_i32_51 : BitVec 32 := 0#32
  let v17 : BitVec 32 := Dev.word d17
  let c1_i32_7 : BitVec 32 := 1#32
  let v18 : BitVec 32 := Scalar.divsi v17 c1_i32_7
  let c8_i32 : BitVec 32 := 8#32
  let v19 : BitVec 32 := Scalar.remsi v18 c8_i32
  let c6_i32 : BitVec 32 := 6#32
  let v75 : BitVec 32 := Scalar.addi v19 c6_i32
  let c8_i32_47 : BitVec 32 := 8#32
  let v76 : BitVec 32 := Scalar.remsi v75 c8_i32_47
  let c1_i32_50 : BitVec 32 := 1#32
  let v77 : BitVec 32 := Scalar.muli v76 c1_i32_50
  let v78 : BitVec 32 := Scalar.addi c0_i32_51 v77
  v78.toNat
def k0_dev14 (d17 : Dev nD) : Nat :=
  let c0_i32_59 : BitVec 32 := 0#32
  let v17 : BitVec 32 := Dev.word d17
  let c1_i32_7 : BitVec 32 := 1#32
  let v18 : BitVec 32 := Scalar.divsi v17 c1_i32_7
  let c8_i32 : BitVec 32 := 8#32
  let v19 : BitVec 32 := Scalar.remsi v18 c8_i32
  let c7_i32_54 : BitVec 32 := 7#32
  let v85 : BitVec 32 := Scalar.addi v19 c7_i32_54
  let c8_i32_55 : BitVec 32 := 8#32
  let v86 : BitVec 32 := Scalar.remsi v85 c8_i32_55
  let c1_i32_58 : BitVec 32 := 1#32
  let v87 : BitVec 32 := Scalar.muli v86 c1_i32_58
  let v88 : BitVec 32 := Scalar.addi c0_i32_59 v87
  v88.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  hamt_1 : (1#32 : BitVec 32).msb = false
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [0] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  hamt_7 : (7#32 : BitVec 32).msb = false
  inb_S7_S1_0 : ∀ a, (![0] : Fin 1 → Nat) a + S1.size a ≤ S7.size a
  squeezes_S1_S_ : S1.Squeezes S_
  inb_S7_S1_1 : ∀ a, (![1] : Fin 1 → Nat) a + S1.size a ≤ S7.size a
  inb_S7_S1_2 : ∀ a, (![2] : Fin 1 → Nat) a + S1.size a ≤ S7.size a
  inb_S7_S1_3 : ∀ a, (![3] : Fin 1 → Nat) a + S1.size a ≤ S7.size a
  inb_S7_S1_4 : ∀ a, (![4] : Fin 1 → Nat) a + S1.size a ≤ S7.size a
  inb_S7_S1_5 : ∀ a, (![5] : Fin 1 → Nat) a + S1.size a ≤ S7.size a
  inb_S7_S1_6 : ∀ a, (![6] : Fin 1 → Nat) a + S1.size a ≤ S7.size a
  inb_S8x1024_S8x1024_0_0 : ∀ a, (![0, 0] : Fin 2 → Nat) a + S8x1024.size a ≤ S8x1024.size a
  h_S8x1024 : 0 < S8x1024.numel
  reduces_S8x1024_S1024 : S8x1024.Reduces [0] S1024
  hcc0_scratch2 : 3 + S7.numel ≤ 17
  hcc0_scratch3 : 10 + S7.numel ≤ 17
  hrank0 : 0 < grid0.rank
  k0_dev1_lt : ∀ (i : grid0.Coords) (d17 : Dev nD), ∀ (k0_h1 : k0_cond1 i = 1#1), (k0_dev1 d17) < nD
  k0_dev2_lt : ∀ (i : grid0.Coords) (d17 : Dev nD), ∀ (k0_h1 : k0_cond1 i = 1#1), (k0_dev2 d17) < nD
  k0_dev3_lt : ∀ (i : grid0.Coords) (d17 : Dev nD), ∀ (k0_h1 : k0_cond1 i = 1#1), (k0_dev3 d17) < nD
  k0_dev4_lt : ∀ (i : grid0.Coords) (d17 : Dev nD), ∀ (k0_h1 : k0_cond1 i = 1#1), (k0_dev4 d17) < nD
  k0_dev5_lt : ∀ (i : grid0.Coords) (d17 : Dev nD), ∀ (k0_h1 : k0_cond1 i = 1#1), (k0_dev5 d17) < nD
  k0_dev6_lt : ∀ (i : grid0.Coords) (d17 : Dev nD), ∀ (k0_h1 : k0_cond1 i = 1#1), (k0_dev6 d17) < nD
  k0_dev7_lt : ∀ (i : grid0.Coords) (d17 : Dev nD), ∀ (k0_h1 : k0_cond1 i = 1#1), (k0_dev7 d17) < nD
  k0_off1_inb : ∀ (i : grid0.Coords) (d17 : Dev nD), ∀ (k0_h4 : k0_cond4 i = 1#1), ∀ a, (k0_off1 d17) a + S1x1024.size a ≤ S8x1024.size a
  k0_off2_inb : ∀ (i : grid0.Coords) (d17 : Dev nD), ∀ (k0_h4 : k0_cond4 i = 1#1), ∀ a, (k0_off2 d17) a + S1x1024.size a ≤ S8x1024.size a
  k0_dev8_lt : ∀ (i : grid0.Coords) (d17 : Dev nD), ∀ (k0_h4 : k0_cond4 i = 1#1), (k0_dev8 d17) < nD
  k0_dev9_lt : ∀ (i : grid0.Coords) (d17 : Dev nD), ∀ (k0_h4 : k0_cond4 i = 1#1), (k0_dev9 d17) < nD
  k0_dev10_lt : ∀ (i : grid0.Coords) (d17 : Dev nD), ∀ (k0_h4 : k0_cond4 i = 1#1), (k0_dev10 d17) < nD
  k0_dev11_lt : ∀ (i : grid0.Coords) (d17 : Dev nD), ∀ (k0_h4 : k0_cond4 i = 1#1), (k0_dev11 d17) < nD
  k0_dev12_lt : ∀ (i : grid0.Coords) (d17 : Dev nD), ∀ (k0_h4 : k0_cond4 i = 1#1), (k0_dev12 d17) < nD
  k0_dev13_lt : ∀ (i : grid0.Coords) (d17 : Dev nD), ∀ (k0_h4 : k0_cond4 i = 1#1), (k0_dev13 d17) < nD
  k0_dev14_lt : ∀ (i : grid0.Coords) (d17 : Dev nD), ∀ (k0_h4 : k0_cond4 i = 1#1), (k0_dev14 d17) < nD
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x1024.size a
  hwx0_0 : ∀ i : grid0.Coords, EltTy.bits .f32 = 32 ∨ (Rect.block (s := S2048x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)

variable [Facts₀]

abbrev cc0_scratch2 : DmaSems sig S7 := SemArray.consecutive 3 S7 hcc0_scratch2
abbrev cc0_scratch3 : DmaSems sig S7 := SemArray.consecutive 10 S7 hcc0_scratch3

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond4 i == 1#1) | ⟨_ + 2, h⟩ => absurd h (Nat.not_lt.2 (Nat.le_add_left _ _))

class Facts : Prop extends Facts₀ where

variable [Facts]
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S16384x1024_S1024_d0 : S16384x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.Vals.lean ====
/- The values the all-gather-max kernel computes on each device, as pure terms of the argument arrays.

   Device `c` holds a 2048-row block of `x`, read in two 1024-row blocks. The accumulator after the second
   point is the column-wise maximum of both blocks; that row is what every device contributes to the
   gathered 8-row table, and the result is the column-wise maximum of the table. -/
import proofs.«900919_g7700000000000920_dist_max_ax0_shard0_i_m2048_n1024_v7x_i8_f32_1_alg».proof.Proof.Gen.KernelIdeal.Skeleton
import proofs.«900919_g7700000000000920_dist_max_ax0_shard0_i_m2048_n1024_v7x_i8_f32_1_alg».proof.Proof.Gen.KernelIdeal.Frame
import Idealize.ShloMosaic.Lib.ValueIdx

noncomputable section

namespace Cert.KernelIdeal.Coll

open Cert.KernelIdeal Cert.KernelIdeal.Gen
open Idealize.ShloMosaic Idealize.ShloMosaic.TcCoe

variable {F : FTy → Type} [FloatOps F]
variable (m : (ℓ : Loc nD τ sig) → Buf (Elt F) ℓ)

/-- The 1024-row block of device `c`'s rows that grid point `t` reads. -/
abbrev xblk (c : Dev nD) (t : Fin cfg0.N) : Vec F S1024x1024 .f32 := Gen.iblk m c 0 t

/-- The accumulator after the first point: the column maxima of the first block. -/
def acc0 (c : Dev nD) : Vec F S1x1024 .f32 := k0_pay2 (xblk m c t0_0)

/-- The accumulator after the second point: the column maxima of both blocks. -/
def acc1 (c : Dev nD) : Vec F S1x1024 .f32 := k0_pay3 (xblk m c t0_1) (acc0 m c)

/-- The row device `c` contributes to every device's table. -/
def rowV (c : Dev nD) : Vec F S1x1024 .f32 := k0_pay4 (acc1 m c)

/-- The gathered table: row `r` is device `r`'s contribution. -/
def commV : Vec F S8x1024 .f32 := fun i => rowV m ⟨(i 0).val, (i 0).isLt⟩ (ValueIdx.ix2 (0 : Fin 1) (i 1))

/-- The result on every device: the column maxima of the table. -/
def outV : Vec F S1x1024 .f32 := k0_pay5 (commV m)

end Cert.KernelIdeal.Coll

end
-- ==== Proof.BridgeMax.lean ====
/- A maximum taken in two levels is the maximum taken at once.

   Over a linear order, the fold of `max` from a start value `b` over a finite family `F` is the least upper
   bound of `b` and the family's values. If every value of `F` occurs among the values of two doubly indexed
   families `G0`, `G1` and every value of those occurs in `F`, then folding `F` at once, and folding each row of
   `G0` and of `G1`, joining the two and folding the joins over the rows, bound the same elements from below,
   hence are equal. Only associativity, commutativity and idempotence of `max` are behind this: no value has to
   be finite. -/
import Mathlib.Data.Finset.Fold
import Mathlib.Data.Fintype.Basic
import Mathlib.Order.Basic

namespace Cert.BridgeMax

variable {α ι ρ κ : Type} [LinearOrder α] [Fintype ι] [Fintype ρ] [Fintype κ]

/-- The maximum of one family is the maximum over the rows of the join of two row maxima, when the family's values
    are exactly the values of the two doubly indexed families. -/
theorem fold_max_two_level (b : α) (F : ι → α) (G0 G1 : ρ → κ → α)
    (hF : ∀ i, (∃ r k, F i = G0 r k) ∨ (∃ r k, F i = G1 r k))
    (h0 : ∀ r k, ∃ i, G0 r k = F i) (h1 : ∀ r k, ∃ i, G1 r k = F i) :
    (Finset.univ : Finset ι).fold max b F
      = (Finset.univ : Finset ρ).fold max b
          (fun r => max ((Finset.univ : Finset κ).fold max b (G0 r)) ((Finset.univ : Finset κ).fold max b (G1 r))) := by
  refine eq_of_forall_ge_iff fun a => ?_
  rw [Finset.fold_max_le, Finset.fold_max_le]
  constructor
  · rintro ⟨hb, h⟩
    refine ⟨hb, fun r _ => max_le ?_ ?_⟩
    · rw [Finset.fold_max_le]
      refine ⟨hb, fun k _ => ?_⟩
      obtain ⟨i, e⟩ := h0 r k
      rw [e]; exact h i (Finset.mem_univ i)
    · rw [Finset.fold_max_le]
      refine ⟨hb, fun k _ => ?_⟩
      obtain ⟨i, e⟩ := h1 r k
      rw [e]; exact h i (Finset.mem_univ i)
  · rintro ⟨hb, h⟩
    refine ⟨hb, fun i _ => ?_⟩
    rcases hF i with ⟨r, k, e⟩ | ⟨r, k, e⟩
    · rw [e]
      have hr := (max_le_iff.1 (h r (Finset.mem_univ r))).1
      rw [Finset.fold_max_le] at hr
      exact hr.2 k (Finset.mem_univ k)
    · rw [e]
      have hr := (max_le_iff.1 (h r (Finset.mem_univ r))).2
      rw [Finset.fold_max_le] at hr
      exact hr.2 k (Finset.mem_univ k)

/-- info: 'Cert.BridgeMax.fold_max_two_level' depends on axioms: [propext, Classical.choice, Quot.sound] -/
#guard_msgs in #print axioms fold_max_two_level

end Cert.BridgeMax
-- ==== Proof.BridgeOps.lean ====
/- Column maxima read at an index.

   A matrix of `r` rows and `n` columns reduced along its rows with `max`, from a start value, has at column `t` the
   fold of `max` from that value over the `r` entries of the column, in any order: `max` commutes and associates on
   the extended reals. This holds for the vector reduction a kernel prints (followed by the cast of the `n` results
   to one row) and for the one-operand reduce of a host program. -/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.BridgeOps

open Idealize.ShloMosaic Idealize.ShloMosaic.ValueIdx

/-- Over a matrix reduced along its rows, the index above column `t` with row `k` put back is `(k, t)`. -/
theorem lift_rows {r n : Nat} (h : (⟨2, ![r, n]⟩ : Shape).Reduces [0] (⟨1, ![n]⟩ : Shape)) (t : Fin n)
    (k : Fin ((⟨2, ![r, n]⟩ : Shape).size 0)) : h.lift (ix1 t) k = ix2 (⟨k.val, k.isLt⟩ : Fin r) t := by
  funext a
  apply Fin.ext
  match a with
  | ⟨0, _⟩ => rfl
  | ⟨1, _⟩ => rfl

/-- The column maxima of an `r × n` matrix, cast to one row: at `(u, t)` the fold of `max` from the start value over
    the `r` entries of column `t`. -/
theorem colmax_apply {r n : Nat} (v : FVec Ideal ⟨2, ![r, n]⟩ .f32) (acc : BitVec 32)
    (h : (⟨2, ![r, n]⟩ : Shape).Reduces [0] (⟨1, ![n]⟩ : Shape)) (hφ : FKind.Formats .f32)
    (hacc : acc = FKind.maximumf.neutral .f32 hφ)
    (hsc : (⟨1, ![n]⟩ : Shape).ShapeCasts (⟨2, ![1, n]⟩ : Shape)) (u : Fin 1) (t : Fin n) :
    shapeCast (⟨2, ![1, n]⟩ : Shape) (multiReduction (F := Ideal) .maximumf [0] (⟨1, ![n]⟩ : Shape) v acc h hφ hacc) hsc (ix2 u t)
      = (Finset.univ : Finset (Fin r)).fold max (FloatOps.ofBits (F := Ideal) .f32 acc) (fun k => v (ix2 k t)) := by
  rw [shapeCast_a_1a_apply, Ideal.multiReduction_maximumf_single]
  exact congrArg (fun f => Finset.fold max (FloatOps.ofBits (F := Ideal) .f32 acc) f (Finset.univ : Finset (Fin r)))
    (funext fun k => congrArg v (lift_rows h t k))

/-- A host program's reduce of an `r × n` matrix along its rows with a `max` body: at column `t` the fold of `max`
    from the initial value's element over the `r` entries of column `t`. -/
theorem hostColmax_apply {r n : Nat} (x : (⟨2, ![r, n]⟩ : Shape).Idx → Ideal .f32) (init : (⟨0, ![]⟩ : Shape).Idx → Ideal .f32)
    (h' : (⟨2, ![r, n]⟩ : Shape).ReducesTo [0] (⟨1, ![n]⟩ : Shape)) (h : (⟨2, ![r, n]⟩ : Shape).Reduces [0] (⟨1, ![n]⟩ : Shape))
    (hu : 0 < (⟨0, ![]⟩ : Shape).numel) (t : Fin n) :
    Host.reduce (FloatOps.maximumf (F := Ideal) (φ := .f32)) x init h' hu (ix1 t)
      = (Finset.univ : Finset (Fin r)).fold max (init (Shape.Idx.first hu)) (fun k => x (ix2 k t)) := by
  rw [Host.reduce_eq_fold_single (FloatOps.maximumf (F := Ideal) (φ := .f32)) x init h' h hu]
  exact congrArg (fun f => Finset.fold max (init (Shape.Idx.first hu)) f (Finset.univ : Finset (Fin r)))
    (funext fun k => congrArg x (lift_rows h t k))

/-- info: 'Cert.BridgeOps.colmax_apply' depends on axioms: [propext, Classical.choice, Quot.sound] -/
#guard_msgs in #print axioms colmax_apply
/-- info: 'Cert.BridgeOps.hostColmax_apply' depends on axioms: [propext, Classical.choice, Quot.sound] -/
#guard_msgs in #print axioms hostColmax_apply

end Cert.BridgeOps

end
-- ==== Proof.BridgeKernel.lean ====
/- The kernel's result, read at a column, in terms of what each device holds of the argument.

   Device `c` reads its 2048 rows as two blocks of 1024 rows. Its accumulator after the second grid point is, at
   column `t`, the join of the two blocks' maxima of that column; that is the row it contributes to the table every
   device gathers, and the result is, at column `t`, the maximum over the eight contributed rows. -/
import proofs.«900919_g7700000000000920_dist_max_ax0_shard0_i_m2048_n1024_v7x_i8_f32_1_alg».proof.Proof.Vals
import proofs.«900919_g7700000000000920_dist_max_ax0_shard0_i_m2048_n1024_v7x_i8_f32_1_alg».proof.Proof.BridgeOps

noncomputable section

namespace Cert.Bridge.Kernel

open Idealize.ShloMosaic Idealize.ShloMosaic.TcCoe Idealize.ShloMosaic.ValueIdx
open Cert.KernelIdeal Cert.KernelIdeal.Gen Cert.KernelIdeal.Coll Cert.BridgeOps

/-- The start value of both reductions: the pattern of minus infinity. -/
abbrev negInf : Ideal .f32 := FloatOps.ofBits (F := Ideal) .f32 0xFF800000#32

/-! ## The payloads at an index -/

/-- The block's column maxima as one row: at `(u, t)` the maximum of column `t` of the block. -/
theorem pay1_apply (v : Vec Ideal S1024x1024 .f32) (u : Fin 1) (t : Fin 1024) :
    k0_pay1 (F := Ideal) v (ix2 u t) = (Finset.univ : Finset (Fin 1024)).fold max negInf (fun k => v (ix2 k t)) := by
  show shapeCast S1x1024 (multiReduction (F := Ideal) .maximumf [0] S1024 (shapeCast S1024x1024 v shapeCasts_S1024x1024_S1024x1024)
      0xFF800000#32 reduces_S1024x1024_S1024 (.inl rfl) rfl) shapeCasts_S1024_S1x1024 (ix2 u t) = _
  rw [shapeCast_self]
  exact colmax_apply v _ _ _ _ _ u t

/-- The first accumulator is the first block's column maxima. -/
theorem pay2_apply (v : Vec Ideal S1024x1024 .f32) (u : Fin 1) (t : Fin 1024) :
    k0_pay2 (F := Ideal) v (ix2 u t) = (Finset.univ : Finset (Fin 1024)).fold max negInf (fun k => v (ix2 k t)) := by
  show shapeCast S1x1024 (k0_pay1 (F := Ideal) v) shapeCasts_S1x1024_S1x1024 (ix2 u t) = _
  rw [shapeCast_self]
  exact pay1_apply v u t

/-- The second accumulator joins the first with the second block's column maxima. -/
theorem pay3_apply (v : Vec Ideal S1024x1024 .f32) (a : Vec Ideal S1x1024 .f32) (u : Fin 1) (t : Fin 1024) :
    k0_pay3 (F := Ideal) v a (ix2 u t)
      = max (a (ix2 u t)) ((Finset.univ : Finset (Fin 1024)).fold max negInf (fun k => v (ix2 k t))) := by
  show shapeCast S1x1024 (maximumf (F := Ideal) a (k0_pay1 (F := Ideal) v)) shapeCasts_S1x1024_S1x1024 (ix2 u t) = _
  rw [shapeCast_self, maximumf_apply, pay1_apply]

/-- The contributed row is the accumulator. -/
theorem pay4_eq (a : Vec Ideal S1x1024 .f32) : k0_pay4 (F := Ideal) a = a := by
  show shapeCast S1x1024 a shapeCasts_S1x1024_S1x1024 = a
  rw [shapeCast_self]

/-- The result is the table's column maxima. -/
theorem pay5_apply (w : Vec Ideal S8x1024 .f32) (u : Fin 1) (t : Fin 1024) :
    k0_pay5 (F := Ideal) w (ix2 u t) = (Finset.univ : Finset (Fin 8)).fold max negInf (fun r => w (ix2 r t)) := by
  show shapeCast S1x1024 (multiReduction (F := Ideal) .maximumf [0] S1024 w 0xFF800000#32 reduces_S8x1024_S1024 (.inl rfl) rfl)
      shapeCasts_S1024_S1x1024 (ix2 u t) = _
  exact colmax_apply w _ _ _ _ _ u t

/-! ## The blocks a device reads -/

variable (m : (ℓ : Loc nD τ sig) → Buf (Elt Ideal) ℓ)

/-- What device `c` holds of the argument, as a matrix of 2048 rows. -/
abbrev xarr (c : Dev nD) : Vec Ideal S2048x1024 .f32 := m ((c : Thread nD τ).loc main_arg0)

/-- The block grid point `t` reads is rows `1024 t … 1024 t + 1023` of the device's rows: a block's row is the
    block index times the block height plus the row inside the block, its column the column inside. -/
theorem xblk_apply (c : Dev nD) (t : Fin cfg0.N) (x : S1024x1024.Idx) (k : S2048x1024.Idx)
    (hk0 : (k 0).val = 1024 * t.val + (x 0).val) (hk1 : (k 1).val = (x 1).val) :
    (xblk m c t : Vec Ideal S1024x1024 .f32) x = xarr m c k := by
  have hi : win0_0.index t 0 = t.val ∧ win0_0.index t 1 = 0 := by
    rcases fin_N0 t with rfl | rfl <;> decide
  unfold xblk iblk
  rw [View.read_apply]
  show V m c main_arg0 _ = m (c.tc.loc main_arg0) _
  unfold V
  congr 1
  funext a
  apply Fin.ext
  match a with
  | ⟨0, _⟩ => show win0_0.index t 0 * 1024 + 1 * (x 0).val = (k 0).val; rw [hi.1, hk0]; omega
  | ⟨1, _⟩ => show win0_0.index t 1 * 1024 + 1 * (x 1).val = (k 1).val; rw [hi.2, hk1]; omega

/-! ## The result at a column -/

/-- Device `c`'s contributed row at column `t`: the join of the maxima of that column over its first and over its
    second 1024 rows. -/
theorem rowV_apply (c : Dev nD) (u : Fin 1) (t : Fin 1024) :
    rowV (F := Ideal) m c (ix2 u t)
      = max ((Finset.univ : Finset (Fin 1024)).fold max negInf
              (fun k => xarr m c (ix2 (⟨k.val, Nat.lt_of_lt_of_le k.isLt (by decide)⟩ : Fin 2048) t)))
            ((Finset.univ : Finset (Fin 1024)).fold max negInf
              (fun k => xarr m c (ix2 (⟨1024 + k.val, Nat.add_lt_add_left k.isLt 1024⟩ : Fin 2048) t))) := by
  unfold rowV
  rw [pay4_eq]
  unfold acc1
  rw [pay3_apply (xblk m c t0_1) (acc0 m c) u t]
  unfold acc0
  rw [pay2_apply (xblk m c t0_0) u t]
  congr 1
  · refine congrArg (fun f => Finset.fold max negInf f (Finset.univ : Finset (Fin 1024))) (funext fun k => ?_)
    exact xblk_apply m c t0_0 (ix2 k t) _ (by show k.val = 1024 * 0 + k.val; omega) rfl
  · refine congrArg (fun f => Finset.fold max negInf f (Finset.univ : Finset (Fin 1024))) (funext fun k => ?_)
    exact xblk_apply m c t0_1 (ix2 k t) _ (by show 1024 + k.val = 1024 * 1 + k.val; omega) rfl

/-- The result at column `t`: the maximum over the eight devices of their contributed rows there. -/
theorem outV_apply (u : Fin 1) (t : Fin 1024) :
    outV (F := Ideal) m (ix2 u t)
      = (Finset.univ : Finset (Fin 8)).fold max negInf (fun r : Fin 8 =>
          max ((Finset.univ : Finset (Fin 1024)).fold max negInf
                (fun k => xarr m r (ix2 (⟨k.val, Nat.lt_of_lt_of_le k.isLt (by decide)⟩ : Fin 2048) t)))
              ((Finset.univ : Finset (Fin 1024)).fold max negInf
                (fun k => xarr m r (ix2 (⟨1024 + k.val, Nat.add_lt_add_left k.isLt 1024⟩ : Fin 2048) t)))) := by
  unfold outV
  rw [pay5_apply (commV m) u t]
  refine congrArg (fun f => Finset.fold max negInf f (Finset.univ : Finset (Fin 8))) (funext fun r => ?_)
  exact rowV_apply m r (0 : Fin 1) t

/-- info: 'Cert.Bridge.Kernel.outV_apply' depends on axioms: [propext, Classical.choice, Quot.sound] -/
#guard_msgs in #print axioms outV_apply

end Cert.Bridge.Kernel

end
-- ==== Proof.BridgeRef.lean ====
/- The reference's result, read at a column.

   The reference takes the maximum of the whole 16384-row array along its rows, from minus infinity, and lays the
   1024 results out as one row: at column `t` the fold of `max` over the 16384 entries of column `t`. -/
import proofs.«900919_g7700000000000920_dist_max_ax0_shard0_i_m2048_n1024_v7x_i8_f32_1_alg».proof.Proof.Gen.ReferenceIdeal.Read
import proofs.«900919_g7700000000000920_dist_max_ax0_shard0_i_m2048_n1024_v7x_i8_f32_1_alg».proof.Proof.BridgeOps

noncomputable section

namespace Cert.Bridge.Ref

open Idealize.ShloMosaic Idealize.ShloMosaic.ValueIdx
open Cert.ReferenceIdeal Cert.ReferenceIdeal.Gen Cert.ReferenceIdeal.Read Cert.BridgeOps

/-- The reference's row at column `t`: the maximum, from minus infinity, of column `t` of the whole array. -/
theorem ref_apply (X : (⟨S16384x1024, .f32⟩ : BufTy).Contents (Elt Ideal)) (u : Fin 1) (t : Fin 1024) :
    val_main_v1 (F := Ideal) X (ix2 u t)
      = (Finset.univ : Finset (Fin 16384)).fold max (FloatOps.ofBits (F := Ideal) .f32 0xFF800000#32) (fun k => X (ix2 k t)) := by
  have hr : S16384x1024.Reduces [0] S1024 := by decide
  have e : idx_main_v1 (ix2 u t) = ix1 t := by
    funext a
    match a with
    | ⟨0, _⟩ => rfl
  rw [val_main_v1_apply, e]
  unfold val_main_v0
  exact hostColmax_apply X (val_main_cst (F := Ideal)) reducesTo_S16384x1024_S1024_d0 hr h_S_ t

/-- info: 'Cert.Bridge.Ref.ref_apply' depends on axioms: [propext, Classical.choice, Quot.sound] -/
#guard_msgs in #print axioms ref_apply

end Cert.Bridge.Ref

end
-- ==== Proof.Bridge.lean ====
/- The kernel's result is the reference's.

   Each of the eight devices holds 2048 consecutive rows of the whole 16384-row array: device `r`'s row `a` is row
   `2048 r + a` of the whole. The kernel's result at column `t` is the maximum over the devices of the join of the
   column's maxima over the device's first and second 1024 rows; the reference's is the maximum of the column over
   all 16384 rows. Every row of the whole array is row `i` or row `1024 + i` of exactly one device, and every such
   device row is a row of the whole, so the two maxima range over the same entries and are equal. No entry has to be
   finite: only the order on the extended reals is used. -/
import proofs.«900919_g7700000000000920_dist_max_ax0_shard0_i_m2048_n1024_v7x_i8_f32_1_alg».proof.Proof.BridgeMax
import proofs.«900919_g7700000000000920_dist_max_ax0_shard0_i_m2048_n1024_v7x_i8_f32_1_alg».proof.Proof.BridgeKernel
import proofs.«900919_g7700000000000920_dist_max_ax0_shard0_i_m2048_n1024_v7x_i8_f32_1_alg».proof.Proof.BridgeRef
import Idealize.ShloMosaic.Lib.Layout

noncomputable section

namespace Cert.Bridge

open Idealize.ShloMosaic Idealize.ShloMosaic.TcCoe Idealize.ShloMosaic.ValueIdx

/-- Device `r`'s entry at row `a`, column `t` is the whole array's at row `2048 r + a`, column `t`. -/
theorem xarr_apply
    (m : (ℓ : Loc Cert.KernelIdeal.nD Cert.KernelIdeal.τ Cert.KernelIdeal.sig) → Buf (Elt Ideal) ℓ)
    (X : (⟨Cert.ReferenceIdeal.S16384x1024, .f32⟩ : BufTy).Contents (Elt Ideal))
    (hagree : ∀ c : Dev Cert.KernelIdeal.nD,
      m ((c.tc : Thread Cert.KernelIdeal.nD Cert.KernelIdeal.τ).loc Cert.KernelIdeal.main_arg0)
        = Layout.block ⟨2, ![2048, 1024]⟩ ⟨2, ![16384, 1024]⟩ 0 8 c X)
    (r : Dev Cert.KernelIdeal.nD) (a : Fin 2048) (t : Fin 1024) (k : Fin 16384) (hk : k.val = 2048 * r.val + a.val) :
    Kernel.xarr m r (ix2 a t) = X (ix2 k t) := by
  show m ((r.tc : Thread Cert.KernelIdeal.nD Cert.KernelIdeal.τ).loc Cert.KernelIdeal.main_arg0) (ix2 a t) = X (ix2 k t)
  rw [hagree r, Layout.block_apply]
  congr 1
  funext b
  apply Fin.ext
  match b with
  | ⟨0, _⟩ => show r.val * 2048 + a.val = k.val; rw [hk]; omega
  | ⟨1, _⟩ => rfl

theorem outV_eq_ref
    (m : (ℓ : Loc Cert.KernelIdeal.nD Cert.KernelIdeal.τ Cert.KernelIdeal.sig) → Buf (Elt Ideal) ℓ)
    (X : (⟨Cert.ReferenceIdeal.S16384x1024, .f32⟩ : BufTy).Contents (Elt Ideal))
    (hagree : ∀ c : Dev Cert.KernelIdeal.nD,
      m ((c.tc : Thread Cert.KernelIdeal.nD Cert.KernelIdeal.τ).loc Cert.KernelIdeal.main_arg0)
        = Layout.block ⟨2, ![2048, 1024]⟩ ⟨2, ![16384, 1024]⟩ 0 8 c X) :
    Cert.KernelIdeal.Coll.outV (F := Ideal) m = Cert.ReferenceIdeal.Read.val_main_v1 (F := Ideal) X := by
  funext j
  obtain ⟨u, t, rfl⟩ : ∃ (u : Fin 1) (t : Fin 1024), j = ix2 u t := ⟨j 0, j 1, eq_ix2 j⟩
  rw [Kernel.outV_apply m u t, Ref.ref_apply X u t]
  refine (BridgeMax.fold_max_two_level Kernel.negInf (fun k : Fin 16384 => X (ix2 k t))
    (fun (r : Fin 8) (i : Fin 1024) =>
      Kernel.xarr m r (ix2 (⟨i.val, Nat.lt_of_lt_of_le i.isLt (by decide)⟩ : Fin 2048) t))
    (fun (r : Fin 8) (i : Fin 1024) =>
      Kernel.xarr m r (ix2 (⟨1024 + i.val, Nat.add_lt_add_left i.isLt 1024⟩ : Fin 2048) t)) ?_ ?_ ?_).symm
  · -- row `k` of the whole array is a row of device `k / 2048`: in its first half if `k % 2048 < 1024`, else in its second
    intro k
    have hk := k.isLt
    by_cases hlt : k.val % 2048 < 1024
    · refine Or.inl ⟨⟨k.val / 2048, by omega⟩, ⟨k.val % 2048, hlt⟩, ?_⟩
      exact (xarr_apply m X hagree _ _ t k (by show k.val = 2048 * (k.val / 2048) + k.val % 2048; omega)).symm
    · refine Or.inr ⟨⟨k.val / 2048, by omega⟩, ⟨k.val % 2048 - 1024, by omega⟩, ?_⟩
      exact (xarr_apply m X hagree _ _ t k
        (by show k.val = 2048 * (k.val / 2048) + (1024 + (k.val % 2048 - 1024)); omega)).symm
  · -- a row of a device's first half is a row of the whole array
    intro r i
    have hr := r.isLt
    have hi := i.isLt
    exact ⟨⟨2048 * r.val + i.val, by omega⟩, xarr_apply m X hagree r _ t _ rfl⟩
  · -- and so is a row of its second half
    intro r i
    have hr := r.isLt
    have hi := i.isLt
    exact ⟨⟨2048 * r.val + (1024 + i.val), by omega⟩, xarr_apply m X hagree r _ t _ rfl⟩

/-- info: 'Cert.Bridge.outV_eq_ref' depends on axioms: [propext, Classical.choice, Quot.sound] -/
#guard_msgs in #print axioms outV_eq_ref

end Cert.Bridge

end
-- ==== Proof.Assemble.lean ====
/- The certificate's conjuncts from one run of each kernel program.

   Once the idealized kernel is known to run, on every device, to the result vector `outV m` with its argument
   unchanged, everything the certificate claims of it follows: its frame is that run with the value dropped; the
   reference runs to the column maxima of its whole array, which the result vector equals when each device holds its
   block of that array, so both end at one value. The word-level kernel's frame is its own run. The reference's frame
   is its run with the value dropped. The precondition is not used: the maximum needs no finiteness. -/
import proofs.«900919_g7700000000000920_dist_max_ax0_shard0_i_m2048_n1024_v7x_i8_f32_1_alg».proof.Defs
import proofs.«900919_g7700000000000920_dist_max_ax0_shard0_i_m2048_n1024_v7x_i8_f32_1_alg».proof.Proof.Gen.Kernel
import proofs.«900919_g7700000000000920_dist_max_ax0_shard0_i_m2048_n1024_v7x_i8_f32_1_alg».proof.Proof.Gen.KernelIdeal
import proofs.«900919_g7700000000000920_dist_max_ax0_shard0_i_m2048_n1024_v7x_i8_f32_1_alg».proof.Proof.Gen.ReferenceIdeal
import proofs.«900919_g7700000000000920_dist_max_ax0_shard0_i_m2048_n1024_v7x_i8_f32_1_alg».proof.Proof.Gen.Pre_finite_inputs_Kernel
import proofs.«900919_g7700000000000920_dist_max_ax0_shard0_i_m2048_n1024_v7x_i8_f32_1_alg».proof.Proof.Gen.Pre_finite_inputs_ReferenceIdeal
import proofs.«900919_g7700000000000920_dist_max_ax0_shard0_i_m2048_n1024_v7x_i8_f32_1_alg».proof.Proof.Gen.ReferenceIdeal.Run
import proofs.«900919_g7700000000000920_dist_max_ax0_shard0_i_m2048_n1024_v7x_i8_f32_1_alg».proof.Proof.Gen.ReferenceIdeal.Read
import proofs.«900919_g7700000000000920_dist_max_ax0_shard0_i_m2048_n1024_v7x_i8_f32_1_alg».proof.Proof.Vals
import proofs.«900919_g7700000000000920_dist_max_ax0_shard0_i_m2048_n1024_v7x_i8_f32_1_alg».proof.Proof.Bridge

noncomputable section

namespace Cert.Assemble

open Idealize.ShloMosaic Idealize.SL.Sem

/-- The reference runs and leaves its argument as it was: its run, the result dropped. -/
theorem frame_ref : Cert.frame_ReferenceIdeal :=
  fun m ρ _ => (θ_run Cert.ReferenceIdeal.defs _ _).mono (fun _ h c => (h c).2)
    (Cert.ReferenceIdeal.Value.run (F := Ideal) m ρ)

/-- If the idealized kernel runs, on every device, to the result vector with its argument unchanged, then from
    memories where device `c` holds block `c` of the reference's argument both programs end at one value: the
    reference's row of column maxima. -/
theorem algebraic_of
    (h : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v1)
              = Cert.KernelIdeal.Coll.outV (F := Ideal) m
          ∧ r.2.mem ((c.tc : Thread _ _).loc Cert.KernelIdeal.main_arg0)
              = m ((c.tc : Thread _ _).loc Cert.KernelIdeal.main_arg0))) :
    Cert.algebraic_KernelIdeal_ReferenceIdeal := by
  intro m g m' g' _ hagree
  refine ⟨Cert.ReferenceIdeal.Read.val_main_v1 (F := Ideal)
    (m' (((0 : Dev Cert.ReferenceIdeal.nD).tc : Thread Cert.ReferenceIdeal.nD Cert.ReferenceIdeal.τ).loc
      Cert.ReferenceIdeal.main_arg0)), ?_, ?_⟩
  · exact (θ_run (Cert.KernelIdeal.defs (F := Ideal)) _ _).mono
      (fun _ hr c => ⟨(hr c).1.trans (Cert.Bridge.outV_eq_ref m _ hagree), (hr c).2⟩) (h m g)
  · exact (θ_run Cert.ReferenceIdeal.defs _ _).mono
      (fun _ hr => ⟨(hr 0).1.trans (Cert.ReferenceIdeal.Read.val_main_v1_eq _), (hr 0).2⟩)
      (Cert.ReferenceIdeal.Value.run (F := Ideal) m' g')

/-- The idealized kernel's frame: the same run, the value dropped. -/
theorem frameKI_of
    (h : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v1)
              = Cert.KernelIdeal.Coll.outV (F := Ideal) m
          ∧ r.2.mem ((c.tc : Thread _ _).loc Cert.KernelIdeal.main_arg0)
              = m ((c.tc : Thread _ _).loc Cert.KernelIdeal.main_arg0))) :
    Cert.frame_KernelIdeal :=
  fun m g _ => (θ_run (Cert.KernelIdeal.defs (F := Ideal)) _ _).mono (fun _ hr c => (hr c).2) (h m g)

/-- The word-level kernel's frame is its run to an unchanged argument. -/
theorem frameK_of
    (h' : ∀ (m : (ℓ : Loc Cert.Kernel.nD Cert.Kernel.τ Cert.Kernel.sig) → Buf (Elt Bits) ℓ)
        (ρ : Dev Cert.Kernel.nD → PrngReg),
      θ_run (Cert.Kernel.defs (F := Bits)) (onTc (τ := Cert.Kernel.τ) (Cert.Kernel.main (F := Bits)))
        ⟨m, fun _ => 0, ρ⟩ (fun r => ∀ c : Dev Cert.Kernel.nD,
          r.2.mem ((c.tc : Thread Cert.Kernel.nD Cert.Kernel.τ).loc Cert.Kernel.main_arg0)
              = m ((c.tc : Thread Cert.Kernel.nD Cert.Kernel.τ).loc Cert.Kernel.main_arg0))) :
    Cert.frame_Kernel :=
  fun m g _ => h' m g

/-- All five conjuncts, under the generated witnesses of the programs' stated facts. -/
theorem claim_of
    (h : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v1)
              = Cert.KernelIdeal.Coll.outV (F := Ideal) m
          ∧ r.2.mem ((c.tc : Thread _ _).loc Cert.KernelIdeal.main_arg0)
              = m ((c.tc : Thread _ _).loc Cert.KernelIdeal.main_arg0)))
    (h' : ∀ (m : (ℓ : Loc Cert.Kernel.nD Cert.Kernel.τ Cert.Kernel.sig) → Buf (Elt Bits) ℓ)
        (ρ : Dev Cert.Kernel.nD → PrngReg),
      θ_run (Cert.Kernel.defs (F := Bits)) (onTc (τ := Cert.Kernel.τ) (Cert.Kernel.main (F := Bits)))
        ⟨m, fun _ => 0, ρ⟩ (fun r => ∀ c : Dev Cert.Kernel.nD,
          r.2.mem ((c.tc : Thread Cert.Kernel.nD Cert.Kernel.τ).loc Cert.Kernel.main_arg0)
              = m ((c.tc : Thread Cert.Kernel.nD Cert.Kernel.τ).loc Cert.Kernel.main_arg0))) :
    Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    frameK_of h', frameKI_of h, frame_ref, trivial, algebraic_of h⟩

/-- info: 'Cert.Assemble.claim_of' depends on axioms: [propext, Classical.choice, Quot.sound] -/
#guard_msgs in #print axioms claim_of

end Cert.Assemble

end
-- ==== Proof.Proto.lean ====
/- The protocol of the all-gather-max kernel on the ring of eight devices: who signals whom, which
   transfer lands where, and what each landing hands to the device that waits for it. -/
import proofs.«900919_g7700000000000920_dist_max_ax0_shard0_i_m2048_n1024_v7x_i8_f32_1_alg».proof.Proof.Vals
import proofs.«900919_g7700000000000920_dist_max_ax0_shard0_i_m2048_n1024_v7x_i8_f32_1_alg».proof.Proof.Gen.KernelIdeal.Launch
import proofs.«900919_g7700000000000920_dist_max_ax0_shard0_i_m2048_n1024_v7x_i8_f32_1_alg».proof.Proof.Gen.KernelIdeal.Points
import Idealize.ShloMosaic.Lib.Pipeline.Launch
import Idealize.ShloMosaic.Lib.Pipeline.Kit
import Idealize.ShloMosaic.Lib.Tactic

set_option maxRecDepth 16384

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duties named by an offset) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring: device `c`'s `j`-th peer is `j + 1` places ahead -/

def fwd (j : Fin 7) (c : Dev nD) : Dev nD := ⟨(c.val + (j.val + 1)) % 8, Nat.mod_lt _ (by decide)⟩
def bwd (j : Fin 7) (c : Dev nD) : Dev nD := ⟨(c.val + (7 - j.val)) % 8, Nat.mod_lt _ (by decide)⟩

theorem bwd_fwd (j : Fin 7) (c : Dev nD) : bwd j (fwd j c) = c := by revert j c; decide
theorem fwd_bwd (j : Fin 7) (c : Dev nD) : fwd j (bwd j c) = c := by revert j c; decide
/-- The peer `j + 1` ahead sees this device `7 - j` ahead of itself. -/
theorem fwd_rev_fwd (j : Fin 7) (c : Dev nD) : fwd j.rev (fwd j c) = c := by revert j c; decide
theorem bwd_eq_fwd_rev (j : Fin 7) (c : Dev nD) : bwd j c = fwd j.rev c := by revert j c; decide
theorem fwd_ne (j : Fin 7) (c : Dev nD) : fwd j c ≠ c := by revert j c; decide
theorem fwd_inj_left (c : Dev nD) : Function.Injective fun j : Fin 7 => fwd j c := by revert c; decide

def ringAt (j : Fin 7) : Dev nD ≃ Dev nD := ⟨fwd j, bwd j, bwd_fwd j, fwd_bwd j⟩

/-- The kernel's device chains: the `j`-th signal and the `j`-th transfer both name `fwd j c`. -/
theorem dev1_eq (i) (c : Dev nD) (h) : (⟨k0_dev1 c, k0_dev1_lt i c h⟩ : Dev nD) = fwd 0 c := Fin.ext (k0_dev1_eq c)
theorem dev2_eq (i) (c : Dev nD) (h) : (⟨k0_dev2 c, k0_dev2_lt i c h⟩ : Dev nD) = fwd 1 c := Fin.ext (k0_dev2_eq c)
theorem dev3_eq (i) (c : Dev nD) (h) : (⟨k0_dev3 c, k0_dev3_lt i c h⟩ : Dev nD) = fwd 2 c := Fin.ext (k0_dev3_eq c)
theorem dev4_eq (i) (c : Dev nD) (h) : (⟨k0_dev4 c, k0_dev4_lt i c h⟩ : Dev nD) = fwd 3 c := Fin.ext (k0_dev4_eq c)
theorem dev5_eq (i) (c : Dev nD) (h) : (⟨k0_dev5 c, k0_dev5_lt i c h⟩ : Dev nD) = fwd 4 c := Fin.ext (k0_dev5_eq c)
theorem dev6_eq (i) (c : Dev nD) (h) : (⟨k0_dev6 c, k0_dev6_lt i c h⟩ : Dev nD) = fwd 5 c := Fin.ext (k0_dev6_eq c)
theorem dev7_eq (i) (c : Dev nD) (h) : (⟨k0_dev7 c, k0_dev7_lt i c h⟩ : Dev nD) = fwd 6 c := Fin.ext (k0_dev7_eq c)
theorem dev8_eq (i) (c : Dev nD) (h) : (⟨k0_dev8 c, k0_dev8_lt i c h⟩ : Dev nD) = fwd 0 c := Fin.ext (k0_dev8_eq c)
theorem dev9_eq (i) (c : Dev nD) (h) : (⟨k0_dev9 c, k0_dev9_lt i c h⟩ : Dev nD) = fwd 1 c := Fin.ext (k0_dev9_eq c)
theorem dev10_eq (i) (c : Dev nD) (h) : (⟨k0_dev10 c, k0_dev10_lt i c h⟩ : Dev nD) = fwd 2 c := Fin.ext (k0_dev10_eq c)
theorem dev11_eq (i) (c : Dev nD) (h) : (⟨k0_dev11 c, k0_dev11_lt i c h⟩ : Dev nD) = fwd 3 c := Fin.ext (k0_dev11_eq c)
theorem dev12_eq (i) (c : Dev nD) (h) : (⟨k0_dev12 c, k0_dev12_lt i c h⟩ : Dev nD) = fwd 4 c := Fin.ext (k0_dev12_eq c)
theorem dev13_eq (i) (c : Dev nD) (h) : (⟨k0_dev13 c, k0_dev13_lt i c h⟩ : Dev nD) = fwd 5 c := Fin.ext (k0_dev13_eq c)
theorem dev14_eq (i) (c : Dev nD) (h) : (⟨k0_dev14 c, k0_dev14_lt i c h⟩ : Dev nD) = fwd 6 c := Fin.ext (k0_dev14_eq c)

/-! ## The memrefs: the accumulator, the table, and the table's rows -/

abbrev accM : Memref sig .tc .vmem S1x1024 .f32 := Memref.whole cc0_scratch0
abbrev tabM : Memref sig .tc .vmem S8x1024 .f32 := Memref.whole cc0_scratch1

theorem off2_inb (r : Dev nD) : ∀ a, (k0_off2 r) a + S1x1024.size a ≤ S8x1024.size a :=
  k0_off2_inb (grid0.coords t0_1) r (by decide)

/-- Row `r` of the table, as the kernel slices it. -/
abbrev rowM (r : Dev nD) : Memref sig .tc .vmem S1x1024 .f32 :=
  tabM.slice (Rect.unit (s := S8x1024) (k0_off2 r) S1x1024.size (off2_inb r)) (fun _ => rfl)

/-- The elements of row `r` inside the table's buffer. -/
abbrev rowSet (c r : Dev nD) : Finset (Idx ((rowM r).view.loc (c : Thread nD τ))) := (rowM r).view.set

/-! ## The semaphores and the cells -/

abbrev barS : Sem sig := (SemArray.scalar (sig.barrier 0 rfl) : Sems sig S_).sem
def sndS (j : Fin 7) : DmaSem sig := ⟨3 + j.val, by show 3 + j.val < 17; omega⟩
def rcvS (j : Fin 7) : DmaSem sig := ⟨10 + j.val, by show 10 + j.val < 17; omega⟩

abbrev barCell (c : Dev nD) : GSem nD τ sig := ((c : Thread nD τ), .reg barS)
abbrev sndCell (c : Dev nD) (j : Fin 7) : GSem nD τ sig := ((c : Thread nD τ), .dma (sndS j))
abbrev rcvCell (c : Dev nD) (j : Fin 7) : GSem nD τ sig := ((c : Thread nD τ), .dma (rcvS j))

/-- What one row's transfer credits. -/
abbrev N : ℕ := (rowM (0 : Dev nD)).view.dmaCredit
theorem N_pos : 0 < N := View.dmaCredit_pos _ (by decide)

/-! ## Contents -/

variable (m : (ℓ : Loc nD τ sig) → Buf (Elt F) ℓ)

/-- The table every device ends with, as the contents of its buffer. -/
abbrev tabV (c : Dev nD) : Buf (Elt F) ((c : Thread nD τ).loc cc0_scratch1) := commV m

/-- Row `r` of device `c`'s table, held at share `q` with the buffer's contents `f`. -/
def rowPts (q : PosShare TreeShare) (c r : Dev nD) (f : Buf (Elt F) ((rowM r).view.loc (c : Thread nD τ))) : sProp 𝕄 :=
  (rowM r).view.loc (c : Thread nD τ) ↦[(rowM r).view.set]{q} f
/-- The accumulator and the table, whole. -/
def accPts (c : Dev nD) (f : Buf (Elt F) ((c : Thread nD τ).loc cc0_scratch0)) : sProp 𝕄 :=
  ((c : Thread nD τ).loc cc0_scratch0) ↦{fullShare} f
def tabPts (q : PosShare TreeShare) (c : Dev nD) (f : Buf (Elt F) ((c : Thread nD τ).loc cc0_scratch1)) : sProp 𝕄 :=
  ((c : Thread nD τ).loc cc0_scratch1) ↦{q} f

omit [FloatOps F] in
instance rowPts_storable (q) (c r : Dev nD) (f) : BI.Storable (upEmb : UEmb _ 𝕄) (rowPts (F := F) q c r f) := by unfold rowPts; infer_instance

/-- The shares of its own row a device lends to its seven transfers: the right half of the whole, cut in seven. -/
def sh : Fin 7 → PosShare TreeShare
  | 0 => fullShare.right.left.left.left
  | 1 => fullShare.right.left.left.right
  | 2 => fullShare.right.left.right.left
  | 3 => fullShare.right.left.right.right
  | 4 => fullShare.right.right.left.left
  | 5 => fullShare.right.right.left.right
  | 6 => fullShare.right.right.right

/-! ## The schedule

One round. Device `c`'s barrier cell has seven duties of one unit: duty `j` is paid by `fwd j c`, the target of
`c`'s `j`-th transfer, and hands `c` the row of that device's table `c` will write, with the fact that the
device has opened the receive cell the transfer credits. Send cell `j` has one duty: the lent share of the own row
comes back. Receive cell `j` has one duty, paid by `bwd j c`: that device's row of `c`'s table, landed. -/

def barPay (c : Dev nD) (j : Fin 7) : sProp 𝕄 :=
  iprop((∃ f, rowPts fullShare (fwd j c) c f) ∗ reached ER (rcvCell (fwd j c) j) 0)
def sndPay (c : Dev nD) (j : Fin 7) : sProp 𝕄 := rowPts (sh j) c c (tabV m c)
def rcvPay (c : Dev nD) (j : Fin 7) : sProp 𝕄 := rowPts fullShare c (bwd j c) (tabV m c)

def xferPay (c : Dev nD) : SemLoc sig → sProp 𝕄
  | .dma ⟨3, _⟩ => sndPay m c 0 | .dma ⟨4, _⟩ => sndPay m c 1 | .dma ⟨5, _⟩ => sndPay m c 2 | .dma ⟨6, _⟩ => sndPay m c 3
  | .dma ⟨7, _⟩ => sndPay m c 4 | .dma ⟨8, _⟩ => sndPay m c 5 | .dma ⟨9, _⟩ => sndPay m c 6
  | .dma ⟨10, _⟩ => rcvPay m c 0 | .dma ⟨11, _⟩ => rcvPay m c 1 | .dma ⟨12, _⟩ => rcvPay m c 2 | .dma ⟨13, _⟩ => rcvPay m c 3
  | .dma ⟨14, _⟩ => rcvPay m c 4 | .dma ⟨15, _⟩ => rcvPay m c 5 | .dma ⟨16, _⟩ => rcvPay m c 6
  | _ => iprop(emp)

def isXfer : SemLoc sig → Bool
  | .dma q => decide (3 ≤ q.val)
  | .reg _ => false

abbrev IsBar (g : GSem nD τ sig) : Prop := g.1.2 = .tc ∧ g.2 = .reg barS
abbrev IsXfer (g : GSem nD τ sig) : Prop := g.1.2 = .tc ∧ isXfer g.2 = true

def sched : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d := if g.2 = .reg barS then barPay g.1.1 d else xferPay m g.1.1 g.2
  amount_pos g _ _ _ := by
    by_cases h : g.2 = .reg barS
    · rw [if_pos h]; exact Nat.one_pos
    · rw [if_neg h]; exact N_pos

instance sched_payload_storable (g : GSem nD τ sig) (r : ℕ) (d : Fin 7) :
    BI.Storable (upEmb : UEmb _ 𝕄) ((sched (F := F) m).payload g r d) := by
  show BI.Storable upEmb (if g.2 = .reg barS then barPay g.1.1 d else xferPay m g.1.1 g.2)
  unfold barPay xferPay sndPay rcvPay
  (repeat' split) <;> infer_instance

section Sched
variable (c : Dev nD) (j : Fin 7)

theorem snd_ne_bar : (SemLoc.dma (sndS j) : SemLoc sig) ≠ .reg barS := fun h => by cases h
theorem rcv_ne_bar : (SemLoc.dma (rcvS j) : SemLoc sig) ≠ .reg barS := fun h => by cases h
theorem snd_ne_rcv (j k : Fin 7) : (SemLoc.dma (sndS j) : SemLoc sig) ≠ .dma (rcvS k) := by revert j k; decide
theorem sndS_inj : Function.Injective (sndS : Fin 7 → DmaSem sig) := by decide
theorem rcvS_inj : Function.Injective (rcvS : Fin 7 → DmaSem sig) := by decide

theorem duties_bar : (sched (F := F) m).duties (barCell c) 0 = Finset.univ := by dsimp only [sched]; exact if_pos ⟨rfl, rfl, rfl⟩
theorem duties_snd : (sched (F := F) m).duties (sndCell c j) 0 = {0} := by
  dsimp only [sched]; rw [if_neg (fun h => snd_ne_bar j h.2.2)]; exact if_pos ⟨rfl, rfl, by show isXfer (.dma (sndS j)) = true; revert j; decide⟩
theorem duties_rcv : (sched (F := F) m).duties (rcvCell c j) 0 = {0} := by
  dsimp only [sched]; rw [if_neg (fun h => rcv_ne_bar j h.2.2)]; exact if_pos ⟨rfl, rfl, by show isXfer (.dma (rcvS j)) = true; revert j; decide⟩
theorem duties_later (g : GSem nD τ sig) : ∀ r, 1 ≤ r → (sched (F := F) m).duties g r = ∅ :=
  fun r hr => by dsimp only [sched]; rw [if_neg fun h => by omega, if_neg fun h => by omega]

theorem amount_bar (d : Fin 7) : (sched (F := F) m).amount (barCell c) 0 d = 1 := by dsimp only [sched]; exact if_pos rfl
theorem amount_snd (d : Fin 7) : (sched (F := F) m).amount (sndCell c j) 0 d = N := by dsimp only [sched]; exact if_neg (snd_ne_bar j)
theorem amount_rcv (d : Fin 7) : (sched (F := F) m).amount (rcvCell c j) 0 d = N := by dsimp only [sched]; exact if_neg (rcv_ne_bar j)

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_snd : (sched (F := F) m).expect (sndCell c j) 0 = N := by
  unfold Schedule.expect Schedule.amountOf; rw [duties_snd, Finset.sum_singleton, amount_snd]
theorem expect_rcv : (sched (F := F) m).expect (rcvCell c j) 0 = N := by
  unfold Schedule.expect Schedule.amountOf; rw [duties_rcv, Finset.sum_singleton, amount_rcv]

theorem payload_bar (d : Fin 7) : (sched (F := F) m).payload (barCell c) 0 d = barPay c d := by dsimp only [sched]; rw [if_pos rfl]
theorem payload_snd (d : Fin 7) : (sched (F := F) m).payload (sndCell c j) 0 d = sndPay m c j := by
  dsimp only [sched]; rw [if_neg (snd_ne_bar j)]; revert j; intro j; fin_cases j <;> rfl
theorem payload_rcv (d : Fin 7) : (sched (F := F) m).payload (rcvCell c j) 0 d = rcvPay m c j := by
  dsimp only [sched]; rw [if_neg (rcv_ne_bar j)]; revert j; intro j; fin_cases j <;> rfl

/-- The whole of the barrier cell's round: the seven peers' rows, each with its receive cell opened. -/
theorem rest_bar : bigSep ((sched (F := F) m).duties (barCell c) 0 \ ∅) (fun d => (sched (F := F) m).payload (barCell c) 0 d)
    = bigSep Finset.univ (fun d : Fin 7 => barPay (F := F) c d) := by
  rw [Finset.sdiff_empty, duties_bar]; exact bigSep_congr fun d _ => payload_bar m c d
theorem rest_snd : bigSep ((sched (F := F) m).duties (sndCell c j) 0 \ ∅) (fun d => (sched (F := F) m).payload (sndCell c j) 0 d) = sndPay m c j := by
  rw [Finset.sdiff_empty, duties_snd, bigSep_singleton, payload_snd]
theorem rest_rcv : bigSep ((sched (F := F) m).duties (rcvCell c j) 0 \ ∅) (fun d => (sched (F := F) m).payload (rcvCell c j) 0 d) = rcvPay m c j := by
  rw [Finset.sdiff_empty, duties_rcv, bigSep_singleton, payload_rcv]

end Sched

/-! ## What each device owes; the levels -/

/-- The `j`-th signal's unit on the peer's barrier cell, and the `j`-th transfer's credit on the peer's receive cell. -/
def sigT (c : Dev nD) (j : Fin 7) : CellTallies nD τ sig Unit := tallyAt (barCell (fwd j c)) () 1
def rcvT (c : Dev nD) (j : Fin 7) : CellTallies nD τ sig Unit := tallyAt (rcvCell (fwd j c) j) () N

/-- What is still owed with the transfers `k, k+1, …, 6` to come (summed so that each transfer peels the last summand). -/
def Orcv (c : Dev nD) : ℕ → CellTallies nD τ sig Unit
  | 0 => 0 + rcvT c 6 + rcvT c 5 + rcvT c 4 + rcvT c 3 + rcvT c 2 + rcvT c 1 + rcvT c 0
  | 1 => 0 + rcvT c 6 + rcvT c 5 + rcvT c 4 + rcvT c 3 + rcvT c 2 + rcvT c 1
  | 2 => 0 + rcvT c 6 + rcvT c 5 + rcvT c 4 + rcvT c 3 + rcvT c 2
  | 3 => 0 + rcvT c 6 + rcvT c 5 + rcvT c 4 + rcvT c 3
  | 4 => 0 + rcvT c 6 + rcvT c 5 + rcvT c 4
  | 5 => 0 + rcvT c 6 + rcvT c 5
  | 6 => 0 + rcvT c 6
  | _ => 0
/-- What is still owed with the signals `k, k+1, …, 6` and every transfer to come. -/
def Osig (c : Dev nD) : ℕ → CellTallies nD τ sig Unit
  | 0 => Orcv c 0 + sigT c 6 + sigT c 5 + sigT c 4 + sigT c 3 + sigT c 2 + sigT c 1 + sigT c 0
  | 1 => Orcv c 0 + sigT c 6 + sigT c 5 + sigT c 4 + sigT c 3 + sigT c 2 + sigT c 1
  | 2 => Orcv c 0 + sigT c 6 + sigT c 5 + sigT c 4 + sigT c 3 + sigT c 2
  | 3 => Orcv c 0 + sigT c 6 + sigT c 5 + sigT c 4 + sigT c 3
  | 4 => Orcv c 0 + sigT c 6 + sigT c 5 + sigT c 4
  | 5 => Orcv c 0 + sigT c 6 + sigT c 5
  | 6 => Orcv c 0 + sigT c 6
  | _ => Orcv c 0

/-- At launch: everything. After the first point: the seven transfers' credit. -/
def O₀ (c : Dev nD) : CellTallies nD τ sig Unit := Osig c 0
def O₁ (c : Dev nD) : CellTallies nD τ sig Unit := Orcv c 0

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if isXfer g.2 ∧ ¬ (∃ j, g.2 = .dma (sndS j)) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_rcv (c : Dev nD) (j : Fin 7) (u : Unit) : lv (rcvCell c j) u = 2 := by
  unfold lv; rw [if_neg (rcv_ne_bar j)]
  exact if_pos ⟨by show isXfer (.dma (rcvS j)) = true; revert j; decide, fun ⟨k, hk⟩ => snd_ne_rcv k j hk.symm⟩
theorem lv_snd (c : Dev nD) (j : Fin 7) (u : Unit) : lv (sndCell c j) u = 0 := by
  unfold lv; rw [if_neg (snd_ne_bar j)]; exact if_neg fun h => h.2 ⟨j, rfl⟩
/-- A staging semaphore (one of the first three) sits at level 0. -/
theorem lv_stage (c : Dev nD) (q : DmaSem sig) (hq : q.val < 3) (u : Unit) : lv ((c : Thread nD τ), .dma q) u = 0 := by
  unfold lv; rw [if_neg (fun h => by cases h)]
  exact if_neg fun h => by have := h.1; simp only [isXfer, decide_eq_true_eq] at this; omega

theorem Orcv_pos {c : Dev nD} {k : ℕ} {g : GSem nD τ sig} {u : Unit} (h : 0 < Orcv c k g u) : ∃ j, g = rcvCell (fwd j c) j := by
  have key : ∀ (D : CellTallies nD τ sig Unit) (j : Fin 7), 0 < (D + rcvT c j) g u → 0 < D g u ∨ ∃ j, g = rcvCell (fwd j c) j := fun D j h =>
    (Pipeline.add_pos_cases h).imp id fun h' => ⟨j, (Pipeline.tallyAt_pos h').1⟩
  have h0 : ¬ 0 < (0 : CellTallies nD τ sig Unit) g u := by rw [Pi.zero_apply, Finsupp.zero_apply]; exact Nat.lt_irrefl 0
  unfold Orcv at h
  split at h <;> (repeat (first | exact absurd h h0 | (rcases key _ _ h with h | h' <;> [skip; exact h'])))

theorem Osig_pos {c : Dev nD} {k : ℕ} {g : GSem nD τ sig} {u : Unit} (h : 0 < Osig c k g u) :
    (∃ j, g = rcvCell (fwd j c) j) ∨ ∃ j, g = barCell (fwd j c) := by
  have key : ∀ (D : CellTallies nD τ sig Unit) (j : Fin 7), 0 < (D + sigT c j) g u → 0 < D g u ∨ ∃ j, g = barCell (fwd j c) := fun D j h =>
    (Pipeline.add_pos_cases h).imp id fun h' => ⟨j, (Pipeline.tallyAt_pos h').1⟩
  unfold Osig at h
  split at h
  · iterate 7 (rcases key _ _ h with h | h' <;> [skip; exact Or.inr h'])
    exact Or.inl (Orcv_pos h)
  · iterate 6 (rcases key _ _ h with h | h' <;> [skip; exact Or.inr h'])
    exact Or.inl (Orcv_pos h)
  · iterate 5 (rcases key _ _ h with h | h' <;> [skip; exact Or.inr h'])
    exact Or.inl (Orcv_pos h)
  · iterate 4 (rcases key _ _ h with h | h' <;> [skip; exact Or.inr h'])
    exact Or.inl (Orcv_pos h)
  · iterate 3 (rcases key _ _ h with h | h' <;> [skip; exact Or.inr h'])
    exact Or.inl (Orcv_pos h)
  · iterate 2 (rcases key _ _ h with h | h' <;> [skip; exact Or.inr h'])
    exact Or.inl (Orcv_pos h)
  · iterate 1 (rcases key _ _ h with h | h' <;> [skip; exact Or.inr h'])
    exact Or.inl (Orcv_pos h)
  · exact Or.inl (Orcv_pos h)

/-! ## The cells by number; the ghost state a device holds -/

/-- A device's fifteen cells: its barrier cell, its seven send cells, its seven receive cells. -/
def csem (k : Fin 15) : SemLoc sig :=
  if k.val = 0 then .reg barS
  else if h : k.val ≤ 7 then .dma (sndS ⟨k.val - 1, by omega⟩)
  else .dma (rcvS ⟨k.val - 8, by omega⟩)
abbrev kcell (ck : Dev nD × Fin 15) : GSem nD τ sig := ((ck.1 : Thread nD τ), csem ck.2)
def sIx (j : Fin 7) : Fin 15 := ⟨1 + j.val, by omega⟩
def rIx (j : Fin 7) : Fin 15 := ⟨8 + j.val, by omega⟩

theorem kcell_bar (c : Dev nD) : kcell (c, 0) = barCell c := rfl
theorem kcell_snd (c : Dev nD) (j : Fin 7) : kcell (c, sIx j) = sndCell c j :=
  Prod.ext rfl (by show csem (sIx j) = .dma (sndS j); revert j; decide)
theorem kcell_rcv (c : Dev nD) (j : Fin 7) : kcell (c, rIx j) = rcvCell c j :=
  Prod.ext rfl (by show csem (rIx j) = .dma (rcvS j); revert j; decide)
theorem csem_injective : Function.Injective csem := by decide

/-- Every cell's invariant, under the names the launch allocated them at, and every cell's first round opened. -/
def records (K : Dev nD × Fin 15 → ℕ) : sProp 𝕄 :=
  iprop((bigSep Finset.univ fun ck : Dev nD × Fin 15 => cellInv ER (sched m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (ck : Dev nD × Fin 15) : records m K ⊢ cellInv ER (sched m) (K ck) (kcell ck) := by
  unfold records; iintro ⟨H, -⟩
  iapply (show (bigSep Finset.univ fun ck : Dev nD × Fin 15 => (cellInv ER (sched m) (K ck) (kcell ck) : sProp 𝕄)) ⊢ cellInv ER (sched m) (K ck) (kcell ck) from
    bigSep_elim (Finset.mem_univ ck))
  iexact H
theorem reached_at (K : Dev nD × Fin 15 → ℕ) (ck : Dev nD × Fin 15) : records m K ⊢ reached ER (kcell ck) 0 := by
  unfold records; iintro ⟨-, H⟩
  iapply (show (bigSep Finset.univ fun ck : Dev nD × Fin 15 => (reached ER (kcell ck) 0 : sProp 𝕄)) ⊢ reached ER (kcell ck) 0 from
    bigSep_elim (Finset.mem_univ ck))
  iexact H

/-- A device's positions in its own fifteen cells. -/
def positions (c : Dev nD) : sProp 𝕄 :=
  iprop(atPos ER (barCell c) 0 ∅ 0 ∗ (bigSep Finset.univ fun j : Fin 7 => atPos ER (sndCell c j) 0 ∅ 0)
    ∗ bigSep Finset.univ fun j : Fin 7 => atPos ER (rcvCell c j) 0 ∅ 0)
/-- The tokens of the duties a device pays by its transfers: the peer's receive duty and its own send duty. -/
def xferToks (c : Dev nD) : sProp 𝕄 :=
  iprop((bigSep Finset.univ fun j : Fin 7 => dutyTok ER (rcvCell (fwd j c) j) 0 (0 : Fin 7))
    ∗ bigSep Finset.univ fun j : Fin 7 => dutyTok ER (sndCell c j) 0 (0 : Fin 7))
/-- The tokens of the duties it pays by its signals: its `j`-th peer sees it `7 - j` ahead. -/
def sigToks (c : Dev nD) : sProp 𝕄 := bigSep Finset.univ fun j : Fin 7 => dutyTok ER (barCell (fwd j c)) 0 j.rev

def linear (c : Dev nD) : sProp 𝕄 := iprop(positions c ∗ sigToks c ∗ xferToks c)
def linear1 (c : Dev nD) : sProp 𝕄 := iprop(positions c ∗ xferToks c)

/-- The credit the launch deals a device: its barrier's seven units and each receive cell's transfer. -/
def creds (c : Dev nD) : sProp 𝕄 :=
  iprop(cred (tallyAt (barCell c) () 7) ∗ bigSep Finset.univ fun j : Fin 7 => cred (tallyAt (rcvCell c j) () N))

def start (c : Dev nD) : sProp 𝕄 := iprop((∃ K, records m K ∗ linear c) ∗ creds c ∗ levAts L lv)

/-- Before the first point: the two scratch buffers whole at whatever they hold. -/
def Φ0 (c : Dev nD) : sProp 𝕄 := iprop(start m c ∗ (∃ f, accPts c f) ∗ ∃ f, tabPts fullShare c f)
/-- Between the points: the signals sent, the seven peers' rows of the table given away, the own row kept, the
    accumulator at the first block's column maxima. -/
def Φ1 (c : Dev nD) : sProp 𝕄 :=
  iprop((∃ K, records m K ∗ linear1 c) ∗ creds c ∗ levAts L lv ∗ accPts c (acc0 m c) ∗ ∃ f, rowPts fullShare c c f)
/-- After the last point: both scratch buffers whole again and the fourteen transfer semaphores back at zero. -/
def Φ2 (c : Dev nD) : sProp 𝕄 :=
  iprop((∃ f, accPts (F := F) c f) ∗ (∃ f, tabPts fullShare c f)
    ∗ (bigSep Finset.univ fun j : Fin 7 => semVal (sndCell c j) 0) ∗ bigSep Finset.univ fun j : Fin 7 => semVal (rcvCell c j) 0)

/-! ## The pipeline's proof data -/

def dats (_ : Fin 1) (c : Dev nD) : Dat τ (Elt F) Unit ℕ UU ℕ cfg0 c where
  A w := m ((cfg0.win w).arr.view.loc (c : Thread nD τ))
  after w t := match w with
    | ⟨0, _⟩ => Gen.iblk m c 0 t
    | ⟨1, _⟩ => outV m
  Φ t := match t with
    | ⟨0, _⟩ => Φ0 m c
    | ⟨1, _⟩ => Φ1 m c
    | ⟨_ + 2, _⟩ => Φ2 c
  q _ := fullShare
  owed t := match t with
    | ⟨0, _⟩ => O₀ c
    | ⟨1, _⟩ => O₁ c
    | ⟨_ + 2, _⟩ => 0

abbrev 𝒱₀ : Variants := Variants.none

/-! ## The body at each point: the program, what it starts from, what it ends with -/

/-- The body as the pipeline calls it at the first point (on the first input staging buffer) and at the second (on the
    second). -/
abbrev prog0 : Prog (TpuEff nD τ sig (Elt F) Λ₀ .tc) PUnit :=
  cc0_body (grid0.coords t0_0) (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3
abbrev prog1 : Prog (TpuEff nD τ sig (Elt F) Λ₀ .tc) PUnit :=
  cc0_body (grid0.coords t0_1) (Memref.whole cc0_stg0_1) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3

theorem bodyAt0_t0 : bodyAt0 (F := F) t0_0 = prog0 := rfl
theorem bodyAt0_t1 : bodyAt0 (F := F) t0_1 = prog1 := rfl

/-- The first point: from everything dealt at launch, both scratch buffers at whatever they hold, the first block staged,
    the result's staging buffer at whatever it holds (`g1`) … -/
def pre0 (K : Dev nD × Fin 15 → ℕ) (c : Dev nD) (W : Waits sig Unit) (g1 : Buf (Elt F) ((c : Thread nD τ).loc cc0_stg1_0)) : sProp 𝕄 :=
  iprop(records m K ∗ linear c ∗ creds c ∗ levAts L lv ∗ (∃ f, accPts c f) ∗ (∃ f, tabPts fullShare c f)
    ∗ owes (c : Thread nD τ) (O₀ c) W
    ∗ (((c : Thread nD τ).loc cc0_stg0_0) ↦{fullShare} (xblk m c t0_0))
    ∗ (((c : Thread nD τ).loc cc0_stg1_0) ↦{fullShare} g1))
/-- … to the seven signals sent and their rows given away, the accumulator at the first block's maxima, the two staging
    buffers as they were. -/
def post0 (c : Dev nD) (g1 : Buf (Elt F) ((c : Thread nD τ).loc cc0_stg1_0)) : sProp 𝕄 :=
  iprop(linear1 c ∗ creds c ∗ accPts c (acc0 m c) ∗ (∃ f, rowPts fullShare c c f)
    ∗ (∃ W', owes (c : Thread nD τ) (O₁ c) W')
    ∗ (((c : Thread nD τ).loc cc0_stg0_0) ↦{fullShare} (xblk m c t0_0))
    ∗ (((c : Thread nD τ).loc cc0_stg1_0) ↦{fullShare} g1))

/-- The second point: from that, the second block staged … -/
def pre1 (K : Dev nD × Fin 15 → ℕ) (c : Dev nD) (W : Waits sig Unit) (g1 : Buf (Elt F) ((c : Thread nD τ).loc cc0_stg1_0)) : sProp 𝕄 :=
  iprop(records m K ∗ linear1 c ∗ creds c ∗ levAts L lv ∗ accPts c (acc0 m c) ∗ (∃ f, rowPts fullShare c c f)
    ∗ owes (c : Thread nD τ) (O₁ c) W
    ∗ (((c : Thread nD τ).loc cc0_stg0_1) ↦{fullShare} (xblk m c t0_1))
    ∗ (((c : Thread nD τ).loc cc0_stg1_0) ↦{fullShare} g1))
/-- … to the result staged, both scratch buffers whole, the transfer semaphores back at zero, nothing owed. -/
def post1 (c : Dev nD) : sProp 𝕄 :=
  iprop(Φ2 c ∗ (∃ W', owes (c : Thread nD τ) 0 W')
    ∗ (((c : Thread nD τ).loc cc0_stg0_1) ↦{fullShare} (xblk m c t0_1))
    ∗ (((c : Thread nD τ).loc cc0_stg1_0) ↦{fullShare} (outV m)))

/-- Seven conjuncts written out. -/
theorem bigSep_fin7 {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

end Cert.KernelIdeal.Coll

end
-- ==== Proof.Launch.lean ====
/- The launch of the all-gather-max kernel on the ring of eight devices: the ghost state each device starts from, the
   credit the launch deals it, the levels its waits sit at, and the run of the whole mesh from each device's body. -/
import proofs.«900919_g7700000000000920_dist_max_ax0_shard0_i_m2048_n1024_v7x_i8_f32_1_alg».proof.Proof.Proto

set_option maxRecDepth 16384

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions over finite index types, regrouped -/

/-- A double conjunction may be taken in either order. -/
theorem bigSep_swap {M : Type} [URA M] {α β : Type} [Fintype α] [Fintype β] (Φ : α → β → sProp M) :
    (bigSep Finset.univ fun a => bigSep Finset.univ fun b => Φ a b) = bigSep Finset.univ fun b => bigSep Finset.univ fun a => Φ a b :=
  (bigSep_univ_prod (fun p : α × β => Φ p.1 p.2)).symm.trans
    ((bigSep_univ_equiv (Equiv.prodComm β α) (fun p : α × β => Φ p.1 p.2)).trans (bigSep_univ_prod (fun p : β × α => Φ p.2 p.1)))

/-- The separating conjunction associates, as an equation. -/
theorem sep_assoc_eq {M : Type} [URA M] (P Q R : sProp M) : iprop((P ∗ Q) ∗ R) = iprop(P ∗ Q ∗ R) :=
by
  refine BI.Entails.antisymm (show _ ⊢ (_ : sProp M) from ?_) (show _ ⊢ (_ : sProp M) from ?_)
  · iintro ⟨⟨H1, H2⟩, H3⟩
    isplitl [H1]; · iexact H1
    isplitl [H2] <;> iassumption
  · iintro ⟨H1, H2, H3⟩
    isplitr [H3]
    · isplitl [H1] <;> iassumption
    iexact H3

/-- Three conjuncts written out. -/
theorem bigSep_fin3 {M : Type} [URA M] (Φ : Fin 3 → sProp M) : bigSep Finset.univ Φ = iprop(Φ 0 ∗ Φ 1 ∗ Φ 2) :=
  bigSep_univ_eq_bigSepL [0, 1, 2] (by decide) (by decide) Φ

/-- Fourteen conjuncts as the first seven and the last seven. -/
theorem bigSep_fin14_split {M : Type} [URA M] (Φ : Fin 14 → sProp M) :
    bigSep Finset.univ Φ = iprop((bigSep Finset.univ fun j : Fin 7 => Φ ⟨j.val, by omega⟩) ∗ bigSep Finset.univ fun j : Fin 7 => Φ ⟨7 + j.val, by omega⟩) := by
  rw [bigSep_univ_eq_bigSepL [0, 1, 2, 3, 4, 5, 6, 7, 8, 9, 10, 11, 12, 13] (by decide) (by decide) Φ, bigSep_fin7, bigSep_fin7]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13)
    = iprop((Φ 0 ∗ Φ 1 ∗ Φ 2 ∗ Φ 3 ∗ Φ 4 ∗ Φ 5 ∗ Φ 6) ∗ Φ 7 ∗ Φ 8 ∗ Φ 9 ∗ Φ 10 ∗ Φ 11 ∗ Φ 12 ∗ Φ 13)
  simp only [sep_assoc_eq]

/-- Fifteen conjuncts as the first, the next seven and the last seven. -/
theorem bigSep_fin15_split {M : Type} [URA M] (Φ : Fin 15 → sProp M) :
    bigSep Finset.univ Φ = iprop(Φ 0 ∗ (bigSep Finset.univ fun j : Fin 7 => Φ (sIx j)) ∗ bigSep Finset.univ fun j : Fin 7 => Φ (rIx j)) := by
  rw [bigSep_univ_eq_bigSepL [0, 1, 2, 3, 4, 5, 6, 7, 8, 9, 10, 11, 12, 13, 14] (by decide) (by decide) Φ, bigSep_fin7, bigSep_fin7]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14)
    = iprop(Φ 0 ∗ (Φ 1 ∗ Φ 2 ∗ Φ 3 ∗ Φ 4 ∗ Φ 5 ∗ Φ 6 ∗ Φ 7) ∗ Φ 8 ∗ Φ 9 ∗ Φ 10 ∗ Φ 11 ∗ Φ 12 ∗ Φ 13 ∗ Φ 14)
  simp only [sep_assoc_eq]

/-- A conjunction over a device's fifteen cells, by kind. -/
theorem bigSep_cells {M : Type} [URA M] (c : Dev nD) (Φ : GSem nD τ sig → sProp M) :
    (bigSep Finset.univ fun k : Fin 15 => Φ (kcell (c, k)))
      = iprop(Φ (barCell c) ∗ (bigSep Finset.univ fun j : Fin 7 => Φ (sndCell c j)) ∗ bigSep Finset.univ fun j : Fin 7 => Φ (rcvCell c j)) := by
  rw [bigSep_fin15_split]
  simp only [kcell_snd, kcell_rcv]
  rfl

/-! ## The launch: the cells, the tokens, the ghost state dealt -/

/-- The kernel's own fourteen semaphores: the seven send and the seven receive semaphores. -/
abbrev osem : Fin 14 → SemLoc sig := fun k => .dma ⟨3 + k.val, by show 3 + k.val < 17; omega⟩

theorem ownSemFacts : Pipeline.OwnSemFacts cfg0.spec osem := by decide

theorem share_eq (m : (ℓ : Loc nD τ sig) → Buf (Elt F) ℓ) (c : Dev nD) (w : Fin cfg0.W) : (dats m 0 c).share w = fullShare := by
  unfold Dat.share; split <;> rfl

theorem kcell_injective : Function.Injective (kcell : Dev nD × Fin 15 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl
def ringCells : Finset (GSem nD τ sig) := Finset.univ.map ⟨kcell, kcell_injective⟩

/-- The duties of a device's own cells, as (semaphore, duty): its barrier's seven, the one of each send cell, the one of
    each receive cell. -/
def tokKey : Fin 3 × Fin 7 → SemLoc sig × Fin 7
  | (0, j) => (.reg barS, j)
  | (1, j) => (.dma (sndS j), 0)
  | (2, j) => (.dma (rcvS j), 0)
theorem tokKey_injective : Function.Injective tokKey := by decide

abbrev tokOf (x : Dev nD × Fin 3 × Fin 7) : GSem nD τ sig × ℕ × Fin 7 := (((x.1 : Thread nD τ), (tokKey x.2).1), 0, (tokKey x.2).2)
theorem tokOf_injective : Function.Injective tokOf := by
  rintro ⟨c, kj⟩ ⟨c', kj'⟩ h
  have h1 : c = c' := congrArg (fun x : GSem nD τ sig × ℕ × Fin 7 => x.1.1.1) h
  subst h1
  have h2 : kj = kj' := tokKey_injective (Prod.ext (congrArg (fun x : GSem nD τ sig × ℕ × Fin 7 => x.1.2) h) (congrArg (fun x : GSem nD τ sig × ℕ × Fin 7 => x.2.2) h))
  subst h2; rfl
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun j : Fin 7 => dutyTok ER (barCell c) 0 j)
    ∗ (bigSep Finset.univ fun j : Fin 7 => dutyTok ER (sndCell c j) 0 (0 : Fin 7))
    ∗ bigSep Finset.univ fun j : Fin 7 => dutyTok ER (rcvCell c j) 0 (0 : Fin 7))

/-- What the launch element deals device `c`: its fifteen cells' round states, its positions in them with their first
    rounds opened, and their duty tokens. -/
def G (m : (ℓ : Loc nD τ sig) → Buf (Elt F) ℓ) (c : Dev nD) : sProp 𝕄 :=
  iprop((bigSep Finset.univ fun k : Fin 15 => roundState ER (sched m) (kcell (c, k)) 0)
    ∗ (bigSep Finset.univ fun k : Fin 15 => iprop(atPos ER (kcell (c, k)) 0 ∅ 0 ∗ reached ER (kcell (c, k)) 0)) ∗ toks c)

/-- What the global step makes of it: every cell's invariant and opened round on record, the positions, and the tokens
    of the duties the device itself pays. -/
def G' (m : (ℓ : Loc nD τ sig) → Buf (Elt F) ℓ) (c : Dev nD) : sProp 𝕄 := iprop(∃ K, records m K ∗ linear c)

theorem fund_ring (m : (ℓ : Loc nD τ sig) → Buf (Elt F) ℓ) :
    BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod, bigSep_fin3]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem osem_snd (j : Fin 7) : osem ⟨j.val, by omega⟩ = .dma (sndS j) := rfl
theorem osem_rcv (j : Fin 7) : osem ⟨7 + j.val, by omega⟩ = .dma (rcvS j) :=
  congrArg SemLoc.dma (Fin.ext (by show 3 + (7 + j.val) = 10 + j.val; omega))

/-- The kernel's own semaphores at zero: the seven send cells and the seven receive cells; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sndCell c j) 0) ∗ bigSep Finset.univ fun j : Fin 7 => semVal (rcvCell c j) 0) := by
  unfold Pipeline.ownSems0; rw [bigSep_fin14_split]
  simp only [osem_snd, osem_rcv]
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, bigSep_cells c (fun g => (semVal g 0 : sProp 𝕄))]
  iintro ⟨⟨HS, HV⟩, HB⟩
  isplitl [HB]; · iexact HB
  isplitl [HS] <;> iassumption

/-- Each device's cells get their invariants, from their counters at zero and their round states. -/
theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 15 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt around the ring. Duty `d` of a barrier cell goes to its payer, `d + 1` places ahead of the cell's
    owner: device `c` ends with duty `7 - 1 - j` of its `j`-th peer's barrier cell. A receive cell's token goes to its
    payer, `j + 1` places behind: device `c` ends with the token of its `j`-th peer's `j`-th receive cell. -/
theorem toks_around : (bigSep Finset.univ fun c : Dev nD => (toks c : sProp 𝕄))
    ⊢ bigSep Finset.univ fun c : Dev nD => iprop(sigToks c ∗ xferToks c) := by
  have hbar : (bigSep Finset.univ fun c : Dev nD => bigSep Finset.univ fun j : Fin 7 => (dutyTok ER (barCell c) 0 j : sProp 𝕄))
      = bigSep Finset.univ fun c : Dev nD => sigToks c := by
    rw [bigSep_swap, bigSep_univ_equiv Fin.revPerm (fun j : Fin 7 => bigSep Finset.univ fun c : Dev nD => (dutyTok ER (barCell c) 0 j : sProp 𝕄)),
      bigSep_congr (s := Finset.univ) (fun (j : Fin 7) _ => bigSep_univ_equiv (ringAt j) (fun c : Dev nD => (dutyTok ER (barCell c) 0 (Fin.revPerm j) : sProp 𝕄))),
      bigSep_swap]
    rfl
  have hrcv : (bigSep Finset.univ fun c : Dev nD => bigSep Finset.univ fun j : Fin 7 => (dutyTok ER (rcvCell c j) 0 (0 : Fin 7) : sProp 𝕄))
      = bigSep Finset.univ fun c : Dev nD => bigSep Finset.univ fun j : Fin 7 => (dutyTok ER (rcvCell (fwd j c) j) 0 (0 : Fin 7) : sProp 𝕄) := by
    rw [bigSep_swap,
      bigSep_congr (s := Finset.univ) (fun (j : Fin 7) _ => bigSep_univ_equiv (ringAt j) (fun c : Dev nD => (dutyTok ER (rcvCell c j) 0 (0 : Fin 7) : sProp 𝕄))),
      bigSep_swap]
    rfl
  unfold toks xferToks
  rw [bigSep_sep', bigSep_sep', bigSep_sep', bigSep_sep', hbar, hrcv]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (m : (ℓ : Loc nD τ sig) → Buf (Elt F) ℓ) (K : Dev nD × Fin 15 → ℕ) (c : Dev nD) :
    iprop(records m K ∗ linear c) ⊢ G' m c := by
  unfold G'; iintro H; iexists K; iexact H

theorem regroup (m : (ℓ : Loc nD τ sig) → Buf (Elt F) ℓ) :
    (bigSep Finset.univ fun c : Dev nD => iprop((bigSep Finset.univ fun k => iprop(∃ κ : ℕ, cellInv ER (sched m) κ (kcell (c, k))))
          ∗ (bigSep Finset.univ fun k : Fin 15 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 15 => iprop(∃ κ : ℕ, cellInv ER (sched m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄))
        (fun c : Dev nD => iprop(sigToks c ∗ xferToks c))).symm).trans
      (bigSep_mono fun c _ => show _ ⊢ linear c from Entails.of_eq (by unfold linear positions; rw [bigSep_cells c (fun g => (atPos ER g 0 ∅ 0 : sProp 𝕄))])))
    isplitl [Hat]; · iexact Hat
    iexact Htk

/-- The global step: own and unscoped semaphores of every device at once. -/
theorem glob (m : (ℓ : Loc nD τ sig) → Buf (Elt F) ℓ) :
    (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- What a device owes at launch, as a sum over its seven peers. -/
theorem O₀_eq (d : Dev nD) : O₀ d = ∑ j : Fin 7, (rcvT d j + sigT d j) := by
  show 0 + rcvT d 6 + rcvT d 5 + rcvT d 4 + rcvT d 3 + rcvT d 2 + rcvT d 1 + rcvT d 0
    + sigT d 6 + sigT d 5 + sigT d 4 + sigT d 3 + sigT d 2 + sigT d 1 + sigT d 0 = _
  rw [Fin.sum_univ_seven, zero_add]; abel

/-- Seven units on one cell. -/
theorem seven_units (g : GSem nD τ sig) : (∑ _j : Fin 7, (tallyAt g () 1 : CellTallies nD τ sig Unit)) = tallyAt g () 7 := by
  rw [Fin.sum_univ_seven]; simp only [tallyAt_add]

/-- The credit the launch deals device `c`: for each `j`, the device `j + 1` places behind owes `c`'s barrier cell a unit
    and `c`'s `j`-th receive cell one row's transfer. -/
theorem launch_creds (c : Dev nD) : (Pipeline.launchCred O₀ c : sProp 𝕄) ⊢ creds c := by
  have h0 : (O₀ : Dev nD → CellTallies nD τ sig Unit) = fun d => ∑ j ∈ Finset.univ, (fun (j : Fin 7) (d : Dev nD) => rcvT d j + sigT d j) j d :=
    funext O₀_eq
  rw [h0, Pipeline.launchCred_sum Finset.univ (fun (j : Fin 7) (d : Dev nD) => rcvT d j + sigT d j) c]
  have hj (j : Fin 7) : (Pipeline.launchCred (fun d : Dev nD => rcvT d j + sigT d j) c : sProp 𝕄)
      ⊢ iprop(cred (tallyAt (rcvCell c j) () N) ∗ cred (tallyAt (barCell c) () 1)) := by
    rw [Pipeline.launchCred_add (fun d => rcvT d j) (fun d => sigT d j) c]
    exact BIClass.sep_mono (Pipeline.launchCred_tallyAt (.dma (rcvS j)) (fwd j) (bwd j) (fwd_bwd j) (bwd_fwd j) () N c)
      (Pipeline.launchCred_tallyAt (.reg barS) (fwd j) (bwd j) (fwd_bwd j) (bwd_fwd j) () 1 c)
  have hfin : iprop((bigSep Finset.univ fun j : Fin 7 => cred (tallyAt (rcvCell c j) () N)) ∗ cred (tallyAt (barCell c) () 7))
      ⊢ (creds c : sProp 𝕄) := by
    unfold creds
    iintro ⟨H1, H2⟩
    isplitl [H2] <;> iassumption
  refine (bigSep_mono fun j _ => hj j).trans ?_
  rw [bigSep_sep', ← Pipeline.cred_finsetSum Finset.univ (fun _ : Fin 7 => (tallyAt (barCell c) () 1 : CellTallies nD τ sig Unit)), seven_units]
  exact hfin

/-! ### The levels -/

/-- A wait on a staging semaphore sits below everything a device ever owes: barrier cells and receive cells. -/
theorem mayWait_stage (c : Dev nD) (q : DmaSem sig) (hq : q.val < 3) (O : CellTallies nD τ sig Unit) (hO : O = O₀ c ∨ O = O₁ c ∨ O = 0) :
    (levAts L lv : sProp 𝕄) ⊢ MayWait (c : Thread nD τ) (.dma q) () O := by
  rcases hO with rfl | rfl | rfl
  · refine Pipeline.mayWait_of_levAts (by rw [L_tc]; exact Finset.mem_singleton_self _) fun g u hg => ?_
    rcases Osig_pos (c := c) (k := 0) hg with ⟨j, rfl⟩ | ⟨j, rfl⟩
    · exact ⟨by rw [L_tc]; exact Finset.mem_singleton_self _, by rw [lv_stage c q hq, lv_rcv]; decide⟩
    · exact ⟨by rw [L_tc]; exact Finset.mem_singleton_self _, by rw [lv_stage c q hq, lv_bar]; decide⟩
  · refine Pipeline.mayWait_of_levAts (by rw [L_tc]; exact Finset.mem_singleton_self _) fun g u hg => ?_
    rcases Orcv_pos (c := c) (k := 0) hg with ⟨j, rfl⟩
    exact ⟨by rw [L_tc]; exact Finset.mem_singleton_self _, by rw [lv_stage c q hq, lv_rcv]; decide⟩
  · rw [MayWait_zero]; iintro -; iempintro

theorem waits (m : (ℓ : Loc nD τ sig) → Buf (Elt F) ℓ) (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _ | _, ht⟩
      · exact Or.inl rfl
      · exact Or.inr (Or.inl rfl)
      · exact Or.inr (Or.inr rfl))

/-! ### The theorem's side conditions -/

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ0 m c from rfl, scopedRest0_eq]
  unfold Φ0 accPts tabPts
  iintro ⟨Hs, -, ⟨%f, Ha⟩, ⟨%g, Ht⟩⟩
  isplitl [Hs]; · iexact Hs
  isplitl [Ha]
  · iexists f; iexact Ha
  · iexists g; iexact Ht

theorem phi2_exit (m : (ℓ : Loc nD τ sig) → Buf (Elt F) ℓ) (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ2 c from rfl, scopedRest0_eq, ownSems0_eq]
  unfold Φ2 accPts tabPts
  iintro ⟨Ha, Ht, HS, HR⟩
  isplitr; · iempintro
  isplitl [HS HR]
  · isplitl [HS] <;> iassumption
  isplitl [Ha] <;> iassumption

/-! ### The run -/

set_option maxRecDepth 16384 in
/-- At the compiled mesh of eight devices, for any float values, from any memory with every counter at zero: every weakly
    fair execution of @main — the eight kernels handshaking on the barrier semaphore, then each writing its row into every
    peer's table — terminates, and every final state has each device's arrays at the proof data's final contents. -/
theorem run_main (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi2_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Coll.run_main' depends on axioms: [propext, Classical.choice, Quot.sound] -/
#guard_msgs in #print axioms run_main

end Cert.KernelIdeal.Coll

end
-- ==== Proof.Oblig.lean ====
/- From the two bodies to the pipeline's obligation at both grid points: which staging buffers the pipeline
   hands the body at each point, and what it expects back. -/
import proofs.«900919_g7700000000000920_dist_max_ax0_shard0_i_m2048_n1024_v7x_i8_f32_1_alg».proof.Proof.Vals
import proofs.«900919_g7700000000000920_dist_max_ax0_shard0_i_m2048_n1024_v7x_i8_f32_1_alg».proof.Proof.Gen.KernelIdeal.Launch
import proofs.«900919_g7700000000000920_dist_max_ax0_shard0_i_m2048_n1024_v7x_i8_f32_1_alg».proof.Proof.Gen.KernelIdeal.Points
import Idealize.ShloMosaic.Lib.Pipeline.Launch
import Idealize.ShloMosaic.Lib.Pipeline.Kit
import Idealize.ShloMosaic.Lib.Tactic
import proofs.«900919_g7700000000000920_dist_max_ax0_shard0_i_m2048_n1024_v7x_i8_f32_1_alg».proof.Proof.Proto
set_option maxRecDepth 16384

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The input alternates between its two staging buffers; the result has one. -/
theorem slots_t0_0 : cfg0.slots t0_0 0 = ⟨0, by decide⟩ := by decide
theorem slots_t1_0 : cfg0.slots t0_1 0 = ⟨1, by decide⟩ := by decide
theorem slots_t0_1 : cfg0.slots t0_0 1 = ⟨0, by decide⟩ := by decide
theorem slots_t1_1 : cfg0.slots t0_1 1 = ⟨0, by decide⟩ := by decide
/-- The result's staging buffer is untouched at the first point and written back after the second. -/
theorem idle_t0 : idle0 1 (grid0.coords t0_0) = true := by decide
theorem idle_t1 : idle0 1 (grid0.coords t0_1) = false := by decide
theorem flush_t0 : (win0 1).flush t0_0 = false := by decide
theorem fetch1_t0 : (cfg0.win 1).fetch t0_0 = false := by decide
theorem fetch1_t1 : (cfg0.win 1).fetch t0_1 = false := by decide

/-- The input's current staging buffer holds the block of the point, at both points. -/
theorem before0 (m : (ℓ : Loc nD τ sig) → Buf (Elt F) ℓ) (c : Dev nD) (t : Fin cfg0.N) (d) : (dats m 0 c).before 0 t d = Gen.iblk m c 0 t :=
  ((dats m 0 c).before_in_eq_fetched 0 rfl (fun _ => rfl) (fun _ _ _ => rfl) (fun t => by
      show Gen.iblk m c 0 t = _; unfold Dat.blockOf Gen.iblk; rfl) t d).trans
    (by unfold Dat.fetched Dat.blockOf Gen.iblk; rfl)

/-- The result's staging buffer holds whatever it held, at both points. -/
theorem before1_t0 (m : (ℓ : Loc nD τ sig) → Buf (Elt F) ℓ) (c : Dev nD) (d) : (dats m 0 c).before 1 t0_0 d = d := by
  unfold Dat.before; rw [fetch1_t0]; rfl
theorem before1_t1 (m : (ℓ : Loc nD τ sig) → Buf (Elt F) ℓ) (c : Dev nD) (d) : (dats m 0 c).before 1 t0_1 d = d := by
  rw [(dats m 0 c).before_of_pos 1 t0_1 (by decide) fetch1_t1 d, if_neg (by decide)]
  show (dats m 0 c).left 1 t0_0 d = d
  unfold Dat.left
  have h : cfg0.idle 1 (cfg0.grid.coords t0_0) = true := by decide
  simp only [h]
  exact before1_t0 m c d

/-- The pipeline's body obligation on device `c`, from the two points' bodies. -/
theorem body_obligation (m : (ℓ : Loc nD τ sig) → Buf (Elt F) ℓ)
    (hb0 : ∀ (K : Dev nD × Fin 15 → ℕ) (c : Dev nD) (W : Waits sig Unit) (g1 : Buf (Elt F) ((c : Thread nD τ).loc cc0_stg1_0)) (Kt : PUnit → sProp 𝕄),
      iprop(pre0 m K c W g1 ∗ (post0 m c g1 -∗ Kt ⟨⟩)) ⊢ wp frame (wpE (defs₀ (F := F)) 𝒱₀ c none) Set.univ (prog0 (F := F)) Kt)
    (hb1 : ∀ (K : Dev nD × Fin 15 → ℕ) (c : Dev nD) (W : Waits sig Unit) (g1 : Buf (Elt F) ((c : Thread nD τ).loc cc0_stg1_0)) (Kt : PUnit → sProp 𝕄),
      iprop(pre1 m K c W g1 ∗ (post1 m c -∗ Kt ⟨⟩)) ⊢ wp frame (wpE (defs₀ (F := F)) 𝒱₀ c none) Set.univ (prog1 (F := F)) Kt)
    (c : Dev nD) : BodyObligation (dats (F := F) m 0 c) (defs₀ (F := F)) 𝒱₀ () Set.univ := fun t => by
  rcases fin_N0 t with rfl | rfl
  · rw [bigSep_W0, bigSep_W0]
    show iprop(Φ0 m c ∗ (dats m 0 c).owesAt () t0_0.castSucc
        ∗ (∃ d, owns (c : Thread nD τ) (Memref.whole cc0_stg0_0) fullShare ((dats m 0 c).before 0 t0_0 d))
        ∗ ∃ d, owns (c : Thread nD τ) (Memref.whole cc0_stg1_0) fullShare ((dats m 0 c).before 1 t0_0 d))
      ⊢ wp frame (wpE (defs₀ (F := F)) 𝒱₀ c none) Set.univ (prog0 (F := F)) (fun _ =>
          iprop(Φ1 m c ∗ (dats m 0 c).owesAt () t0_0.succ
            ∗ owns (c : Thread nD τ) (Memref.whole cc0_stg0_0) fullShare (Gen.iblk m c 0 t0_0)
            ∗ ∃ d, owns (c : Thread nD τ) (Memref.whole cc0_stg1_0) fullShare ((dats m 0 c).before 1 t0_0 d)))
    simp only [owns_whole_eq, before0, before1_t0]
    unfold Φ0 start Dat.owesAt Pipeline.owesWithin
    rw [show (dats m 0 c).owed t0_0.castSucc = O₀ c from rfl, show (dats m 0 c).owed t0_0.succ = O₁ c from rfl]
    iintro ⟨⟨⟨⟨%K, #Hrec, Hlin⟩, Hcr, #Hlev⟩, Hacc, Htab⟩, ⟨%W, %hW, HO⟩, ⟨%d0, %g0, %hg0, Hx⟩, ⟨%d1, %g1, %hg1, Hout⟩⟩
    subst hg0; subst hg1
    iapply (hb0 K c W g1 _)
    isplitl
    · unfold pre0
      isplitr; · iexact Hrec
      isplitl [Hlin]; · iexact Hlin
      isplitl [Hcr]; · iexact Hcr
      isplitr; · iexact Hlev
      isplitl [Hacc]; · iexact Hacc
      isplitl [Htab]; · iexact Htab
      isplitl [HO]; · iexact HO
      isplitl [Hx]; · iexact Hx
      iexact Hout
    · unfold post0 Φ1
      iintro ⟨Hlin, Hcr, Hacc, Hrow, ⟨%W', HO⟩, Hx, Hout⟩
      isplitl [Hlin Hcr Hacc Hrow]
      · isplitl [Hlin]
        · iexists K; isplitr; · iexact Hrec
          iexact Hlin
        isplitl [Hcr]; · iexact Hcr
        isplitr; · iexact Hlev
        isplitl [Hacc]; · iexact Hacc
        iexact Hrow
      isplitl [HO]
      · iexists W'; isplitr; · ipureintro; exact fun _ _ => Or.inl trivial
        iexact HO
      isplitl [Hx]
      · iexists _; isplitr; · (ipureintro; rfl)
        iexact Hx
      iexists g1; iexists _; isplitr; · (ipureintro; rfl)
      iexact Hout
  · rw [bigSep_W0, bigSep_W0]
    show iprop(Φ1 m c ∗ (dats m 0 c).owesAt () t0_1.castSucc
        ∗ (∃ d, owns (c : Thread nD τ) (Memref.whole cc0_stg0_1) fullShare ((dats m 0 c).before 0 t0_1 d))
        ∗ ∃ d, owns (c : Thread nD τ) (Memref.whole cc0_stg1_0) fullShare ((dats m 0 c).before 1 t0_1 d))
      ⊢ wp frame (wpE (defs₀ (F := F)) 𝒱₀ c none) Set.univ (prog1 (F := F)) (fun _ =>
          iprop(Φ2 c ∗ (dats m 0 c).owesAt () t0_1.succ
            ∗ owns (c : Thread nD τ) (Memref.whole cc0_stg0_1) fullShare (Gen.iblk m c 0 t0_1)
            ∗ owns (c : Thread nD τ) (Memref.whole cc0_stg1_0) fullShare (outV m)))
    simp only [owns_whole_eq, before0, before1_t1]
    unfold Φ1 Dat.owesAt Pipeline.owesWithin
    rw [show (dats m 0 c).owed t0_1.castSucc = O₁ c from rfl, show (dats m 0 c).owed t0_1.succ = 0 from rfl]
    iintro ⟨⟨⟨%K, #Hrec, Hlin⟩, Hcr, #Hlev, Hacc, Hrow⟩, ⟨%W, %hW, HO⟩, ⟨%d0, %g0, %hg0, Hx⟩, ⟨%d1, %g1, %hg1, Hout⟩⟩
    subst hg0; subst hg1
    iapply (hb1 K c W g1 _)
    isplitl
    · unfold pre1
      isplitr; · iexact Hrec
      isplitl [Hlin]; · iexact Hlin
      isplitl [Hcr]; · iexact Hcr
      isplitr; · iexact Hlev
      isplitl [Hacc]; · iexact Hacc
      isplitl [Hrow]; · iexact Hrow
      isplitl [HO]; · iexact HO
      isplitl [Hx]; · iexact Hx
      iexact Hout
    · unfold post1
      iintro ⟨HΦ, ⟨%W', HO⟩, Hx, Hout⟩
      isplitl [HΦ]; · iexact HΦ
      isplitl [HO]
      · iexists W'; isplitr; · ipureintro; exact fun _ _ => Or.inl trivial
        iexact HO
      isplitl [Hx]
      · iexists _; isplitr; · (ipureintro; rfl)
        iexact Hx
      iexists _; isplitr; · (ipureintro; rfl)
      iexact Hout

end Cert.KernelIdeal.Coll

end
-- ==== Proof.Rows.lean ====
/- The rows of the gathered table: the [8,1024] scratch buffer held row by row and share by share.

   Row `r` of the table is the set of elements whose first coordinate is `r`; the eight rows are pairwise
   disjoint and cover the buffer, so the table's points-to is the product of its rows' points-tos; and a
   product over the eight devices splits into the factor at one device and the product over its seven peers. -/
import proofs.«900919_g7700000000000920_dist_max_ax0_shard0_i_m2048_n1024_v7x_i8_f32_1_alg».proof.Proof.Proto
import Idealize.ShloMosaic.Rules.PointsTo
import Idealize.ShloMosaic.Lib.Pipeline.Value

set_option maxRecDepth 16384

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- An element of the table's buffer lies in row `r`, as the kernel slices it, exactly when its first coordinate is `r`. -/
theorem mem_row_iff (c r : Dev nD) (i : Idx ((rowM r).view.loc (c : Thread nD τ))) :
    i ∈ (rowM r).view.set ↔ (i 0).val = r.val := by
  rw [View.set_slice_whole, Rect.mem_set_unit, k0_off2_eq r]
  have e0 : (![r.val, 0] : Fin 2 → ℕ) 0 = r.val := rfl
  have e1 : (![r.val, 0] : Fin 2 → ℕ) 1 = 0 := rfl
  have s0 : S1x1024.size (0 : Fin 2) = 1 := rfl
  have s1 : S1x1024.size (1 : Fin 2) = 1024 := rfl
  have b1 : ((i (1 : Fin 2) : Fin 1024) : ℕ) < 1024 := (i (1 : Fin 2)).isLt
  constructor
  · intro h
    have h0 := h (0 : Fin 2)
    rw [e0, s0] at h0
    omega
  · intro h
    refine Fin.forall_fin_two.mpr ⟨?_, ?_⟩
    · rw [e0, s0]; omega
    · rw [e1, s1]; omega

/-- Two different rows of the table share no element. -/
theorem rows_disjoint (c r r' : Dev nD) (h : r ≠ r') :
    Disjoint ((rowM r).view.set : Finset (Idx ((c : Thread nD τ).loc cc0_scratch1))) (rowM r').view.set := by
  rw [Finset.disjoint_left]
  intro i hi hi'
  rw [mem_row_iff c r] at hi
  rw [mem_row_iff c r'] at hi'
  exact h (Fin.ext (hi.symm.trans hi'))

/-- Every element of the table lies in the row its first coordinate names. -/
theorem rows_cover (c : Dev nD) :
    (Finset.univ : Finset (Idx ((c : Thread nD τ).loc cc0_scratch1)))
      = Finset.univ.biUnion fun r : Dev nD => (rowM r).view.set := by
  ext i
  simp only [Finset.mem_univ, Finset.mem_biUnion, true_and, true_iff]
  exact ⟨⟨(i 0).val, (i 0).isLt⟩, (mem_row_iff c ⟨(i 0).val, (i 0).isLt⟩ i).mpr rfl⟩

/-- The table held whole is its eight rows held one by one, at any share and any contents. -/
theorem tab_rows (q : PosShare TreeShare) (c : Dev nD) (f : Buf (Elt F) ((c : Thread nD τ).loc cc0_scratch1)) :
    (tabPts q c f : sProp 𝕄) = bigSep Finset.univ fun r : Dev nD => rowPts q c r f := by
  unfold tabPts rowPts
  rw [rows_cover c]
  exact pointsTo_biUnion Finset.univ _ fun r _ r' _ h => rows_disjoint c r r' h

/-- A row's points-to depends on the contents only through the row's own elements. -/
theorem row_congr (q : PosShare TreeShare) (c r : Dev nD) (f g : Buf (Elt F) ((rowM r).view.loc (c : Thread nD τ)))
    (h : ∀ i ∈ (rowM r).view.set, f i = g i) : (rowPts q c r f : sProp 𝕄) = rowPts q c r g := by
  unfold rowPts; exact pointsTo_congr h

theorem bwd_inj_left (c : Dev nD) : Function.Injective fun j : Fin 7 => bwd j c := by revert c; decide

/-- The seven devices ahead of `c` are exactly the devices other than `c`. -/
theorem erase_eq_image_fwd (c : Dev nD) :
    (Finset.univ : Finset (Dev nD)).erase c = Finset.univ.image fun j : Fin 7 => fwd j c := by revert c; decide
/-- So are the seven devices behind it. -/
theorem erase_eq_image_bwd (c : Dev nD) :
    (Finset.univ : Finset (Dev nD)).erase c = Finset.univ.image fun j : Fin 7 => bwd j c := by revert c; decide

/-- A product over the eight devices is the factor at `c` times the product over `c`'s seven peers ahead. -/
theorem bigSep_dev_fwd (c : Dev nD) {M : Type} [URA M] (Φ : Dev nD → sProp M) :
    bigSep Finset.univ Φ = iprop(Φ c ∗ bigSep Finset.univ fun j : Fin 7 => Φ (fwd j c)) := by
  rw [bigSep_univ_at Φ c, erase_eq_image_fwd c, bigSep_image_of_injOn ((fwd_inj_left c).injOn) Φ]

/-- The same over the seven peers behind. -/
theorem bigSep_dev_bwd (c : Dev nD) {M : Type} [URA M] (Φ : Dev nD → sProp M) :
    bigSep Finset.univ Φ = iprop(Φ c ∗ bigSep Finset.univ fun j : Fin 7 => Φ (bwd j c)) := by
  rw [bigSep_univ_at Φ c, erase_eq_image_bwd c, bigSep_image_of_injOn ((bwd_inj_left c).injOn) Φ]

/-- info: 'Cert.KernelIdeal.Coll.mem_row_iff' depends on axioms: [propext, Classical.choice, Quot.sound] -/
#guard_msgs in #print axioms mem_row_iff

/-- info: 'Cert.KernelIdeal.Coll.tab_rows' depends on axioms: [propext, Classical.choice, Quot.sound] -/
#guard_msgs in #print axioms tab_rows

/-- info: 'Cert.KernelIdeal.Coll.row_congr' depends on axioms: [propext, Classical.choice, Quot.sound] -/
#guard_msgs in #print axioms row_congr

/-- info: 'Cert.KernelIdeal.Coll.bigSep_dev_fwd' depends on axioms: [propext, Classical.choice, Quot.sound] -/
#guard_msgs in #print axioms bigSep_dev_fwd

/-- info: 'Cert.KernelIdeal.Coll.bigSep_dev_bwd' depends on axioms: [propext, Classical.choice, Quot.sound] -/
#guard_msgs in #print axioms bigSep_dev_bwd

end Cert.KernelIdeal.Coll

end
-- ==== Proof.Body0.lean ====
/- The body of the all-gather-max kernel at the FIRST grid point, on a symbolic device `c` of the ring of eight.

   At this point the body tells each of the seven devices ahead of `c` that `c` has entered — one unit on that
   device's barrier semaphore — and with each unit hands over that device's row of `c`'s own table, for the device
   to write its contribution into later. It then reads the first staged block of `c`'s rows and stores the block's
   column maxima into the accumulator. Nothing else runs: the accumulate branch and the exchange branch are
   those of the second point. -/
import proofs.«900919_g7700000000000920_dist_max_ax0_shard0_i_m2048_n1024_v7x_i8_f32_1_alg».proof.Proof.Proto
import proofs.«900919_g7700000000000920_dist_max_ax0_shard0_i_m2048_n1024_v7x_i8_f32_1_alg».proof.Proof.Rows
import proofs.«900919_g7700000000000920_dist_max_ax0_shard0_i_m2048_n1024_v7x_i8_f32_1_alg».proof.Proof.Gen.KernelIdeal.Skeleton
import Idealize.ShloMosaic.Lib.Writes

set_option maxRecDepth 16384

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One signal of the seven -/

/-- The `j`-th signal: one unit to the barrier cell of the device `j + 1` places ahead (`n`, which is `fwd j c`). It pays
    duty `j.rev` of that cell — the addressed device sees this one `7 - j` ahead of itself — with that device's row of
    this device's own table and the fact that this device's receive cell `j.rev` is open; the unit comes off what
    this device owes. -/
theorem wp_signal_j (m : (ℓ : Loc nD τ sig) → Buf (Elt F) ℓ) (K : Dev nD × Fin 15 → ℕ) (c n : Dev nD) (j : Fin 7) (hn : n = fwd j c)
    {α : Type} {Q : α → sProp 𝕄} {k : PUnit → Prog (TpuEff nD τ sig (Elt F) Λ₀ .tc) α}
    (O₀ O : CellTallies nD τ sig Unit) (hO : O₀ = O + sigT c j) (W : Waits sig Unit)
    (f : Buf (Elt F) ((rowM (fwd j c)).view.loc (c : Thread nD τ))) :
    iprop(records m K ∗ owes (c : Thread nD τ) O₀ W ∗ dutyTok ER (barCell (fwd j c)) 0 j.rev ∗ rowPts fullShare c (fwd j c) f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS 1) k) Q) := by
  subst hn
  have h := Rounds.wp_signal 𝒱₀ ER (sched m) (c : Thread nD τ) none (defs := defs₀ (F := F)) (Γ := PendingWaitsCtx.empty) (dst := (fwd j c : Thread nD τ)) (sem := barS)
    (r := 0) (d := j.rev) (k' := 1) (k := k) (κ := K (fwd j c, 0)) (Q := Q)
    (by rw [duties_bar]; exact Finset.mem_univ _) (amount_bar m (fwd j c) j.rev) () O hO (W := W) (Es := Set.univ)
  rw [payload_bar] at h; unfold barPay at h; rw [fwd_rev_fwd] at h
  iintro ⟨#HR, HO, Htok, Hrow⟩
  iapply h
  isplitr
  · iapply (inv_at m K (fwd j c, 0)); iexact HR
  isplitl [HO]; · iexact HO
  isplitl [Htok]; · iexact Htok
  isplitl [Hrow]
  · isplitl [Hrow]
    · iexists f; iexact Hrow
    · iapply (show records m K ⊢ reached ER (rcvCell c j.rev) 0 from by
        have h := reached_at m K (c, rIx j.rev); rwa [kcell_rcv] at h)
      iexact HR
  · iapply (reached_at m K (fwd j c, 0)); iexact HR

namespace B0

/-! ## The four conditions at the first grid point

The grid coordinate is 0 there: the entry branch and the "first point" branch are taken, the "later point" branch
and the exchange branch are not. -/

theorem cond1_t0 : k0_cond1 (grid0.coords t0_0) = 1#1 := by decide
theorem cond2_t0 : Scalar.cmpi CmpIPredicate.ne
    (Scalar.extui (Scalar.cmpi CmpIPredicate.eq (BitVec.ofNat 32 ↑(grid0.coords t0_0 0)) 0#32)) 0#32 = 1#1 := by decide
theorem cond3_t0 : ¬ Scalar.cmpi CmpIPredicate.ne
    (Scalar.extui (Scalar.cmpi CmpIPredicate.sgt (BitVec.ofNat 32 ↑(grid0.coords t0_0 0)) 0#32)) 0#32 = 1#1 := by decide
theorem cond4_t0 : ¬ k0_cond4 (grid0.coords t0_0) = 1#1 := by decide

/-- The amount of each signal: the word 1 denotes one unit. -/
theorem one_toNat : (1#32 : BitVec 32).toNat = 1 := rfl

/-! ## The table, cut for the seven signals -/

/-- The whole table is the device's own row and the rows of the seven devices ahead of it. -/
theorem tab_split (c : Dev nD) (f : Buf (Elt F) ((c : Thread nD τ).loc cc0_scratch1)) :
    tabPts (F := F) fullShare c f
      = iprop(rowPts fullShare c c f ∗ rowPts fullShare c (fwd 0 c) f ∗ rowPts fullShare c (fwd 1 c) f ∗ rowPts fullShare c (fwd 2 c) f
          ∗ rowPts fullShare c (fwd 3 c) f ∗ rowPts fullShare c (fwd 4 c) f ∗ rowPts fullShare c (fwd 5 c) f ∗ rowPts fullShare c (fwd 6 c) f) := by
  rw [tab_rows, bigSep_dev_fwd c, bigSep_fin7]

/-! ## The accumulator after the first point -/

/-- The whole block and the whole accumulator, as the kernel's constant-zero indices address them. -/
abbrev rBlk : Rect S1024x1024 := Rect.unit (s := S1024x1024) ![0, 0] S1024x1024.size inb_S1024x1024_S1024x1024_0_0
abbrev rAcc : Rect S1x1024 := Rect.unit (s := S1x1024) ![0, 0] S1x1024.size inb_S1x1024_S1x1024_0_0

omit [FloatOps F] in
theorem zeros2 : (![0, 0] : Fin 2 → Nat) = fun _ => 0 := funext fun a => by fin_cases a <;> rfl

omit [FloatOps F] in
/-- Reading the whole staged block reads its contents. -/
theorem read_blk (f : (cc0_stg0_0 : Ref sig .tc).ty.Contents (Elt F)) :
    (Memref.whole cc0_stg0_0 : Memref sig .tc .vmem S1024x1024 .f32).view.readAt (Elt F) rBlk.toLoadRect f = f :=
  Memref.readAt_unit_zero (Elt F) cc0_stg0_0 zeros2 _ f

omit [FloatOps F] in
/-- Writing the whole accumulator leaves what is written. -/
theorem write_acc (f w : (cc0_scratch0 : Ref sig .tc).ty.Contents (Elt F)) :
    ((Memref.whole cc0_scratch0 : Memref sig .tc .vmem S1x1024 .f32).access rAcc : View sig .tc _ _ _).write (Elt F) f w Finset.univ = w :=
  Memref.write_access_unit_zero_univ (Elt F) cc0_scratch0 zeros2 _ f w

/-- One store of the block's column maxima over whatever the accumulator held leaves exactly those maxima. -/
theorem acc_value (m : (ℓ : Loc nD τ sig) → Buf (Elt F) ℓ) (c : Dev nD) (fa : Buf (Elt F) ((c : Thread nD τ).loc cc0_scratch0)) :
    (Memref.whole cc0_scratch0 : Memref sig .tc .vmem S1x1024 .f32).view.writes (Elt F) fa
        [⟨rAcc, k0_pay2 ((Memref.whole cc0_stg0_0 : Memref sig .tc .vmem S1024x1024 .f32).view.readAt (Elt F) rBlk.toLoadRect (xblk m c t0_0))⟩]
      = acc0 m c := by
  rw [read_blk, View.writes_singleton]; unfold acc0
  exact write_acc fa (k0_pay2 (xblk m c t0_0))

end B0

open B0

/-! ## The body -/

set_option backward.isDefEq.respectTransparency.types false in
/-- The body at the first grid point, on device `c`. From everything dealt at launch — the records of all cells, the
    device's positions and duty tokens, its credit, both scratch buffers at whatever they hold, the first block
    staged, the result's staging buffer at `g1` — it reaches: the seven units paid (what is still owed is the seven
    transfers' credit), the seven peers' rows of the table given away with them and the own row kept, the
    accumulator at the first block's column maxima, the two staging buffers as they were. -/
theorem sound_body0 (m : (ℓ : Loc nD τ sig) → Buf (Elt F) ℓ) (K : Dev nD × Fin 15 → ℕ) (c : Dev nD) (W : Waits sig Unit)
    (g1 : Buf (Elt F) ((c : Thread nD τ).loc cc0_stg1_0)) (Kt : PUnit → sProp 𝕄) :
    iprop(pre0 m K c W g1 ∗ (post0 m c g1 -∗ Kt ⟨⟩))
      ⊢ wp frame (wpE (defs₀ (F := F)) 𝒱₀ c none) Set.univ (prog0 (F := F)) Kt := by
  -- the program at this point: the entry branch and the first-point branch, straight-line
  unfold prog0
  rw [cc0_body_eq_skeleton]; unfold cc0_body_skel
  simp only [cond1_t0, cond2_t0, cond3_t0, cond4_t0, ↓reduceDIte]
  rw [k0_part1_eq_skeleton]; unfold k0_part1_skel
  simp only [semSignalWord, Prog.lift, Prog.bind_op, Prog.bind_ret, Prog.pure_eq_ret, wp_deviceId, one_toNat]
  -- what the device holds: the table cut into its eight rows, the seven signal tokens one by one
  unfold pre0 linear sigToks O₀ accPts
  simp only [tab_split, bigSep_fin7]
  iintro ⟨⟨#HR, ⟨Hpos, ⟨Hs0, Hs1, Hs2, Hs3, Hs4, Hs5, Hs6⟩, Hx⟩, Hcr, -, ⟨%fa, Hacc⟩, ⟨%ft, Hrc, Hr0, Hr1, Hr2, Hr3, Hr4, Hr5, Hr6⟩, HO, Hi, Ho⟩, Hpost⟩
  -- the seven signals: the `j`-th goes to the device `j + 1` ahead with that device's row, and peels the last
  -- summand off what is owed
  iapply (wp_signal_j m K c _ 0 (dev1_eq (grid0.coords t0_0) c cond1_t0) (Osig c 0) (Osig c 1) rfl W ft) $$ [HO Hs0 Hr0]
  · isplitr; · iexact HR
    iframe
  iintro HO
  iapply (wp_signal_j m K c _ 1 (dev2_eq (grid0.coords t0_0) c cond1_t0) (Osig c 1) (Osig c 2) rfl W ft) $$ [HO Hs1 Hr1]
  · isplitr; · iexact HR
    iframe
  iintro HO
  iapply (wp_signal_j m K c _ 2 (dev3_eq (grid0.coords t0_0) c cond1_t0) (Osig c 2) (Osig c 3) rfl W ft) $$ [HO Hs2 Hr2]
  · isplitr; · iexact HR
    iframe
  iintro HO
  iapply (wp_signal_j m K c _ 3 (dev4_eq (grid0.coords t0_0) c cond1_t0) (Osig c 3) (Osig c 4) rfl W ft) $$ [HO Hs3 Hr3]
  · isplitr; · iexact HR
    iframe
  iintro HO
  iapply (wp_signal_j m K c _ 4 (dev5_eq (grid0.coords t0_0) c cond1_t0) (Osig c 4) (Osig c 5) rfl W ft) $$ [HO Hs4 Hr4]
  · isplitr; · iexact HR
    iframe
  iintro HO
  iapply (wp_signal_j m K c _ 5 (dev6_eq (grid0.coords t0_0) c cond1_t0) (Osig c 5) (Osig c 6) rfl W ft) $$ [HO Hs5 Hr5]
  · isplitr; · iexact HR
    iframe
  iintro HO
  iapply (wp_signal_j m K c _ 6 (dev7_eq (grid0.coords t0_0) c cond1_t0) (Osig c 6) (Osig c 7) rfl W ft) $$ [HO Hs6 Hr6]
  · isplitr; · iexact HR
    iframe
  iintro HO
  -- the block is read, the accumulator read and then overwritten with the block's column maxima
  ihave Hi' : (((Memref.whole cc0_stg0_0 : Memref sig .tc .vmem S1024x1024 .f32).view.loc (c : Thread nD τ)) ↦{fullShare} (xblk m c t0_0)) $$ [Hi]
  · iexact Hi
  ihave Hacc' : (((Memref.whole cc0_scratch0 : Memref sig .tc .vmem S1x1024 .f32).view.loc (c : Thread nD τ)) ↦{fullShare} fa) $$ [Hacc]
  · iexact Hacc
  sl_exec
  sl_step
  -- what is left is the post: positions and transfer tokens untouched, the credit, the accumulator at the maxima,
  -- the own row, the seven transfers' credit still owed, the two staging buffers
  iapply Hpost
  unfold post0 linear1 accPts
  isplitl [Hpos Hx]; · iframe
  isplitl [Hcr]; · iexact Hcr
  isplitl [Hacc']
  · rw [← acc_value m c fa]; iexact Hacc'
  isplitl [Hrc]; · iexists ft; iexact Hrc
  isplitl [HO]; · iexists W; iexact HO
  isplitl [Hi']; · iexact Hi'
  iexact Ho

/-- info: 'Cert.KernelIdeal.Coll.sound_body0' depends on axioms: [propext, Classical.choice, Quot.sound] -/
#guard_msgs in #print axioms sound_body0

end Cert.KernelIdeal.Coll

end
-- ==== Proof.Rows2.lean ====
/- The rows of the gathered table, continued: the store and the load of a device's own row, what a landed
   transfer leaves in the destination's row, and the shares a row is held at.

   The kernel stores and loads its own row through a rectangle whose offsets are the same pair as the row
   slice's, so both touch exactly that row; a transfer writes, element by element, what it read at the same
   place; and a row held whole is its left half with seven shares cut from its right half. -/
import proofs.«900919_g7700000000000920_dist_max_ax0_shard0_i_m2048_n1024_v7x_i8_f32_1_alg».proof.Proof.Rows
import Idealize.ShloMosaic.Lib.ValueIdx
import Idealize.ShloMosaic.Rules.PointsTo
import Idealize.ShloMosaic.Lib.Pipeline.Value

set_option maxRecDepth 16384

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The rectangle the kernel stores its own row through, and loads it back through. -/
abbrev rS (c : Dev nD) : Rect S8x1024 :=
  Rect.unit (s := S8x1024) (k0_off1 c) S1x1024.size (k0_off1_inb (grid0.coords t0_1) c (by decide))

/-- That rectangle is row `c`: the store's offsets and the slice's offsets are the same pair. -/
theorem rS_eq (c : Dev nD) : rS c = Rect.unit (s := S8x1024) (k0_off2 c) S1x1024.size (off2_inb c) :=
  Rect.unit_congr ((k0_off1_eq c).trans (k0_off2_eq c).symm) _ _

/-- The elements an access through it touches are row `c`'s. -/
theorem access_row_set (c : Dev nD) :
    ((tabM : Memref sig .tc .vmem S8x1024 .f32).access (rS c)).set = (rowM c).view.set := by
  rw [rS_eq c]

theorem store_row_sub (c : Dev nD) :
    ((tabM : Memref sig .tc .vmem S8x1024 .f32).access (rS c)).setOn Finset.univ ⊆ (rowM c).view.set := by
  rw [View.setOn_univ, access_row_set c]

theorem load_row_sub (c : Dev nD) :
    (tabM : Memref sig .tc .vmem S8x1024 .f32).view.setOn (rS c).toLoadRect.set ⊆ (rowM c).view.set := by
  rw [← access_row_set c]
  exact (View.set_slice (v := (tabM : Memref sig .tc .vmem S8x1024 .f32).view) (rS c)).symm.subset

/-- Where the store's view puts column `b` of the stored vector: at row `c`, column `b` of the table. -/
theorem access_emb (c : Dev nD) (i : Idx ((rowM c).view.loc (c : Thread nD τ))) (hi : (i 0).val = c.val) :
    ((tabM : Memref sig .tc .vmem S8x1024 .f32).access (rS c)).emb (ValueIdx.ix2 (0 : Fin 1) (i 1)) = i := by
  funext a
  apply Fin.ext
  match a with
  | ⟨0, _⟩ =>
    show k0_off1 c 0 + 1 * 0 = (i 0).val
    rw [k0_off1_eq c, hi]; rfl
  | ⟨1, _⟩ =>
    show k0_off1 c 1 + 1 * (i 1).val = (i 1).val
    rw [k0_off1_eq c]
    show 0 + 1 * (i 1).val = (i 1).val
    omega

/-- After the unmasked store of `w` through that rectangle, row `c` of the table holds `w`, column by column. -/
theorem store_row_apply (c : Dev nD) (f : Buf (Elt F) ((rowM c).view.loc (c : Thread nD τ))) (w : Vec F S1x1024 .f32) :
    ∀ i ∈ (rowM c).view.set,
      (((tabM : Memref sig .tc .vmem S8x1024 .f32).access (rS c)).write (Elt F) f w Finset.univ) i
        = w (ValueIdx.ix2 (0 : Fin 1) (i 1)) := by
  intro i hi
  rw [mem_row_iff c c i] at hi
  have h := View.write_emb_of_mem (v := ((tabM : Memref sig .tc .vmem S8x1024 .f32).access (rS c))) (Val := Elt F) f w
    (M := Finset.univ) (x := ValueIdx.ix2 (0 : Fin 1) (i 1)) (Finset.mem_univ _)
  rw [access_emb c i hi] at h
  exact h

/-- Storing the device's own contribution through that rectangle makes row `c` of its table the final table's row `c`. -/
theorem stored_row_eq (m : (ℓ : Loc nD τ sig) → Buf (Elt F) ℓ) (c : Dev nD)
    (f : Buf (Elt F) ((rowM c).view.loc (c : Thread nD τ))) :
    (rowPts fullShare c c
        (((tabM : Memref sig .tc .vmem S8x1024 .f32).access (rS c)).write (Elt F) f (rowV m c) Finset.univ) : sProp 𝕄)
      = rowPts fullShare c c (tabV m c) := by
  refine row_congr fullShare c c _ _ fun i hi => ?_
  rw [store_row_apply c f (rowV m c) i hi]
  rw [mem_row_iff c c i] at hi
  have hc : (⟨(i 0).val, (i 0).isLt⟩ : Dev nD) = c := Fin.ext hi
  show rowV m c (ValueIdx.ix2 (0 : Fin 1) (i 1)) = rowV m ⟨(i 0).val, (i 0).isLt⟩ (ValueIdx.ix2 (0 : Fin 1) (i 1))
  rw [hc]

/-- Where row `r`'s view puts its column `b`: at row `r`, column `b` of the table, on whichever device. -/
theorem row_emb (t r : Dev nD) (i : Idx ((rowM r).view.loc (t : Thread nD τ))) (hi : (i 0).val = r.val) :
    (rowM r).view.emb (ValueIdx.ix2 (0 : Fin 1) (i 1)) = i := by
  funext a
  apply Fin.ext
  match a with
  | ⟨0, _⟩ =>
    show k0_off2 r 0 + 1 * 0 = (i 0).val
    rw [k0_off2_eq r, hi]; rfl
  | ⟨1, _⟩ =>
    show k0_off2 r 1 + 1 * (i 1).val = (i 1).val
    rw [k0_off2_eq r]
    show 0 + 1 * (i 1).val = (i 1).val
    omega

/-- A transfer of row `r` out of a table with contents `g` lands, in row `r` of the destination table, exactly `g`'s
    row `r`: element by element the written value is the one read at the same place. -/
theorem landed_row_eq (c t r : Dev nD) (fd : Buf (Elt F) ((rowM r).view.loc (t : Thread nD τ)))
    (g : Buf (Elt F) ((rowM r).view.loc (c : Thread nD τ))) :
    (rowPts fullShare t r ((rowM r).view.write (Elt F) fd ((rowM r).view.read (Elt F) g) Finset.univ) : sProp 𝕄)
      = rowPts fullShare t r g := by
  refine row_congr fullShare t r _ _ fun i hi => ?_
  rw [mem_row_iff t r i] at hi
  have h := View.write_emb_of_mem (v := (rowM r).view) (Val := Elt F) fd ((rowM r).view.read (Elt F) g)
    (M := Finset.univ) (x := ValueIdx.ix2 (0 : Fin 1) (i 1)) (Finset.mem_univ _)
  rw [View.read_apply, row_emb t r i hi] at h
  exact h

/-- The final table is the same function on every device, so a row of it landing on `t` is `t`'s final row. -/
theorem landed_tab (m : (ℓ : Loc nD τ sig) → Buf (Elt F) ℓ) (c t r : Dev nD)
    (fd : Buf (Elt F) ((rowM r).view.loc (t : Thread nD τ))) :
    (rowPts fullShare t r ((rowM r).view.write (Elt F) fd ((rowM r).view.read (Elt F) (tabV m c)) Finset.univ) : sProp 𝕄)
      = rowPts fullShare t r (tabV m t) :=
  landed_row_eq c t r fd (tabV m c)

/-- A row at any share is its two half-shares. -/
theorem row_halves (q : PosShare TreeShare) (c r : Dev nD) (f : Buf (Elt F) ((rowM r).view.loc (c : Thread nD τ))) :
    (rowPts q c r f : sProp 𝕄) ⊣⊢ iprop(rowPts q.left c r f ∗ rowPts q.right c r f) := by
  unfold rowPts; exact pointsTo_share (PosShare.mem_left_op_right q)

/-- The same as an equation between assertions. -/
theorem row_halves_eq (q : PosShare TreeShare) (c r : Dev nD) (f : Buf (Elt F) ((rowM r).view.loc (c : Thread nD τ))) :
    (rowPts q c r f : sProp 𝕄) = iprop(rowPts q.left c r f ∗ rowPts q.right c r f) :=
  have h := row_halves q c r f
  BI.equiv_iff.mp ⟨h.1, h.2⟩

/-- Associativity of the separating conjunction, as an equation. -/
theorem sep_assoc_rows2 {M : Type} [URA M] (P Q R : sProp M) : iprop((P ∗ Q) ∗ R) = iprop(P ∗ Q ∗ R) :=
  have h : iprop((P ∗ Q) ∗ R) ⊣⊢ iprop(P ∗ Q ∗ R) := Idealize.SL.BI.Laws.sep_assoc
  BI.equiv_iff.mp ⟨h.1, h.2⟩

/-- The own row held whole is its left half, kept, and the seven shares of its right half, lent one to each transfer:
    the right half is halved three levels down, its last quarter left uncut. -/
theorem row_lend_eq (c : Dev nD) (f : Buf (Elt F) ((rowM c).view.loc (c : Thread nD τ))) :
    (rowPts fullShare c c f : sProp 𝕄)
      = iprop(rowPts fullShare.left c c f ∗ bigSep Finset.univ fun j : Fin 7 => rowPts (sh j) c c f) := by
  rw [bigSep_fin7,
    row_halves_eq fullShare c c f,
    row_halves_eq fullShare.right c c f,
    row_halves_eq fullShare.right.left c c f,
    row_halves_eq fullShare.right.right c c f,
    row_halves_eq fullShare.right.left.left c c f,
    row_halves_eq fullShare.right.left.right c c f,
    row_halves_eq fullShare.right.right.left c c f]
  simp only [sep_assoc_rows2]
  rfl

theorem row_lend (c : Dev nD) (f : Buf (Elt F) ((rowM c).view.loc (c : Thread nD τ))) :
    (rowPts fullShare c c f : sProp 𝕄)
      ⊣⊢ iprop(rowPts fullShare.left c c f ∗ bigSep Finset.univ fun j : Fin 7 => rowPts (sh j) c c f) :=
  .of_eq (row_lend_eq c f)

/-- The table at any share: the own row, and the rows of the seven devices behind. -/
theorem tab_at_bwd (q : PosShare TreeShare) (c : Dev nD) (f : Buf (Elt F) ((c : Thread nD τ).loc cc0_scratch1)) :
    (tabPts q c f : sProp 𝕄) = iprop(rowPts q c c f ∗ bigSep Finset.univ fun j : Fin 7 => rowPts q c (bwd j c) f) :=
  (tab_rows q c f).trans (bigSep_dev_bwd c fun r : Dev nD => (rowPts q c r f : sProp 𝕄))

/-- The same over the seven devices ahead. -/
theorem tab_at_fwd (q : PosShare TreeShare) (c : Dev nD) (f : Buf (Elt F) ((c : Thread nD τ).loc cc0_scratch1)) :
    (tabPts q c f : sProp 𝕄) = iprop(rowPts q c c f ∗ bigSep Finset.univ fun j : Fin 7 => rowPts q c (fwd j c) f) :=
  (tab_rows q c f).trans (bigSep_dev_fwd c fun r : Dev nD => (rowPts q c r f : sProp 𝕄))

/-- The kept halves of all eight rows make the table's left half. -/
theorem tab_left (c : Dev nD) (f : Buf (Elt F) ((c : Thread nD τ).loc cc0_scratch1)) :
    (iprop(rowPts fullShare.left c c f ∗ bigSep Finset.univ fun j : Fin 7 => rowPts fullShare.left c (bwd j c) f) : sProp 𝕄)
      ⊣⊢ tabPts fullShare.left c f :=
  .of_eq (tab_at_bwd fullShare.left c f).symm

/-- All eight rows whole make the table whole. -/
theorem tab_full (c : Dev nD) (f : Buf (Elt F) ((c : Thread nD τ).loc cc0_scratch1)) :
    (iprop(rowPts fullShare c c f ∗ bigSep Finset.univ fun j : Fin 7 => rowPts fullShare c (bwd j c) f) : sProp 𝕄)
      ⊣⊢ tabPts fullShare c f :=
  .of_eq (tab_at_bwd fullShare c f).symm

/-- info: 'Cert.KernelIdeal.Coll.store_row_sub' depends on axioms: [propext, Classical.choice, Quot.sound] -/
#guard_msgs in #print axioms store_row_sub

/-- info: 'Cert.KernelIdeal.Coll.load_row_sub' depends on axioms: [propext, Classical.choice, Quot.sound] -/
#guard_msgs in #print axioms load_row_sub

/-- info: 'Cert.KernelIdeal.Coll.store_row_apply' depends on axioms: [propext, Classical.choice, Quot.sound] -/
#guard_msgs in #print axioms store_row_apply

/-- info: 'Cert.KernelIdeal.Coll.stored_row_eq' depends on axioms: [propext, Classical.choice, Quot.sound] -/
#guard_msgs in #print axioms stored_row_eq

/-- info: 'Cert.KernelIdeal.Coll.landed_row_eq' depends on axioms: [propext, Classical.choice, Quot.sound] -/
#guard_msgs in #print axioms landed_row_eq

/-- info: 'Cert.KernelIdeal.Coll.landed_tab' depends on axioms: [propext, Classical.choice, Quot.sound] -/
#guard_msgs in #print axioms landed_tab

/-- info: 'Cert.KernelIdeal.Coll.row_lend' depends on axioms: [propext, Classical.choice, Quot.sound] -/
#guard_msgs in #print axioms row_lend

/-- info: 'Cert.KernelIdeal.Coll.row_halves' depends on axioms: [propext, Classical.choice, Quot.sound] -/
#guard_msgs in #print axioms row_halves

/-- info: 'Cert.KernelIdeal.Coll.tab_left' depends on axioms: [propext, Classical.choice, Quot.sound] -/
#guard_msgs in #print axioms tab_left

/-- info: 'Cert.KernelIdeal.Coll.tab_full' depends on axioms: [propext, Classical.choice, Quot.sound] -/
#guard_msgs in #print axioms tab_full

end Cert.KernelIdeal.Coll

end
-- ==== Proof.Wrap1.lean ====
/- The remote steps of the second grid point, each as one rule over the protocol's names: the wait on the barrier
   semaphore, the `j`-th transfer, and the waits on the `j`-th receive and send semaphores. -/
import proofs.«900919_g7700000000000920_dist_max_ax0_shard0_i_m2048_n1024_v7x_i8_f32_1_alg».proof.Proof.Proto

set_option maxRecDepth 16384

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The printed semaphores and the printed row, by name -/

@[simp] theorem snd_sem0 : ((cc0_scratch2.slice (Rect.unit (s := S7) ![0] S1.size inb_S7_S1_0)).squeeze S_ squeezes_S1_S_).sem = sndS 0 := rfl
@[simp] theorem rcv_sem0 : ((cc0_scratch3.slice (Rect.unit (s := S7) ![0] S1.size inb_S7_S1_0)).squeeze S_ squeezes_S1_S_).sem = rcvS 0 := rfl
@[simp] theorem snd_sem1 : ((cc0_scratch2.slice (Rect.unit (s := S7) ![1] S1.size inb_S7_S1_1)).squeeze S_ squeezes_S1_S_).sem = sndS 1 := rfl
@[simp] theorem rcv_sem1 : ((cc0_scratch3.slice (Rect.unit (s := S7) ![1] S1.size inb_S7_S1_1)).squeeze S_ squeezes_S1_S_).sem = rcvS 1 := rfl
@[simp] theorem snd_sem2 : ((cc0_scratch2.slice (Rect.unit (s := S7) ![2] S1.size inb_S7_S1_2)).squeeze S_ squeezes_S1_S_).sem = sndS 2 := rfl
@[simp] theorem rcv_sem2 : ((cc0_scratch3.slice (Rect.unit (s := S7) ![2] S1.size inb_S7_S1_2)).squeeze S_ squeezes_S1_S_).sem = rcvS 2 := rfl
@[simp] theorem snd_sem3 : ((cc0_scratch2.slice (Rect.unit (s := S7) ![3] S1.size inb_S7_S1_3)).squeeze S_ squeezes_S1_S_).sem = sndS 3 := rfl
@[simp] theorem rcv_sem3 : ((cc0_scratch3.slice (Rect.unit (s := S7) ![3] S1.size inb_S7_S1_3)).squeeze S_ squeezes_S1_S_).sem = rcvS 3 := rfl
@[simp] theorem snd_sem4 : ((cc0_scratch2.slice (Rect.unit (s := S7) ![4] S1.size inb_S7_S1_4)).squeeze S_ squeezes_S1_S_).sem = sndS 4 := rfl
@[simp] theorem rcv_sem4 : ((cc0_scratch3.slice (Rect.unit (s := S7) ![4] S1.size inb_S7_S1_4)).squeeze S_ squeezes_S1_S_).sem = rcvS 4 := rfl
@[simp] theorem snd_sem5 : ((cc0_scratch2.slice (Rect.unit (s := S7) ![5] S1.size inb_S7_S1_5)).squeeze S_ squeezes_S1_S_).sem = sndS 5 := rfl
@[simp] theorem rcv_sem5 : ((cc0_scratch3.slice (Rect.unit (s := S7) ![5] S1.size inb_S7_S1_5)).squeeze S_ squeezes_S1_S_).sem = rcvS 5 := rfl
@[simp] theorem snd_sem6 : ((cc0_scratch2.slice (Rect.unit (s := S7) ![6] S1.size inb_S7_S1_6)).squeeze S_ squeezes_S1_S_).sem = sndS 6 := rfl
@[simp] theorem rcv_sem6 : ((cc0_scratch3.slice (Rect.unit (s := S7) ![6] S1.size inb_S7_S1_6)).squeeze S_ squeezes_S1_S_).sem = rcvS 6 := rfl

/-- The slice of the table the kernel takes at its own device id is that device's row. -/
theorem row_eq (i) (c : Dev nD) (h) :
    (tabM.slice (Rect.unit (s := S8x1024) (k0_off2 c) S1x1024.size (k0_off2_inb i c h)) (fun _ => rfl)) = rowM c := rfl

/-! ## The wait on the barrier semaphore -/

/-- Everything still owed between the points sits on receive cells of peers, at level 2, above the barrier cell's 1. -/
theorem mayWait_bar (c : Dev nD) : (levAts L lv : sProp 𝕄) ⊢ MayWait (c : Thread nD τ) (.reg barS) () (O₁ c) :=
  Pipeline.mayWait_of_levAts (by rw [L_tc]; exact Finset.mem_singleton_self _) fun g u h => by
    obtain ⟨j, rfl⟩ := Orcv_pos h
    refine ⟨by rw [L_tc]; exact Finset.mem_singleton_self _, ?_⟩
    rw [lv_rcv]
    show lv (barCell c) () < 2
    rw [lv_bar]; exact Nat.lt_succ_self 1

/-- The wait for the seven units of the barrier cell's round: the device gets the seven peers' rows of their tables,
    each with the fact that the peer has opened the receive cell the transfer will credit. -/
theorem wp_wait_bar (m : (ℓ : Loc nD τ sig) → Buf (Elt F) ℓ) (K : Dev nD × Fin 15 → ℕ) (c : Dev nD) (W : Waits sig Unit)
    {n : ℕ} (hn : n = 7) {α : Type} {k : PUnit → Prog (TpuEff nD τ sig (Elt F) Λ₀ .tc) α} {Q : α → sProp 𝕄} :
    iprop(records m K ∗ cred (tallyAt (barCell c) () 7) ∗ owes (c : Thread nD τ) (O₁ c) W ∗ atPos ER (barCell c) 0 ∅ 0 ∗ levAts L lv)
      ⊢ iprop(((owes (c : Thread nD τ) (O₁ c) (insert (SemLoc.reg barS, ()) W) ∗ atPos ER (barCell c) 1 ∅ 0 ∗ reached ER (barCell c) 1
                ∗ bigSep Finset.univ fun j : Fin 7 => barPay (F := F) c j)
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  iintro ⟨#Hrec, Hc, HO, Hat, #Hlv⟩ Hk
  iapply (Rounds.wp_wait_rest_token 𝒱₀ ER (sched m) (c : Thread nD τ) none (κ := K (c, 0))
      (wpE_semWait_eq 𝒱₀ (c : Thread nD τ) none Set.univ) (Set.mem_univ _) () (O := O₁ c) (W := W) (R := 0) (m := 0) (T := ∅)
      (by rw [expect_bar])) $$ [Hc HO Hat]
  · isplitr; · iapply (inv_at m K (c, 0)); iexact Hrec
    isplitl [Hc]; · iexact Hc
    isplitl [HO]; · iexact HO
    isplitr; · iapply (mayWait_bar c); iexact Hlv
    iexact Hat
  iintro ⟨HO, Hat, Hr, Hpay⟩
  iapply Hk
  isplitl [HO]; · iexact HO
  isplitl [Hat]; · iexact Hat
  isplitl [Hr]; · iexact Hr
  iapply (Entails.of_eq (rest_bar m c))
  iexact Hpay

/-! ## The seven transfers -/

/-- Every peer is within reach of the ring's interconnect. -/
theorem routes_fwd (j : Fin 7) (c : Dev nD) : τ.routes (c : Thread nD τ) (Dev.tc (fwd j c) : Thread nD τ) = true := by
  revert j c; decide

/-- The `j`-th transfer: the device lends share `sh j` of its own row, held at the final contents, writes that row
    of the table of the peer `j + 1` places ahead, which it owns, and pays the peer's `j`-th receive cell; its own
    `j`-th send cell is credited. What lands is the peer's final row: `hland`. -/
theorem wp_send_j (m : (ℓ : Loc nD τ sig) → Buf (Elt F) ℓ) (K : Dev nD × Fin 15 → ℕ) (c n : Dev nD) (j : Fin 7) (hn : n = fwd j c)
    {hsc : (rowM c : Memref sig (Dev.tc n : Thread nD τ).2.kind .vmem S1x1024 .f32).view.ref.isScScratch = false}
    {hsrc : (rowM c : Memref sig (c : Thread nD τ).2.kind .vmem S1x1024 .f32).view.WordExact}
    {hdst : (rowM c : Memref sig (Dev.tc n : Thread nD τ).2.kind .vmem S1x1024 .f32).view.WordExact}
    {hsem : (DmaTarget.remote (Dev.tc n : Thread nD τ) (rowM c) (.dma (sndS j)) hsc).Typed .vmem (.dma (rcvS j))}
    (fn : Buf (Elt F) ((rowM c).view.loc ((fwd j c : Dev nD) : Thread nD τ)))
    (hland : rowPts fullShare (fwd j c) c ((rowM c).view.write (Elt F) fn ((rowM c).view.read (Elt F) (tabV m c)) Finset.univ)
      ⊢ rowPts fullShare (fwd j c) c (tabV m (fwd j c)))
    (O : CellTallies nD τ sig Unit) (hO : Orcv c j.val = O + rcvT c j) (W : Waits sig Unit)
    {α : Type} {k : PUnit → Prog (TpuEff nD τ sig (Elt F) Λ₀ .tc) α} {Q : α → sProp 𝕄} :
    iprop(records m K ∗ rowPts (sh j) c c (tabV m c) ∗ rowPts fullShare (fwd j c) c fn ∗ owes (c : Thread nD τ) (Orcv c j.val) W
          ∗ dutyTok ER (sndCell c j) 0 (0 : Fin 7) ∗ dutyTok ER (rcvCell (fwd j c) j) 0 (0 : Fin 7))
      ⊢ iprop(((cred (tallyAt (sndCell c j) () N) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc n : Thread nD τ) (rowM c) (.dma (sndS j)) hsc) (.dma (rcvS j)) hsrc hdst hsem) k) Q) := by
  subst hn
  unfold rowPts at hland ⊢
  iintro ⟨#Hrec, Hs, Hd, HO, Ht1, Ht2⟩ Hk
  iapply (Rounds.wp_send_pointsTo 𝒱₀ ER (sched m) (c : Thread nD τ) none (c' := (Dev.tc (fwd j c) : Thread nD τ))
      (src := rowM c) (dst := rowM c) (q := sh j) (fs := tabV m c) (fd := fn)
      (r₁ := 0) (r₂ := 0) (d₁ := (0 : Fin 7)) (d₂ := (0 : Fin 7)) (κ₁ := K (c, sIx j)) (κ₂ := K (fwd j c, rIx j))
      (by rw [duties_snd]; exact Finset.mem_singleton_self _) (by rw [duties_rcv]; exact Finset.mem_singleton_self _)
      () () N rfl (amount_snd m c j 0) (amount_rcv m (fwd j c) j 0) O hO
      (by rw [payload_snd]; unfold sndPay rowPts; exact BI.Entails.refl _)
      (by rw [payload_rcv]; unfold rcvPay rowPts; rw [bwd_fwd]; exact hland)
      (routes_fwd j c)) $$ [Hs Hd HO Ht1 Ht2]
  · isplitr; · iapply (Entails.of_eq (congrArg (fun g => (cellInv ER (sched m) (K (c, sIx j)) g : sProp 𝕄)) (kcell_snd c j))); iapply (inv_at m K (c, sIx j)); iexact Hrec
    isplitr; · iapply (Entails.of_eq (congrArg (fun g => (cellInv ER (sched m) (K (fwd j c, rIx j)) g : sProp 𝕄)) (kcell_rcv (fwd j c) j))); iapply (inv_at m K (fwd j c, rIx j)); iexact Hrec
    isplitl [Hs]; · iexact Hs
    isplitl [Hd]; · iexact Hd
    isplitl [HO]; · iexact HO
    isplitl [Ht1]; · iexact Ht1
    isplitr; · iapply (Entails.of_eq (congrArg (fun g => (reached ER g 0 : sProp 𝕄)) (kcell_snd c j))); iapply (reached_at m K (c, sIx j)); iexact Hrec
    isplitl [Ht2]; · iexact Ht2
    iapply (Entails.of_eq (congrArg (fun g => (reached ER g 0 : sProp 𝕄)) (kcell_rcv (fwd j c) j))); iapply (reached_at m K (fwd j c, rIx j)); iexact Hrec
  iexact Hk

/-! ## The waits on the transfer semaphores -/

/-- The wait on the `j`-th receive semaphore, the device owing nothing any more: the row the peer `j + 1` places
    behind has written is handed over at its final contents, and the cell, its one round done, is closed with its
    counter back at zero. -/
theorem wp_wait_rcv_of (m : (ℓ : Loc nD τ sig) → Buf (Elt F) ℓ) (K : Dev nD × Fin 15 → ℕ) (c : Dev nD) (j : Fin 7) (W : Waits sig Unit)
    {sp' : Space} {s' : Shape} {e' : EltTy} {src : Memref sig (c : Thread nD τ).2.kind sp' s' e'} {dst : Memref sig .tc .vmem S1x1024 .f32}
    {hsrc : src.view.WordExact} {hdst : dst.view.WordExact} (hcr : dst.view.dmaCredit = N)
    {α : Type} {k : PUnit → Prog (TpuEff nD τ sig (Elt F) Λ₀ .tc) α} {Q : α → sProp 𝕄} :
    iprop(records m K ∗ cred (tallyAt (rcvCell c j) () N) ∗ owes (c : Thread nD τ) 0 W ∗ atPos ER (rcvCell c j) 0 ∅ 0)
      ⊢ iprop(((rcvPay m c j ∗ semVal (rcvCell c j) 0 ∗ owes (c : Thread nD τ) 0 (insert (SemLoc.dma (rcvS j), ()) W))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcvS j) src dst hsrc hdst) k) Q) := by
  iintro ⟨#Hrec, Hc, HO, Hat⟩ Hk
  ihave Hinv := (inv_at m K (c, rIx j)) $$ Hrec
  ihave Hinv := (Entails.of_eq (congrArg (fun g => (cellInv ER (sched m) (K (c, rIx j)) g : sProp 𝕄)) (kcell_rcv c j))) $$ Hinv
  iapply (Rounds.wp_wait_rest_token 𝒱₀ ER (sched m) (c : Thread nD τ) none (κ := K (c, rIx j))
      (wpE_waitDma2_eq 𝒱₀ (c : Thread nD τ) none Set.univ) (Set.mem_univ _) () (O := 0) (W := W) (R := 0) (m := 0) (T := ∅)
      (by rw [expect_rcv, hcr, Nat.zero_add])) $$ [Hc HO Hat]
  · isplitr; · iexact Hinv
    isplitl [Hc]; · iapply (Entails.of_eq (congrArg (fun n => (cred (tallyAt (rcvCell c j) () n) : sProp 𝕄)) hcr.symm)); iexact Hc
    isplitl [HO]; · iexact HO
    isplitr; · rw [MayWait_zero]; iempintro
    iexact Hat
  iintro ⟨HO, Hat, Hr, Hpay⟩
  imod (Rounds.cell_close ER (sched m) (Set.mem_univ (K (c, rIx j))) (fun h => h) (R := 0 + 1) (duties_later m (rcvCell c j))) $$ [Hat] with Hz
  · isplitr; · iexact Hinv
    iexact Hat
  iapply Hk
  isplitl [Hpay]; · iapply (Entails.of_eq (rest_rcv m c j)); iexact Hpay
  isplitl [Hz]; · iexact Hz
  iexact HO

/-- The wait on the `j`-th send semaphore: the lent share of the own row comes back, and the cell is closed with its
    counter back at zero. -/
theorem wp_wait_snd_of (m : (ℓ : Loc nD τ sig) → Buf (Elt F) ℓ) (K : Dev nD × Fin 15 → ℕ) (c : Dev nD) (j : Fin 7) (W : Waits sig Unit)
    {sp' : Space} {s' : Shape} {e' : EltTy} {src : Memref sig (c : Thread nD τ).2.kind sp' s' e'} {dst : Memref sig .tc .vmem S1x1024 .f32}
    {hsrc : src.view.WordExact} {hdst : dst.view.WordExact} (hcr : dst.view.dmaCredit = N)
    {α : Type} {k : PUnit → Prog (TpuEff nD τ sig (Elt F) Λ₀ .tc) α} {Q : α → sProp 𝕄} :
    iprop(records m K ∗ cred (tallyAt (sndCell c j) () N) ∗ owes (c : Thread nD τ) 0 W ∗ atPos ER (sndCell c j) 0 ∅ 0)
      ⊢ iprop(((sndPay m c j ∗ semVal (sndCell c j) 0 ∗ owes (c : Thread nD τ) 0 (insert (SemLoc.dma (sndS j), ()) W))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sndS j) src dst hsrc hdst) k) Q) := by
  iintro ⟨#Hrec, Hc, HO, Hat⟩ Hk
  ihave Hinv := (inv_at m K (c, sIx j)) $$ Hrec
  ihave Hinv := (Entails.of_eq (congrArg (fun g => (cellInv ER (sched m) (K (c, sIx j)) g : sProp 𝕄)) (kcell_snd c j))) $$ Hinv
  iapply (Rounds.wp_wait_rest_token 𝒱₀ ER (sched m) (c : Thread nD τ) none (κ := K (c, sIx j))
      (wpE_waitDma2_eq 𝒱₀ (c : Thread nD τ) none Set.univ) (Set.mem_univ _) () (O := 0) (W := W) (R := 0) (m := 0) (T := ∅)
      (by rw [expect_snd, hcr, Nat.zero_add])) $$ [Hc HO Hat]
  · isplitr; · iexact Hinv
    isplitl [Hc]; · iapply (Entails.of_eq (congrArg (fun n => (cred (tallyAt (sndCell c j) () n) : sProp 𝕄)) hcr.symm)); iexact Hc
    isplitl [HO]; · iexact HO
    isplitr; · rw [MayWait_zero]; iempintro
    iexact Hat
  iintro ⟨HO, Hat, Hr, Hpay⟩
  imod (Rounds.cell_close ER (sched m) (Set.mem_univ (K (c, sIx j))) (fun h => h) (R := 0 + 1) (duties_later m (sndCell c j))) $$ [Hat] with Hz
  · isplitr; · iexact Hinv
    iexact Hat
  iapply Hk
  isplitl [Hpay]; · iapply (Entails.of_eq (rest_snd m c j)); iexact Hpay
  isplitl [Hz]; · iexact Hz
  iexact HO

/-- A transfer into any row of the table credits what one row's transfer credits. -/
theorem row_credit (r : Dev nD) : (rowM r).view.dmaCredit = N := rfl

/-- `wp_wait_rcv_of` where the wait names a row of the table, as the kernel's waits do. -/
theorem wp_wait_rcv_j (m : (ℓ : Loc nD τ sig) → Buf (Elt F) ℓ) (K : Dev nD × Fin 15 → ℕ) (c : Dev nD) (j : Fin 7) (W : Waits sig Unit)
    {r : Dev nD} {sp' : Space} {s' : Shape} {e' : EltTy} {src : Memref sig (c : Thread nD τ).2.kind sp' s' e'}
    {hsrc : src.view.WordExact} {hdst : (rowM r).view.WordExact}
    {α : Type} {k : PUnit → Prog (TpuEff nD τ sig (Elt F) Λ₀ .tc) α} {Q : α → sProp 𝕄} :
    iprop(records m K ∗ cred (tallyAt (rcvCell c j) () N) ∗ owes (c : Thread nD τ) 0 W ∗ atPos ER (rcvCell c j) 0 ∅ 0)
      ⊢ iprop(((rcvPay m c j ∗ semVal (rcvCell c j) 0 ∗ owes (c : Thread nD τ) 0 (insert (SemLoc.dma (rcvS j), ()) W))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcvS j) src (rowM r) hsrc hdst) k) Q) :=
  wp_wait_rcv_of m K c j W (row_credit r)

/-- `wp_wait_snd_of` where the wait names a row of the table. -/
theorem wp_wait_snd_j (m : (ℓ : Loc nD τ sig) → Buf (Elt F) ℓ) (K : Dev nD × Fin 15 → ℕ) (c : Dev nD) (j : Fin 7) (W : Waits sig Unit)
    {r : Dev nD} {sp' : Space} {s' : Shape} {e' : EltTy} {src : Memref sig (c : Thread nD τ).2.kind sp' s' e'}
    {hsrc : src.view.WordExact} {hdst : (rowM r).view.WordExact}
    {α : Type} {k : PUnit → Prog (TpuEff nD τ sig (Elt F) Λ₀ .tc) α} {Q : α → sProp 𝕄} :
    iprop(records m K ∗ cred (tallyAt (sndCell c j) () N) ∗ owes (c : Thread nD τ) 0 W ∗ atPos ER (sndCell c j) 0 ∅ 0)
      ⊢ iprop(((sndPay m c j ∗ semVal (sndCell c j) 0 ∗ owes (c : Thread nD τ) 0 (insert (SemLoc.dma (sndS j), ()) W))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sndS j) src (rowM r) hsrc hdst) k) Q) :=
  wp_wait_snd_of m K c j W (row_credit r)

/-- info: 'Cert.KernelIdeal.Coll.wp_wait_bar' depends on axioms: [propext, Classical.choice, Quot.sound] -/
#guard_msgs in #print axioms wp_wait_bar
/-- info: 'Cert.KernelIdeal.Coll.wp_send_j' depends on axioms: [propext, Classical.choice, Quot.sound] -/
#guard_msgs in #print axioms wp_send_j
/-- info: 'Cert.KernelIdeal.Coll.wp_wait_rcv_j' depends on axioms: [propext, Classical.choice, Quot.sound] -/
#guard_msgs in #print axioms wp_wait_rcv_j
/-- info: 'Cert.KernelIdeal.Coll.wp_wait_snd_j' depends on axioms: [propext, Classical.choice, Quot.sound] -/
#guard_msgs in #print axioms wp_wait_snd_j

end Cert.KernelIdeal.Coll

end
-- ==== Proof.Gather.lean ====
/- The table's rows, cut by share and put back: what the second point holds around its load of the whole table.

   A row held at a share is its two halves; the right half of the whole is the seven shares a device lends to its seven
   transfers. Each received row gives its left half to the table read as a whole at the left half share, and everything
   comes back to the table held whole. -/
import proofs.«900919_g7700000000000920_dist_max_ax0_shard0_i_m2048_n1024_v7x_i8_f32_1_alg».proof.Proof.Proto
import proofs.«900919_g7700000000000920_dist_max_ax0_shard0_i_m2048_n1024_v7x_i8_f32_1_alg».proof.Proof.Rows
import Idealize.ShloMosaic.Rules.PointsTo

set_option maxRecDepth 16384

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The separating conjunction associates, as an equation. -/
theorem sep_assoc_rows {M : Type} [URA M] (P Q R : sProp M) : iprop((P ∗ Q) ∗ R) = iprop(P ∗ Q ∗ R) := by
  refine BI.Entails.antisymm (show _ ⊢ (_ : sProp M) from ?_) (show _ ⊢ (_ : sProp M) from ?_)
  · iintro ⟨⟨H1, H2⟩, H3⟩
    isplitl [H1]; · iexact H1
    isplitl [H2] <;> iassumption
  · iintro ⟨H1, H2, H3⟩
    isplitr [H3]
    · isplitl [H1] <;> iassumption
    iexact H3

/-- A row held at a share is the row held at the share's two halves. -/
theorem row_split (q : PosShare TreeShare) (c r : Dev nD) (f : Buf (Elt F) ((rowM r).view.loc (c : Thread nD τ))) :
    (rowPts q c r f : sProp 𝕄) = iprop(rowPts q.left c r f ∗ rowPts q.right c r f) := by
  unfold rowPts
  have hu : ((rowM r).view.loc (c : Thread nD τ) ↦[(rowM r).view.set]{q} f : sProp 𝕄)
      ⊣⊢ iprop(((rowM r).view.loc (c : Thread nD τ) ↦[(rowM r).view.set]{q.left} f)
        ∗ (rowM r).view.loc (c : Thread nD τ) ↦[(rowM r).view.set]{q.right} f) :=
    pointsTo_share (PosShare.mem_left_op_right q)
  exact BI.equiv_iff.mp ⟨hu.1, hu.2⟩

/-- The right half of a row is the seven lent shares of it. -/
theorem row_sevenths (c r : Dev nD) (f : Buf (Elt F) ((rowM r).view.loc (c : Thread nD τ))) :
    (rowPts fullShare.right c r f : sProp 𝕄) = bigSep Finset.univ fun j : Fin 7 => rowPts (sh j) c r f := by
  rw [bigSep_fin7, row_split fullShare.right, row_split fullShare.right.left, row_split fullShare.right.right,
    row_split fullShare.right.left.left, row_split fullShare.right.left.right, row_split fullShare.right.right.left]
  simp only [sep_assoc_rows]
  rfl

/-- The own row: its left half kept, its right half cut into the seven shares lent to the seven transfers. -/
theorem lend_own (c : Dev nD) (f : Buf (Elt F) ((c : Thread nD τ).loc cc0_scratch1)) :
    (rowPts fullShare c c f : sProp 𝕄) ⊢ iprop(rowPts fullShare.left c c f ∗ bigSep Finset.univ fun j : Fin 7 => rowPts (sh j) c c f) := by
  rw [row_split fullShare c c f, row_sevenths c c f]

/-- Each received row cut in its two halves: the eight left halves are the whole table at the left half share. -/
theorem gather_left (c : Dev nD) (f : Buf (Elt F) ((c : Thread nD τ).loc cc0_scratch1)) :
    iprop(rowPts fullShare.left c c f ∗ bigSep Finset.univ fun j : Fin 7 => rowPts fullShare c (bwd j c) f)
      ⊢ (iprop(tabPts fullShare.left c f ∗ bigSep Finset.univ fun j : Fin 7 => rowPts fullShare.right c (bwd j c) f) : sProp 𝕄) := by
  rw [tab_rows fullShare.left c f, bigSep_dev_bwd c (fun r : Dev nD => (rowPts fullShare.left c r f : sProp 𝕄)),
    bigSep_congr (s := Finset.univ) (fun (j : Fin 7) _ => row_split fullShare c (bwd j c) f), bigSep_sep']
  iintro ⟨H1, H2, H3⟩
  isplitr [H3]
  · isplitl [H1] <;> iassumption
  iexact H3

/-- Everything back: the seven shares make the own row's right half, the halves make every row whole, the rows make the
    table. -/
theorem regather (c : Dev nD) (f : Buf (Elt F) ((c : Thread nD τ).loc cc0_scratch1)) :
    iprop(tabPts fullShare.left c f ∗ (bigSep Finset.univ fun j : Fin 7 => rowPts fullShare.right c (bwd j c) f)
        ∗ bigSep Finset.univ fun j : Fin 7 => rowPts (sh j) c c f)
      ⊢ (tabPts fullShare c f : sProp 𝕄) := by
  rw [tab_rows fullShare.left c f, tab_rows fullShare c f,
    bigSep_dev_bwd c (fun r : Dev nD => (rowPts fullShare.left c r f : sProp 𝕄)),
    bigSep_dev_bwd c (fun r : Dev nD => (rowPts fullShare c r f : sProp 𝕄)),
    bigSep_congr (s := Finset.univ) (fun (j : Fin 7) _ => row_split fullShare c (bwd j c) f), bigSep_sep',
    row_split fullShare c c f, row_sevenths c c f]
  iintro ⟨⟨H1, H2⟩, H3, H4⟩
  isplitl [H1 H4]
  · isplitl [H1] <;> iassumption
  isplitl [H2] <;> iassumption

/-- info: 'Cert.KernelIdeal.Coll.lend_own' depends on axioms: [propext, Classical.choice, Quot.sound] -/
#guard_msgs in #print axioms lend_own

/-- info: 'Cert.KernelIdeal.Coll.gather_left' depends on axioms: [propext, Classical.choice, Quot.sound] -/
#guard_msgs in #print axioms gather_left

/-- info: 'Cert.KernelIdeal.Coll.regather' depends on axioms: [propext, Classical.choice, Quot.sound] -/
#guard_msgs in #print axioms regather

end Cert.KernelIdeal.Coll

end
-- ==== Proof.Body1.lean ====
/- The second grid point on a device: the accumulator is brought to the column maxima of both blocks and written
   into the device's own row of the table; the seven peers are waited for, the row is copied into every peer's
   table, the seven rows that land complete the table, and the result is the table's column maxima. -/
import proofs.«900919_g7700000000000920_dist_max_ax0_shard0_i_m2048_n1024_v7x_i8_f32_1_alg».proof.Proof.Vals
import proofs.«900919_g7700000000000920_dist_max_ax0_shard0_i_m2048_n1024_v7x_i8_f32_1_alg».proof.Proof.Gen.KernelIdeal.Launch
import proofs.«900919_g7700000000000920_dist_max_ax0_shard0_i_m2048_n1024_v7x_i8_f32_1_alg».proof.Proof.Gen.KernelIdeal.Points
import Idealize.ShloMosaic.Lib.Pipeline.Launch
import Idealize.ShloMosaic.Lib.Pipeline.Kit
import Idealize.ShloMosaic.Lib.Tactic
import proofs.«900919_g7700000000000920_dist_max_ax0_shard0_i_m2048_n1024_v7x_i8_f32_1_alg».proof.Proof.Proto
import proofs.«900919_g7700000000000920_dist_max_ax0_shard0_i_m2048_n1024_v7x_i8_f32_1_alg».proof.Proof.Gen.KernelIdeal.Skeleton
import proofs.«900919_g7700000000000920_dist_max_ax0_shard0_i_m2048_n1024_v7x_i8_f32_1_alg».proof.Proof.Rows
import proofs.«900919_g7700000000000920_dist_max_ax0_shard0_i_m2048_n1024_v7x_i8_f32_1_alg».proof.Proof.Rows2
import proofs.«900919_g7700000000000920_dist_max_ax0_shard0_i_m2048_n1024_v7x_i8_f32_1_alg».proof.Proof.Wrap1
import proofs.«900919_g7700000000000920_dist_max_ax0_shard0_i_m2048_n1024_v7x_i8_f32_1_alg».proof.Proof.Gather
set_option maxRecDepth 16384

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The conditions at the second point -/

theorem cond1_t1 : k0_cond1 (grid0.coords t0_1) = 0#1 := by decide
theorem cond4_t1 : k0_cond4 (grid0.coords t0_1) = 1#1 := by decide
theorem arg0_t1 : (BitVec.ofNat 32 ((grid0.coords t0_1) 0).val) = 1#32 := by decide

/-! ## Whole-buffer reads and writes at offset zero -/

omit [FloatOps F] in
theorem hz2 : (![0, 0] : Fin 2 → Nat) = fun _ => 0 := funext fun a => by fin_cases a <;> rfl
omit [FloatOps F] in
theorem read_x1 (f : (cc0_stg0_1 : Ref sig .tc).ty.Contents (Elt F)) :
    (Memref.whole cc0_stg0_1 : Memref sig .tc .vmem S1024x1024 .f32).view.readAt (Elt F)
      (Rect.unit (s := S1024x1024) ![0, 0] S1024x1024.size inb_S1024x1024_S1024x1024_0_0).toLoadRect f = f :=
  Memref.readAt_unit_zero (Elt F) cc0_stg0_1 hz2 _ f
omit [FloatOps F] in
theorem read_acc (f : (cc0_scratch0 : Ref sig .tc).ty.Contents (Elt F)) :
    (accM : Memref sig .tc .vmem S1x1024 .f32).view.readAt (Elt F)
      (Rect.unit (s := S1x1024) ![0, 0] S1x1024.size inb_S1x1024_S1x1024_0_0).toLoadRect f = f :=
  Memref.readAt_unit_zero (Elt F) cc0_scratch0 hz2 _ f
omit [FloatOps F] in
theorem write_acc (f w : (cc0_scratch0 : Ref sig .tc).ty.Contents (Elt F)) :
    ((accM : Memref sig .tc .vmem S1x1024 .f32).access (Rect.unit (s := S1x1024) ![0, 0] S1x1024.size inb_S1x1024_S1x1024_0_0) : View sig .tc _ _ _).write (Elt F) f w Finset.univ = w :=
  Memref.write_access_unit_zero_univ (Elt F) cc0_scratch0 hz2 _ f w
omit [FloatOps F] in
theorem read_tab (f : (cc0_scratch1 : Ref sig .tc).ty.Contents (Elt F)) :
    (tabM : Memref sig .tc .vmem S8x1024 .f32).view.readAt (Elt F)
      (Rect.unit (s := S8x1024) ![0, 0] S8x1024.size inb_S8x1024_S8x1024_0_0).toLoadRect f = f :=
  Memref.readAt_unit_zero (Elt F) cc0_scratch1 hz2 _ f
omit [FloatOps F] in
theorem write_out (f w : (cc0_stg1_0 : Ref sig .tc).ty.Contents (Elt F)) :
    ((Memref.whole cc0_stg1_0 : Memref sig .tc .vmem S1x1024 .f32).access (Rect.unit (s := S1x1024) ![0, 0] S1x1024.size inb_S1x1024_S1x1024_0_0) : View sig .tc _ _ _).write (Elt F) f w Finset.univ = w :=
  Memref.write_access_unit_zero_univ (Elt F) cc0_stg1_0 hz2 _ f w

set_option maxHeartbeats 4000000 in
/-- The body at the second point, one rule per effect in program order. -/
theorem sound_body1 (m : (ℓ : Loc nD τ sig) → Buf (Elt F) ℓ) (K : Dev nD × Fin 15 → ℕ) (c : Dev nD) (W : Waits sig Unit)
    (g1 : Buf (Elt F) ((c : Thread nD τ).loc cc0_stg1_0)) (Kt : PUnit → sProp 𝕄) :
    iprop(pre1 m K c W g1 ∗ (post1 m c -∗ Kt ⟨⟩)) ⊢ wp frame (wpE (defs₀ (F := F)) 𝒱₀ c none) Set.univ (prog1 (F := F)) Kt := by
  unfold prog1
  simp only [cc0_body_eq_skeleton]; unfold cc0_body_skel
  have h10 : Scalar.cmpi .ne (Scalar.extui (Scalar.cmpi .eq (1#32 : BitVec 32) 0#32)) (0#32 : BitVec 32) = 0#1 := by decide
  have h13 : Scalar.cmpi .ne (Scalar.extui (Scalar.cmpi .sgt (1#32 : BitVec 32) 0#32)) (0#32 : BitVec 32) = 1#1 := by decide
  simp only [cond1_t1, cond4_t1, arg0_t1, h10, h13, show (0#1 : BitVec 1) ≠ 1#1 from by decide, ↓reduceDIte]
  simp only [k0_part2_eq_skeleton, k0_part3_eq_skeleton, k0_part4_eq_skeleton, k0_part5_eq_skeleton, k0_part6_eq_skeleton]
  unfold k0_part2_skel k0_part3_skel k0_part4_skel k0_part5_skel k0_part6_skel
  simp only [semSignalWord, semWaitWord, Prog.lift, Prog.bind_op, Prog.bind_ret, Prog.pure_eq_ret]
  unfold pre1 linear1 positions xferToks creds
  simp only [bigSep_fin7]
  iintro ⟨⟨#Hrec, ⟨⟨HatB, ⟨HaS0, HaS1, HaS2, HaS3, HaS4, HaS5, HaS6⟩, ⟨HaR0, HaR1, HaR2, HaR3, HaR4, HaR5, HaR6⟩⟩, ⟨HtR0, HtR1, HtR2, HtR3, HtR4, HtR5, HtR6⟩, ⟨HtS0, HtS1, HtS2, HtS3, HtS4, HtS5, HtS6⟩⟩,
    ⟨HcB, ⟨HcR0, HcR1, HcR2, HcR3, HcR4, HcR5, HcR6⟩⟩, #Hlev, Hacc, ⟨%f0, Hrow⟩, HO, Hx, Hout⟩, Hk⟩
  -- the second block; the accumulator brought to the column maxima of both blocks
  iapply (wp_load 𝒱₀ (c : Thread nD τ) none Set.univ (m := (Memref.whole cc0_stg0_1 : Memref sig .tc .vmem S1024x1024 .f32)) (Finset.subset_univ _)) $$ Hx; iintro Hx
  rw [read_x1]
  unfold accPts
  iapply (wp_load 𝒱₀ (c : Thread nD τ) none Set.univ (m := (accM : Memref sig .tc .vmem S1x1024 .f32)) (Finset.subset_univ _)) $$ Hacc; iintro Hacc
  rw [read_acc]
  iapply (wp_load 𝒱₀ (c : Thread nD τ) none Set.univ (m := (accM : Memref sig .tc .vmem S1x1024 .f32)) (Finset.subset_univ _)) $$ Hacc; iintro Hacc
  iapply (wp_store 𝒱₀ (c : Thread nD τ) none Set.univ (m := (accM : Memref sig .tc .vmem S1x1024 .f32)) (r := Rect.unit (s := S1x1024) ![0, 0] S1x1024.size inb_S1x1024_S1x1024_0_0) (Mk := Finset.univ) (Finset.subset_univ _)) $$ Hacc; iintro Hacc
  rw [write_acc]
  simp only [wp_deviceId]
  iapply (wp_load 𝒱₀ (c : Thread nD τ) none Set.univ (m := (accM : Memref sig .tc .vmem S1x1024 .f32)) (Finset.subset_univ _)) $$ Hacc; iintro Hacc
  rw [read_acc]
  -- the own row of the table: read, then overwritten with the accumulator
  ihave Hrow := (Entails.of_eq (show rowPts fullShare c c f0
      = ((tabM : Memref sig .tc .vmem S8x1024 .f32).view.loc (c : Thread nD τ) ↦[(rowM c).view.set]{fullShare} f0) from rfl)) $$ Hrow
  iapply (wp_load 𝒱₀ (c : Thread nD τ) none Set.univ (m := (tabM : Memref sig .tc .vmem S8x1024 .f32)) (load_row_sub c)) $$ Hrow; iintro Hrow
  iapply (wp_store 𝒱₀ (c : Thread nD τ) none Set.univ (m := (tabM : Memref sig .tc .vmem S8x1024 .f32)) (r := rS c) (Mk := Finset.univ) (store_row_sub c)) $$ Hrow; iintro Hrow
  ihave Hrow := (Entails.of_eq (show ((((tabM : Memref sig .tc .vmem S8x1024 .f32).access (rS c)).loc (c : Thread nD τ) ↦[(rowM c).view.set]{fullShare}
        ((tabM : Memref sig .tc .vmem S8x1024 .f32).access (rS c)).write (Elt F) f0 (k0_pay4 (k0_pay3 (xblk m c t0_1) (acc0 m c))) Finset.univ : sProp 𝕄))
      = rowPts fullShare c c (tabV m c) from stored_row_eq m c f0)) $$ Hrow
  -- the wait for the seven peers: each hands over the row of its table this device will write
  iapply (wp_wait_bar m K c W (n := (7#32 : BitVec 32).toNat) (by decide)) $$ [HcB HO HatB]
  · isplitr; · iexact Hrec
    isplitl [HcB]; · iexact HcB
    isplitl [HO]; · iexact HO
    isplitl [HatB]; · iexact HatB
    iexact Hlev
  iintro ⟨HO, HatB, -, Hpay⟩
  ihave Hpay := (Entails.of_eq (bigSep_fin7 _)) $$ Hpay
  unfold barPay
  icases Hpay with ⟨⟨⟨%fn0, Hp0⟩, -⟩, ⟨⟨%fn1, Hp1⟩, -⟩, ⟨⟨%fn2, Hp2⟩, -⟩, ⟨⟨%fn3, Hp3⟩, -⟩, ⟨⟨%fn4, Hp4⟩, -⟩, ⟨⟨%fn5, Hp5⟩, -⟩, ⟨⟨%fn6, Hp6⟩, -⟩⟩
  -- the own row: its left half kept for the load of the table, its right half lent to the seven transfers
  ihave Hl := (lend_own c (tabV m c)) $$ Hrow
  icases Hl with ⟨HrowL, Hsh⟩
  ihave Hsh := (Entails.of_eq (bigSep_fin7 _)) $$ Hsh
  icases Hsh with ⟨Hs0, Hs1, Hs2, Hs3, Hs4, Hs5, Hs6⟩
  -- transfer 0: the own row into the table of the device 1 ahead
  iapply (wp_send_j m K c _ 0 (dev8_eq (grid0.coords t0_1) c cond4_t1) fn0 (Entails.of_eq (landed_tab m c (fwd 0 c) c fn0)) (Orcv c 1) rfl _) $$ [Hs0 Hp0 HO HtS0 HtR0]
  · isplitr; · iexact Hrec
    isplitl [Hs0]; · iexact Hs0
    isplitl [Hp0]; · iexact Hp0
    isplitl [HO]; · iexact HO
    isplitl [HtS0]; · iexact HtS0
    iexact HtR0
  iintro ⟨HcS0, HO⟩
  -- transfer 1: the own row into the table of the device 2 ahead
  iapply (wp_send_j m K c _ 1 (dev9_eq (grid0.coords t0_1) c cond4_t1) fn1 (Entails.of_eq (landed_tab m c (fwd 1 c) c fn1)) (Orcv c 2) rfl _) $$ [Hs1 Hp1 HO HtS1 HtR1]
  · isplitr; · iexact Hrec
    isplitl [Hs1]; · iexact Hs1
    isplitl [Hp1]; · iexact Hp1
    isplitl [HO]; · iexact HO
    isplitl [HtS1]; · iexact HtS1
    iexact HtR1
  iintro ⟨HcS1, HO⟩
  -- transfer 2: the own row into the table of the device 3 ahead
  iapply (wp_send_j m K c _ 2 (dev10_eq (grid0.coords t0_1) c cond4_t1) fn2 (Entails.of_eq (landed_tab m c (fwd 2 c) c fn2)) (Orcv c 3) rfl _) $$ [Hs2 Hp2 HO HtS2 HtR2]
  · isplitr; · iexact Hrec
    isplitl [Hs2]; · iexact Hs2
    isplitl [Hp2]; · iexact Hp2
    isplitl [HO]; · iexact HO
    isplitl [HtS2]; · iexact HtS2
    iexact HtR2
  iintro ⟨HcS2, HO⟩
  -- transfer 3: the own row into the table of the device 4 ahead
  iapply (wp_send_j m K c _ 3 (dev11_eq (grid0.coords t0_1) c cond4_t1) fn3 (Entails.of_eq (landed_tab m c (fwd 3 c) c fn3)) (Orcv c 4) rfl _) $$ [Hs3 Hp3 HO HtS3 HtR3]
  · isplitr; · iexact Hrec
    isplitl [Hs3]; · iexact Hs3
    isplitl [Hp3]; · iexact Hp3
    isplitl [HO]; · iexact HO
    isplitl [HtS3]; · iexact HtS3
    iexact HtR3
  iintro ⟨HcS3, HO⟩
  -- transfer 4: the own row into the table of the device 5 ahead
  iapply (wp_send_j m K c _ 4 (dev12_eq (grid0.coords t0_1) c cond4_t1) fn4 (Entails.of_eq (landed_tab m c (fwd 4 c) c fn4)) (Orcv c 5) rfl _) $$ [Hs4 Hp4 HO HtS4 HtR4]
  · isplitr; · iexact Hrec
    isplitl [Hs4]; · iexact Hs4
    isplitl [Hp4]; · iexact Hp4
    isplitl [HO]; · iexact HO
    isplitl [HtS4]; · iexact HtS4
    iexact HtR4
  iintro ⟨HcS4, HO⟩
  -- transfer 5: the own row into the table of the device 6 ahead
  iapply (wp_send_j m K c _ 5 (dev13_eq (grid0.coords t0_1) c cond4_t1) fn5 (Entails.of_eq (landed_tab m c (fwd 5 c) c fn5)) (Orcv c 6) rfl _) $$ [Hs5 Hp5 HO HtS5 HtR5]
  · isplitr; · iexact Hrec
    isplitl [Hs5]; · iexact Hs5
    isplitl [Hp5]; · iexact Hp5
    isplitl [HO]; · iexact HO
    isplitl [HtS5]; · iexact HtS5
    iexact HtR5
  iintro ⟨HcS5, HO⟩
  -- transfer 6: the own row into the table of the device 7 ahead
  iapply (wp_send_j m K c _ 6 (dev14_eq (grid0.coords t0_1) c cond4_t1) fn6 (Entails.of_eq (landed_tab m c (fwd 6 c) c fn6)) (Orcv c 7) rfl _) $$ [Hs6 Hp6 HO HtS6 HtR6]
  · isplitr; · iexact Hrec
    isplitl [Hs6]; · iexact Hs6
    isplitl [Hp6]; · iexact Hp6
    isplitl [HO]; · iexact HO
    isplitl [HtS6]; · iexact HtS6
    iexact HtR6
  iintro ⟨HcS6, HO⟩
  -- the row of the device 1 behind has landed
  iapply (wp_wait_rcv_j m K c 0 _) $$ [HcR0 HO HaR0]
  · isplitr; · iexact Hrec
    isplitl [HcR0]; · iexact HcR0
    isplitl [HO]; · iexact HO
    iexact HaR0
  iintro ⟨Hr0, HzR0, HO⟩
  -- the row of the device 2 behind has landed
  iapply (wp_wait_rcv_j m K c 1 _) $$ [HcR1 HO HaR1]
  · isplitr; · iexact Hrec
    isplitl [HcR1]; · iexact HcR1
    isplitl [HO]; · iexact HO
    iexact HaR1
  iintro ⟨Hr1, HzR1, HO⟩
  -- the row of the device 3 behind has landed
  iapply (wp_wait_rcv_j m K c 2 _) $$ [HcR2 HO HaR2]
  · isplitr; · iexact Hrec
    isplitl [HcR2]; · iexact HcR2
    isplitl [HO]; · iexact HO
    iexact HaR2
  iintro ⟨Hr2, HzR2, HO⟩
  -- the row of the device 4 behind has landed
  iapply (wp_wait_rcv_j m K c 3 _) $$ [HcR3 HO HaR3]
  · isplitr; · iexact Hrec
    isplitl [HcR3]; · iexact HcR3
    isplitl [HO]; · iexact HO
    iexact HaR3
  iintro ⟨Hr3, HzR3, HO⟩
  -- the row of the device 5 behind has landed
  iapply (wp_wait_rcv_j m K c 4 _) $$ [HcR4 HO HaR4]
  · isplitr; · iexact Hrec
    isplitl [HcR4]; · iexact HcR4
    isplitl [HO]; · iexact HO
    iexact HaR4
  iintro ⟨Hr4, HzR4, HO⟩
  -- the row of the device 6 behind has landed
  iapply (wp_wait_rcv_j m K c 5 _) $$ [HcR5 HO HaR5]
  · isplitr; · iexact Hrec
    isplitl [HcR5]; · iexact HcR5
    isplitl [HO]; · iexact HO
    iexact HaR5
  iintro ⟨Hr5, HzR5, HO⟩
  -- the row of the device 7 behind has landed
  iapply (wp_wait_rcv_j m K c 6 _) $$ [HcR6 HO HaR6]
  · isplitr; · iexact Hrec
    isplitl [HcR6]; · iexact HcR6
    isplitl [HO]; · iexact HO
    iexact HaR6
  iintro ⟨Hr6, HzR6, HO⟩
  -- the table is complete: its eight rows' left halves are the whole table at the left half share
  unfold rcvPay
  ihave Hg := (gather_left c (tabV m c)) $$ [HrowL Hr0 Hr1 Hr2 Hr3 Hr4 Hr5 Hr6]
  · isplitl [HrowL]; · iexact HrowL
    iapply (Entails.of_eq (bigSep_fin7 (fun j : Fin 7 => rowPts (F := F) fullShare c (bwd j c) (tabV m c))).symm)
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  icases Hg with ⟨Htab, Hrights⟩
  unfold tabPts
  iapply (wp_load 𝒱₀ (c : Thread nD τ) none Set.univ (m := (tabM : Memref sig .tc .vmem S8x1024 .f32)) (Finset.subset_univ _)) $$ Htab; iintro Htab
  rw [read_tab]
  iapply (wp_load 𝒱₀ (c : Thread nD τ) none Set.univ (m := (Memref.whole cc0_stg1_0 : Memref sig .tc .vmem S1x1024 .f32)) (Finset.subset_univ _)) $$ Hout; iintro Hout
  iapply (wp_store 𝒱₀ (c : Thread nD τ) none Set.univ (m := (Memref.whole cc0_stg1_0 : Memref sig .tc .vmem S1x1024 .f32)) (r := Rect.unit (s := S1x1024) ![0, 0] S1x1024.size inb_S1x1024_S1x1024_0_0) (Mk := Finset.univ) (Finset.subset_univ _)) $$ Hout; iintro Hout
  rw [write_out]
  -- transfer 0 has read its source: the lent share comes back
  iapply (wp_wait_snd_j m K c 0 _) $$ [HcS0 HO HaS0]
  · isplitr; · iexact Hrec
    isplitl [HcS0]; · iexact HcS0
    isplitl [HO]; · iexact HO
    iexact HaS0
  iintro ⟨Hq0, HzS0, HO⟩
  -- transfer 1 has read its source: the lent share comes back
  iapply (wp_wait_snd_j m K c 1 _) $$ [HcS1 HO HaS1]
  · isplitr; · iexact Hrec
    isplitl [HcS1]; · iexact HcS1
    isplitl [HO]; · iexact HO
    iexact HaS1
  iintro ⟨Hq1, HzS1, HO⟩
  -- transfer 2 has read its source: the lent share comes back
  iapply (wp_wait_snd_j m K c 2 _) $$ [HcS2 HO HaS2]
  · isplitr; · iexact Hrec
    isplitl [HcS2]; · iexact HcS2
    isplitl [HO]; · iexact HO
    iexact HaS2
  iintro ⟨Hq2, HzS2, HO⟩
  -- transfer 3 has read its source: the lent share comes back
  iapply (wp_wait_snd_j m K c 3 _) $$ [HcS3 HO HaS3]
  · isplitr; · iexact Hrec
    isplitl [HcS3]; · iexact HcS3
    isplitl [HO]; · iexact HO
    iexact HaS3
  iintro ⟨Hq3, HzS3, HO⟩
  -- transfer 4 has read its source: the lent share comes back
  iapply (wp_wait_snd_j m K c 4 _) $$ [HcS4 HO HaS4]
  · isplitr; · iexact Hrec
    isplitl [HcS4]; · iexact HcS4
    isplitl [HO]; · iexact HO
    iexact HaS4
  iintro ⟨Hq4, HzS4, HO⟩
  -- transfer 5 has read its source: the lent share comes back
  iapply (wp_wait_snd_j m K c 5 _) $$ [HcS5 HO HaS5]
  · isplitr; · iexact Hrec
    isplitl [HcS5]; · iexact HcS5
    isplitl [HO]; · iexact HO
    iexact HaS5
  iintro ⟨Hq5, HzS5, HO⟩
  -- transfer 6 has read its source: the lent share comes back
  iapply (wp_wait_snd_j m K c 6 _) $$ [HcS6 HO HaS6]
  · isplitr; · iexact Hrec
    isplitl [HcS6]; · iexact HcS6
    isplitl [HO]; · iexact HO
    iexact HaS6
  iintro ⟨Hq6, HzS6, HO⟩
  -- every share and every half back: the table whole again
  unfold sndPay
  ihave Hfull := (regather c (tabV m c)) $$ [Htab Hrights Hq0 Hq1 Hq2 Hq3 Hq4 Hq5 Hq6]
  · isplitl [Htab]; · (unfold tabPts; iexact Htab)
    isplitl [Hrights]; · iexact Hrights
    iapply (Entails.of_eq (bigSep_fin7 (fun j : Fin 7 => rowPts (F := F) (sh j) c c (tabV m c))).symm)
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    iexact Hq6
  rw [wp_ret]; imodintro
  iapply Hk
  unfold post1 Φ2
  isplitl [Hacc Hfull HzS0 HzR0 HzS1 HzR1 HzS2 HzR2 HzS3 HzR3 HzS4 HzR4 HzS5 HzR5 HzS6 HzR6]
  · isplitl [Hacc]; · (iexists _; unfold accPts; iexact Hacc)
    isplitl [Hfull]; · (iexists _; iexact Hfull)
    isplitl [HzS0 HzS1 HzS2 HzS3 HzS4 HzS5 HzS6]
    · iapply (Entails.of_eq (bigSep_fin7 (fun j : Fin 7 => (semVal (sndCell c j) 0 : sProp 𝕄))).symm)
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    · iapply (Entails.of_eq (bigSep_fin7 (fun j : Fin 7 => (semVal (rcvCell c j) 0 : sProp 𝕄))).symm)
      isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      iexact HzR6
  isplitl [HO]; · (iexists _; iexact HO)
  isplitl [Hx]; · iexact Hx
  iexact Hout

/-- info: 'Cert.KernelIdeal.Coll.sound_body1' depends on axioms: [propext, Classical.choice, Quot.sound] -/
#guard_msgs in #print axioms sound_body1

end Cert.KernelIdeal.Coll

end
-- ==== Proof.FinalArr.lean ====
/- The arrays when the pipeline is done.

   The argument's array is only ever fetched from, so it ends as it began. The result's array is written back once,
   at the last grid point, through a block that is the whole one-row array; what is written is the result vector,
   so the array ends holding exactly that vector. -/
import proofs.«900919_g7700000000000920_dist_max_ax0_shard0_i_m2048_n1024_v7x_i8_f32_1_alg».proof.Proof.Proto
import Idealize.ShloMosaic.Lib.Pipeline.Cells
import Idealize.ShloMosaic.Lib.Pipeline.Value

set_option maxRecDepth 16384

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- The argument's array is an input of the pipeline: no point writes it back, so after the last point it holds
    what it held at launch. -/
theorem final_arg (c : Dev nD) :
    (dats (F := F) m 0 c).arrAt (0 : Fin 2) cfg0.N = m ((c : Thread nD τ).loc main_arg0) :=
  (dats (F := F) m 0 c).arrAt_in 0 rfl cfg0.N

/-- The only point that writes the result back is the last one, and what it writes is the result vector: the
    result's block is the whole one-row array (block index `(0, 0)`, offsets zero), so the vector read through the
    block is the vector. -/
theorem flushed_out (c : Dev nD) (t : Fin cfg0.N) (hf : (cfg0.win 1).flush t = true) :
    (dats (F := F) m 0 c).flushed 1 t = ((cfg0.win 1).blk t).view.read (Elt F) (outV m) := by
  have h1 : t.val = 1 := by
    have h := (flush0_1 t).mp hf
    have hlt : t.val < 2 := Nat.lt_of_lt_of_eq t.isLt N_0
    omega
  obtain rfl : t = t0_1 := Fin.ext h1
  show (cfg0.win 1).cut (grid0.coords t0_1) (outV m) = _
  have hz : (fun a => win0_1.index t0_1 a * main_v1.ty.shape.size a) = fun _ => 0 :=
    funext fun a => by fin_cases a <;> decide
  exact (Memref.read_access_unit_zero (Elt F) main_v1 hz
    (fun a => by rw [congrFun hz a]; exact Nat.le_of_eq (Nat.zero_add _)) (outV m)).symm

/-- Every index of the result array lies in the block the last point writes back: that block starts at offset zero
    on both axes and has the array's extents. -/
theorem cover_out (c : Dev nD) (i : ((cfg0.win 1).arr.view.loc (c.tc : Thread nD τ)).2.ty.Idx) :
    ∃ t : Fin cfg0.N, (cfg0.win 1).flush t = true ∧ i ∈ ((cfg0.win 1).blk t).view.set := by
  refine ⟨t0_1, (flush0_1 t0_1).mpr rfl, ?_⟩
  show i ∈ ((View.whole main_v1).slice (win0_1.rect t0_1)).set
  rw [View.set_slice_whole, Rect.mem_set_unit]
  intro a
  have hoff : ∀ b : Fin main_v1.ty.shape.rank, win0_1.index t0_1 b * win0_1.size b = 0 := by decide +kernel
  have hsz : ∀ b : Fin main_v1.ty.shape.rank, win0_1.xsize (grid0.coords t0_1) b = main_v1.ty.shape.size b := by
    decide +kernel
  rw [hoff a, hsz a, Nat.zero_add]
  exact ⟨Nat.zero_le _, (i a).isLt⟩

/-- So after the last point the result array holds the result vector. -/
theorem final_out (c : Dev nD) :
    (dats (F := F) m 0 c).arrAt (1 : Fin 2) cfg0.N = outV m :=
  (dats (F := F) m 0 c).arrAt_eq_of_cover 1 (outV m) (flushed_out m c) (cover_out c)

/-- info: 'Cert.KernelIdeal.Coll.final_arg' depends on axioms: [propext, Classical.choice, Quot.sound] -/
#guard_msgs in #print axioms final_arg
/-- info: 'Cert.KernelIdeal.Coll.final_out' depends on axioms: [propext, Classical.choice, Quot.sound] -/
#guard_msgs in #print axioms final_out

end Cert.KernelIdeal.Coll

end
-- ==== Proof.Frames.lean ====
/- The whole run of the kernel on the eight devices: every weakly fair execution ends with each device's result at
   the column maxima of the gathered table and its argument unchanged. -/
import proofs.«900919_g7700000000000920_dist_max_ax0_shard0_i_m2048_n1024_v7x_i8_f32_1_alg».proof.Proof.Launch
import proofs.«900919_g7700000000000920_dist_max_ax0_shard0_i_m2048_n1024_v7x_i8_f32_1_alg».proof.Proof.Oblig
import proofs.«900919_g7700000000000920_dist_max_ax0_shard0_i_m2048_n1024_v7x_i8_f32_1_alg».proof.Proof.Body0
import proofs.«900919_g7700000000000920_dist_max_ax0_shard0_i_m2048_n1024_v7x_i8_f32_1_alg».proof.Proof.Body1
import proofs.«900919_g7700000000000920_dist_max_ax0_shard0_i_m2048_n1024_v7x_i8_f32_1_alg».proof.Proof.FinalArr

set_option maxRecDepth 16384

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The launch over the two bodies, the final arrays read off: the result window's one write-back leaves the
    result, the argument's window is never written. -/
theorem run_vals (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c : Thread nD τ).loc main_v1) = outV m
      ∧ r.2.mem ((c : Thread nD τ).loc main_arg0) = m ((c : Thread nD τ).loc main_arg0)) :=
  (θ_run defs _ _).mono (fun r h c => ⟨(h c 1).trans (final_out m c), (h c 0).trans (final_arg m c)⟩)
    (run_main m ρ (body_obligation m (sound_body0 m) (sound_body1 m)))

/-- info: 'Cert.KernelIdeal.Coll.run_vals' depends on axioms: [propext, Classical.choice, Quot.sound] -/
#guard_msgs in #print axioms run_vals

end Cert.KernelIdeal.Coll

end
-- ==== Proof.Bits.Vals.lean ====
/- The values the all-gather-max kernel computes on each device, as pure terms of the argument arrays.

   Device `c` holds a 2048-row block of `x`, read in two 1024-row blocks. The accumulator after the second
   point is the column-wise maximum of both blocks; that row is what every device contributes to the
   gathered 8-row table, and the result is the column-wise maximum of the table. -/
import proofs.«900919_g7700000000000920_dist_max_ax0_shard0_i_m2048_n1024_v7x_i8_f32_1_alg».proof.Proof.Gen.Kernel.Skeleton
import proofs.«900919_g7700000000000920_dist_max_ax0_shard0_i_m2048_n1024_v7x_i8_f32_1_alg».proof.Proof.Gen.Kernel.Frame
import Idealize.ShloMosaic.Lib.ValueIdx

noncomputable section

namespace Cert.Kernel.Coll

open Cert.Kernel Cert.Kernel.Gen
open Idealize.ShloMosaic Idealize.ShloMosaic.TcCoe

variable {F : FTy → Type} [FloatOps F]
variable (m : (ℓ : Loc nD τ sig) → Buf (Elt F) ℓ)

/-- The 1024-row block of device `c`'s rows that grid point `t` reads. -/
abbrev xblk (c : Dev nD) (t : Fin cfg0.N) : Vec F S1024x1024 .f32 := Gen.iblk m c 0 t

/-- The accumulator after the first point: the column maxima of the first block. -/
def acc0 (c : Dev nD) : Vec F S1x1024 .f32 := k0_pay2 (xblk m c t0_0)

/-- The accumulator after the second point: the column maxima of both blocks. -/
def acc1 (c : Dev nD) : Vec F S1x1024 .f32 := k0_pay3 (xblk m c t0_1) (acc0 m c)

/-- The row device `c` contributes to every device's table. -/
def rowV (c : Dev nD) : Vec F S1x1024 .f32 := k0_pay4 (acc1 m c)

/-- The gathered table: row `r` is device `r`'s contribution. -/
def commV : Vec F S8x1024 .f32 := fun i => rowV m ⟨(i 0).val, (i 0).isLt⟩ (ValueIdx.ix2 (0 : Fin 1) (i 1))

/-- The result on every device: the column maxima of the table. -/
def outV : Vec F S1x1024 .f32 := k0_pay5 (commV m)

end Cert.Kernel.Coll

end
-- ==== Proof.Bits.Proto.lean ====
/- The protocol of the all-gather-max kernel on the ring of eight devices: who signals whom, which
   transfer lands where, and what each landing hands to the device that waits for it. -/
import proofs.«900919_g7700000000000920_dist_max_ax0_shard0_i_m2048_n1024_v7x_i8_f32_1_alg».proof.Proof.Bits.Vals
import proofs.«900919_g7700000000000920_dist_max_ax0_shard0_i_m2048_n1024_v7x_i8_f32_1_alg».proof.Proof.Gen.Kernel.Launch
import proofs.«900919_g7700000000000920_dist_max_ax0_shard0_i_m2048_n1024_v7x_i8_f32_1_alg».proof.Proof.Gen.Kernel.Points
import Idealize.ShloMosaic.Lib.Pipeline.Launch
import Idealize.ShloMosaic.Lib.Pipeline.Kit
import Idealize.ShloMosaic.Lib.Tactic

set_option maxRecDepth 16384

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duties named by an offset) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring: device `c`'s `j`-th peer is `j + 1` places ahead -/

def fwd (j : Fin 7) (c : Dev nD) : Dev nD := ⟨(c.val + (j.val + 1)) % 8, Nat.mod_lt _ (by decide)⟩
def bwd (j : Fin 7) (c : Dev nD) : Dev nD := ⟨(c.val + (7 - j.val)) % 8, Nat.mod_lt _ (by decide)⟩

theorem bwd_fwd (j : Fin 7) (c : Dev nD) : bwd j (fwd j c) = c := by revert j c; decide
theorem fwd_bwd (j : Fin 7) (c : Dev nD) : fwd j (bwd j c) = c := by revert j c; decide
/-- The peer `j + 1` ahead sees this device `7 - j` ahead of itself. -/
theorem fwd_rev_fwd (j : Fin 7) (c : Dev nD) : fwd j.rev (fwd j c) = c := by revert j c; decide
theorem bwd_eq_fwd_rev (j : Fin 7) (c : Dev nD) : bwd j c = fwd j.rev c := by revert j c; decide
theorem fwd_ne (j : Fin 7) (c : Dev nD) : fwd j c ≠ c := by revert j c; decide
theorem fwd_inj_left (c : Dev nD) : Function.Injective fun j : Fin 7 => fwd j c := by revert c; decide

def ringAt (j : Fin 7) : Dev nD ≃ Dev nD := ⟨fwd j, bwd j, bwd_fwd j, fwd_bwd j⟩

/-- The kernel's device chains: the `j`-th signal and the `j`-th transfer both name `fwd j c`. -/
theorem dev1_eq (i) (c : Dev nD) (h) : (⟨k0_dev1 c, k0_dev1_lt i c h⟩ : Dev nD) = fwd 0 c := Fin.ext (k0_dev1_eq c)
theorem dev2_eq (i) (c : Dev nD) (h) : (⟨k0_dev2 c, k0_dev2_lt i c h⟩ : Dev nD) = fwd 1 c := Fin.ext (k0_dev2_eq c)
theorem dev3_eq (i) (c : Dev nD) (h) : (⟨k0_dev3 c, k0_dev3_lt i c h⟩ : Dev nD) = fwd 2 c := Fin.ext (k0_dev3_eq c)
theorem dev4_eq (i) (c : Dev nD) (h) : (⟨k0_dev4 c, k0_dev4_lt i c h⟩ : Dev nD) = fwd 3 c := Fin.ext (k0_dev4_eq c)
theorem dev5_eq (i) (c : Dev nD) (h) : (⟨k0_dev5 c, k0_dev5_lt i c h⟩ : Dev nD) = fwd 4 c := Fin.ext (k0_dev5_eq c)
theorem dev6_eq (i) (c : Dev nD) (h) : (⟨k0_dev6 c, k0_dev6_lt i c h⟩ : Dev nD) = fwd 5 c := Fin.ext (k0_dev6_eq c)
theorem dev7_eq (i) (c : Dev nD) (h) : (⟨k0_dev7 c, k0_dev7_lt i c h⟩ : Dev nD) = fwd 6 c := Fin.ext (k0_dev7_eq c)
theorem dev8_eq (i) (c : Dev nD) (h) : (⟨k0_dev8 c, k0_dev8_lt i c h⟩ : Dev nD) = fwd 0 c := Fin.ext (k0_dev8_eq c)
theorem dev9_eq (i) (c : Dev nD) (h) : (⟨k0_dev9 c, k0_dev9_lt i c h⟩ : Dev nD) = fwd 1 c := Fin.ext (k0_dev9_eq c)
theorem dev10_eq (i) (c : Dev nD) (h) : (⟨k0_dev10 c, k0_dev10_lt i c h⟩ : Dev nD) = fwd 2 c := Fin.ext (k0_dev10_eq c)
theorem dev11_eq (i) (c : Dev nD) (h) : (⟨k0_dev11 c, k0_dev11_lt i c h⟩ : Dev nD) = fwd 3 c := Fin.ext (k0_dev11_eq c)
theorem dev12_eq (i) (c : Dev nD) (h) : (⟨k0_dev12 c, k0_dev12_lt i c h⟩ : Dev nD) = fwd 4 c := Fin.ext (k0_dev12_eq c)
theorem dev13_eq (i) (c : Dev nD) (h) : (⟨k0_dev13 c, k0_dev13_lt i c h⟩ : Dev nD) = fwd 5 c := Fin.ext (k0_dev13_eq c)
theorem dev14_eq (i) (c : Dev nD) (h) : (⟨k0_dev14 c, k0_dev14_lt i c h⟩ : Dev nD) = fwd 6 c := Fin.ext (k0_dev14_eq c)

/-! ## The memrefs: the accumulator, the table, and the table's rows -/

abbrev accM : Memref sig .tc .vmem S1x1024 .f32 := Memref.whole cc0_scratch0
abbrev tabM : Memref sig .tc .vmem S8x1024 .f32 := Memref.whole cc0_scratch1

theorem off2_inb (r : Dev nD) : ∀ a, (k0_off2 r) a + S1x1024.size a ≤ S8x1024.size a :=
  k0_off2_inb (grid0.coords t0_1) r (by decide)

/-- Row `r` of the table, as the kernel slices it. -/
abbrev rowM (r : Dev nD) : Memref sig .tc .vmem S1x1024 .f32 :=
  tabM.slice (Rect.unit (s := S8x1024) (k0_off2 r) S1x1024.size (off2_inb r)) (fun _ => rfl)

/-- The elements of row `r` inside the table's buffer. -/
abbrev rowSet (c r : Dev nD) : Finset (Idx ((rowM r).view.loc (c : Thread nD τ))) := (rowM r).view.set

/-! ## The semaphores and the cells -/

abbrev barS : Sem sig := (SemArray.scalar (sig.barrier 0 rfl) : Sems sig S_).sem
def sndS (j : Fin 7) : DmaSem sig := ⟨3 + j.val, by show 3 + j.val < 17; omega⟩
def rcvS (j : Fin 7) : DmaSem sig := ⟨10 + j.val, by show 10 + j.val < 17; omega⟩

abbrev barCell (c : Dev nD) : GSem nD τ sig := ((c : Thread nD τ), .reg barS)
abbrev sndCell (c : Dev nD) (j : Fin 7) : GSem nD τ sig := ((c : Thread nD τ), .dma (sndS j))
abbrev rcvCell (c : Dev nD) (j : Fin 7) : GSem nD τ sig := ((c : Thread nD τ), .dma (rcvS j))

/-- What one row's transfer credits. -/
abbrev N : ℕ := (rowM (0 : Dev nD)).view.dmaCredit
theorem N_pos : 0 < N := View.dmaCredit_pos _ (by decide)

/-! ## Contents -/

variable (m : (ℓ : Loc nD τ sig) → Buf (Elt F) ℓ)

/-- The table every device ends with, as the contents of its buffer. -/
abbrev tabV (c : Dev nD) : Buf (Elt F) ((c : Thread nD τ).loc cc0_scratch1) := commV m

/-- Row `r` of device `c`'s table, held at share `q` with the buffer's contents `f`. -/
def rowPts (q : PosShare TreeShare) (c r : Dev nD) (f : Buf (Elt F) ((rowM r).view.loc (c : Thread nD τ))) : sProp 𝕄 :=
  (rowM r).view.loc (c : Thread nD τ) ↦[(rowM r).view.set]{q} f
/-- The accumulator and the table, whole. -/
def accPts (c : Dev nD) (f : Buf (Elt F) ((c : Thread nD τ).loc cc0_scratch0)) : sProp 𝕄 :=
  ((c : Thread nD τ).loc cc0_scratch0) ↦{fullShare} f
def tabPts (q : PosShare TreeShare) (c : Dev nD) (f : Buf (Elt F) ((c : Thread nD τ).loc cc0_scratch1)) : sProp 𝕄 :=
  ((c : Thread nD τ).loc cc0_scratch1) ↦{q} f

omit [FloatOps F] in
instance rowPts_storable (q) (c r : Dev nD) (f) : BI.Storable (upEmb : UEmb _ 𝕄) (rowPts (F := F) q c r f) := by unfold rowPts; infer_instance

/-- The shares of its own row a device lends to its seven transfers: the right half of the whole, cut in seven. -/
def sh : Fin 7 → PosShare TreeShare
  | 0 => fullShare.right.left.left.left
  | 1 => fullShare.right.left.left.right
  | 2 => fullShare.right.left.right.left
  | 3 => fullShare.right.left.right.right
  | 4 => fullShare.right.right.left.left
  | 5 => fullShare.right.right.left.right
  | 6 => fullShare.right.right.right

/-! ## The schedule

One round. Device `c`'s barrier cell has seven duties of one unit: duty `j` is paid by `fwd j c`, the target of
`c`'s `j`-th transfer, and hands `c` the row of that device's table `c` will write, with the fact that the
device has opened the receive cell the transfer credits. Send cell `j` has one duty: the lent share of the own row
comes back. Receive cell `j` has one duty, paid by `bwd j c`: that device's row of `c`'s table, landed. -/

def barPay (c : Dev nD) (j : Fin 7) : sProp 𝕄 :=
  iprop((∃ f, rowPts fullShare (fwd j c) c f) ∗ reached ER (rcvCell (fwd j c) j) 0)
def sndPay (c : Dev nD) (j : Fin 7) : sProp 𝕄 := rowPts (sh j) c c (tabV m c)
def rcvPay (c : Dev nD) (j : Fin 7) : sProp 𝕄 := rowPts fullShare c (bwd j c) (tabV m c)

def xferPay (c : Dev nD) : SemLoc sig → sProp 𝕄
  | .dma ⟨3, _⟩ => sndPay m c 0 | .dma ⟨4, _⟩ => sndPay m c 1 | .dma ⟨5, _⟩ => sndPay m c 2 | .dma ⟨6, _⟩ => sndPay m c 3
  | .dma ⟨7, _⟩ => sndPay m c 4 | .dma ⟨8, _⟩ => sndPay m c 5 | .dma ⟨9, _⟩ => sndPay m c 6
  | .dma ⟨10, _⟩ => rcvPay m c 0 | .dma ⟨11, _⟩ => rcvPay m c 1 | .dma ⟨12, _⟩ => rcvPay m c 2 | .dma ⟨13, _⟩ => rcvPay m c 3
  | .dma ⟨14, _⟩ => rcvPay m c 4 | .dma ⟨15, _⟩ => rcvPay m c 5 | .dma ⟨16, _⟩ => rcvPay m c 6
  | _ => iprop(emp)

def isXfer : SemLoc sig → Bool
  | .dma q => decide (3 ≤ q.val)
  | .reg _ => false

abbrev IsBar (g : GSem nD τ sig) : Prop := g.1.2 = .tc ∧ g.2 = .reg barS
abbrev IsXfer (g : GSem nD τ sig) : Prop := g.1.2 = .tc ∧ isXfer g.2 = true

def sched : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d := if g.2 = .reg barS then barPay g.1.1 d else xferPay m g.1.1 g.2
  amount_pos g _ _ _ := by
    by_cases h : g.2 = .reg barS
    · rw [if_pos h]; exact Nat.one_pos
    · rw [if_neg h]; exact N_pos

instance sched_payload_storable (g : GSem nD τ sig) (r : ℕ) (d : Fin 7) :
    BI.Storable (upEmb : UEmb _ 𝕄) ((sched (F := F) m).payload g r d) := by
  show BI.Storable upEmb (if g.2 = .reg barS then barPay g.1.1 d else xferPay m g.1.1 g.2)
  unfold barPay xferPay sndPay rcvPay
  (repeat' split) <;> infer_instance

section Sched
variable (c : Dev nD) (j : Fin 7)

theorem snd_ne_bar : (SemLoc.dma (sndS j) : SemLoc sig) ≠ .reg barS := fun h => by cases h
theorem rcv_ne_bar : (SemLoc.dma (rcvS j) : SemLoc sig) ≠ .reg barS := fun h => by cases h
theorem snd_ne_rcv (j k : Fin 7) : (SemLoc.dma (sndS j) : SemLoc sig) ≠ .dma (rcvS k) := by revert j k; decide
theorem sndS_inj : Function.Injective (sndS : Fin 7 → DmaSem sig) := by decide
theorem rcvS_inj : Function.Injective (rcvS : Fin 7 → DmaSem sig) := by decide

theorem duties_bar : (sched (F := F) m).duties (barCell c) 0 = Finset.univ := by dsimp only [sched]; exact if_pos ⟨rfl, rfl, rfl⟩
theorem duties_snd : (sched (F := F) m).duties (sndCell c j) 0 = {0} := by
  dsimp only [sched]; rw [if_neg (fun h => snd_ne_bar j h.2.2)]; exact if_pos ⟨rfl, rfl, by show isXfer (.dma (sndS j)) = true; revert j; decide⟩
theorem duties_rcv : (sched (F := F) m).duties (rcvCell c j) 0 = {0} := by
  dsimp only [sched]; rw [if_neg (fun h => rcv_ne_bar j h.2.2)]; exact if_pos ⟨rfl, rfl, by show isXfer (.dma (rcvS j)) = true; revert j; decide⟩
theorem duties_later (g : GSem nD τ sig) : ∀ r, 1 ≤ r → (sched (F := F) m).duties g r = ∅ :=
  fun r hr => by dsimp only [sched]; rw [if_neg fun h => by omega, if_neg fun h => by omega]

theorem amount_bar (d : Fin 7) : (sched (F := F) m).amount (barCell c) 0 d = 1 := by dsimp only [sched]; exact if_pos rfl
theorem amount_snd (d : Fin 7) : (sched (F := F) m).amount (sndCell c j) 0 d = N := by dsimp only [sched]; exact if_neg (snd_ne_bar j)
theorem amount_rcv (d : Fin 7) : (sched (F := F) m).amount (rcvCell c j) 0 d = N := by dsimp only [sched]; exact if_neg (rcv_ne_bar j)

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_snd : (sched (F := F) m).expect (sndCell c j) 0 = N := by
  unfold Schedule.expect Schedule.amountOf; rw [duties_snd, Finset.sum_singleton, amount_snd]
theorem expect_rcv : (sched (F := F) m).expect (rcvCell c j) 0 = N := by
  unfold Schedule.expect Schedule.amountOf; rw [duties_rcv, Finset.sum_singleton, amount_rcv]

theorem payload_bar (d : Fin 7) : (sched (F := F) m).payload (barCell c) 0 d = barPay c d := by dsimp only [sched]; rw [if_pos rfl]
theorem payload_snd (d : Fin 7) : (sched (F := F) m).payload (sndCell c j) 0 d = sndPay m c j := by
  dsimp only [sched]; rw [if_neg (snd_ne_bar j)]; revert j; intro j; fin_cases j <;> rfl
theorem payload_rcv (d : Fin 7) : (sched (F := F) m).payload (rcvCell c j) 0 d = rcvPay m c j := by
  dsimp only [sched]; rw [if_neg (rcv_ne_bar j)]; revert j; intro j; fin_cases j <;> rfl

/-- The whole of the barrier cell's round: the seven peers' rows, each with its receive cell opened. -/
theorem rest_bar : bigSep ((sched (F := F) m).duties (barCell c) 0 \ ∅) (fun d => (sched (F := F) m).payload (barCell c) 0 d)
    = bigSep Finset.univ (fun d : Fin 7 => barPay (F := F) c d) := by
  rw [Finset.sdiff_empty, duties_bar]; exact bigSep_congr fun d _ => payload_bar m c d
theorem rest_snd : bigSep ((sched (F := F) m).duties (sndCell c j) 0 \ ∅) (fun d => (sched (F := F) m).payload (sndCell c j) 0 d) = sndPay m c j := by
  rw [Finset.sdiff_empty, duties_snd, bigSep_singleton, payload_snd]
theorem rest_rcv : bigSep ((sched (F := F) m).duties (rcvCell c j) 0 \ ∅) (fun d => (sched (F := F) m).payload (rcvCell c j) 0 d) = rcvPay m c j := by
  rw [Finset.sdiff_empty, duties_rcv, bigSep_singleton, payload_rcv]

end Sched

/-! ## What each device owes; the levels -/

/-- The `j`-th signal's unit on the peer's barrier cell, and the `j`-th transfer's credit on the peer's receive cell. -/
def sigT (c : Dev nD) (j : Fin 7) : CellTallies nD τ sig Unit := tallyAt (barCell (fwd j c)) () 1
def rcvT (c : Dev nD) (j : Fin 7) : CellTallies nD τ sig Unit := tallyAt (rcvCell (fwd j c) j) () N

/-- What is still owed with the transfers `k, k+1, …, 6` to come (summed so that each transfer peels the last summand). -/
def Orcv (c : Dev nD) : ℕ → CellTallies nD τ sig Unit
  | 0 => 0 + rcvT c 6 + rcvT c 5 + rcvT c 4 + rcvT c 3 + rcvT c 2 + rcvT c 1 + rcvT c 0
  | 1 => 0 + rcvT c 6 + rcvT c 5 + rcvT c 4 + rcvT c 3 + rcvT c 2 + rcvT c 1
  | 2 => 0 + rcvT c 6 + rcvT c 5 + rcvT c 4 + rcvT c 3 + rcvT c 2
  | 3 => 0 + rcvT c 6 + rcvT c 5 + rcvT c 4 + rcvT c 3
  | 4 => 0 + rcvT c 6 + rcvT c 5 + rcvT c 4
  | 5 => 0 + rcvT c 6 + rcvT c 5
  | 6 => 0 + rcvT c 6
  | _ => 0
/-- What is still owed with the signals `k, k+1, …, 6` and every transfer to come. -/
def Osig (c : Dev nD) : ℕ → CellTallies nD τ sig Unit
  | 0 => Orcv c 0 + sigT c 6 + sigT c 5 + sigT c 4 + sigT c 3 + sigT c 2 + sigT c 1 + sigT c 0
  | 1 => Orcv c 0 + sigT c 6 + sigT c 5 + sigT c 4 + sigT c 3 + sigT c 2 + sigT c 1
  | 2 => Orcv c 0 + sigT c 6 + sigT c 5 + sigT c 4 + sigT c 3 + sigT c 2
  | 3 => Orcv c 0 + sigT c 6 + sigT c 5 + sigT c 4 + sigT c 3
  | 4 => Orcv c 0 + sigT c 6 + sigT c 5 + sigT c 4
  | 5 => Orcv c 0 + sigT c 6 + sigT c 5
  | 6 => Orcv c 0 + sigT c 6
  | _ => Orcv c 0

/-- At launch: everything. After the first point: the seven transfers' credit. -/
def O₀ (c : Dev nD) : CellTallies nD τ sig Unit := Osig c 0
def O₁ (c : Dev nD) : CellTallies nD τ sig Unit := Orcv c 0

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if isXfer g.2 ∧ ¬ (∃ j, g.2 = .dma (sndS j)) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_rcv (c : Dev nD) (j : Fin 7) (u : Unit) : lv (rcvCell c j) u = 2 := by
  unfold lv; rw [if_neg (rcv_ne_bar j)]
  exact if_pos ⟨by show isXfer (.dma (rcvS j)) = true; revert j; decide, fun ⟨k, hk⟩ => snd_ne_rcv k j hk.symm⟩
theorem lv_snd (c : Dev nD) (j : Fin 7) (u : Unit) : lv (sndCell c j) u = 0 := by
  unfold lv; rw [if_neg (snd_ne_bar j)]; exact if_neg fun h => h.2 ⟨j, rfl⟩
/-- A staging semaphore (one of the first three) sits at level 0. -/
theorem lv_stage (c : Dev nD) (q : DmaSem sig) (hq : q.val < 3) (u : Unit) : lv ((c : Thread nD τ), .dma q) u = 0 := by
  unfold lv; rw [if_neg (fun h => by cases h)]
  exact if_neg fun h => by have := h.1; simp only [isXfer, decide_eq_true_eq] at this; omega

theorem Orcv_pos {c : Dev nD} {k : ℕ} {g : GSem nD τ sig} {u : Unit} (h : 0 < Orcv c k g u) : ∃ j, g = rcvCell (fwd j c) j := by
  have key : ∀ (D : CellTallies nD τ sig Unit) (j : Fin 7), 0 < (D + rcvT c j) g u → 0 < D g u ∨ ∃ j, g = rcvCell (fwd j c) j := fun D j h =>
    (Pipeline.add_pos_cases h).imp id fun h' => ⟨j, (Pipeline.tallyAt_pos h').1⟩
  have h0 : ¬ 0 < (0 : CellTallies nD τ sig Unit) g u := by rw [Pi.zero_apply, Finsupp.zero_apply]; exact Nat.lt_irrefl 0
  unfold Orcv at h
  split at h <;> (repeat (first | exact absurd h h0 | (rcases key _ _ h with h | h' <;> [skip; exact h'])))

theorem Osig_pos {c : Dev nD} {k : ℕ} {g : GSem nD τ sig} {u : Unit} (h : 0 < Osig c k g u) :
    (∃ j, g = rcvCell (fwd j c) j) ∨ ∃ j, g = barCell (fwd j c) := by
  have key : ∀ (D : CellTallies nD τ sig Unit) (j : Fin 7), 0 < (D + sigT c j) g u → 0 < D g u ∨ ∃ j, g = barCell (fwd j c) := fun D j h =>
    (Pipeline.add_pos_cases h).imp id fun h' => ⟨j, (Pipeline.tallyAt_pos h').1⟩
  unfold Osig at h
  split at h
  · iterate 7 (rcases key _ _ h with h | h' <;> [skip; exact Or.inr h'])
    exact Or.inl (Orcv_pos h)
  · iterate 6 (rcases key _ _ h with h | h' <;> [skip; exact Or.inr h'])
    exact Or.inl (Orcv_pos h)
  · iterate 5 (rcases key _ _ h with h | h' <;> [skip; exact Or.inr h'])
    exact Or.inl (Orcv_pos h)
  · iterate 4 (rcases key _ _ h with h | h' <;> [skip; exact Or.inr h'])
    exact Or.inl (Orcv_pos h)
  · iterate 3 (rcases key _ _ h with h | h' <;> [skip; exact Or.inr h'])
    exact Or.inl (Orcv_pos h)
  · iterate 2 (rcases key _ _ h with h | h' <;> [skip; exact Or.inr h'])
    exact Or.inl (Orcv_pos h)
  · iterate 1 (rcases key _ _ h with h | h' <;> [skip; exact Or.inr h'])
    exact Or.inl (Orcv_pos h)
  · exact Or.inl (Orcv_pos h)

/-! ## The cells by number; the ghost state a device holds -/

/-- A device's fifteen cells: its barrier cell, its seven send cells, its seven receive cells. -/
def csem (k : Fin 15) : SemLoc sig :=
  if k.val = 0 then .reg barS
  else if h : k.val ≤ 7 then .dma (sndS ⟨k.val - 1, by omega⟩)
  else .dma (rcvS ⟨k.val - 8, by omega⟩)
abbrev kcell (ck : Dev nD × Fin 15) : GSem nD τ sig := ((ck.1 : Thread nD τ), csem ck.2)
def sIx (j : Fin 7) : Fin 15 := ⟨1 + j.val, by omega⟩
def rIx (j : Fin 7) : Fin 15 := ⟨8 + j.val, by omega⟩

theorem kcell_bar (c : Dev nD) : kcell (c, 0) = barCell c := rfl
theorem kcell_snd (c : Dev nD) (j : Fin 7) : kcell (c, sIx j) = sndCell c j :=
  Prod.ext rfl (by show csem (sIx j) = .dma (sndS j); revert j; decide)
theorem kcell_rcv (c : Dev nD) (j : Fin 7) : kcell (c, rIx j) = rcvCell c j :=
  Prod.ext rfl (by show csem (rIx j) = .dma (rcvS j); revert j; decide)
theorem csem_injective : Function.Injective csem := by decide

/-- Every cell's invariant, under the names the launch allocated them at, and every cell's first round opened. -/
def records (K : Dev nD × Fin 15 → ℕ) : sProp 𝕄 :=
  iprop((bigSep Finset.univ fun ck : Dev nD × Fin 15 => cellInv ER (sched m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (ck : Dev nD × Fin 15) : records m K ⊢ cellInv ER (sched m) (K ck) (kcell ck) := by
  unfold records; iintro ⟨H, -⟩
  iapply (show (bigSep Finset.univ fun ck : Dev nD × Fin 15 => (cellInv ER (sched m) (K ck) (kcell ck) : sProp 𝕄)) ⊢ cellInv ER (sched m) (K ck) (kcell ck) from
    bigSep_elim (Finset.mem_univ ck))
  iexact H
theorem reached_at (K : Dev nD × Fin 15 → ℕ) (ck : Dev nD × Fin 15) : records m K ⊢ reached ER (kcell ck) 0 := by
  unfold records; iintro ⟨-, H⟩
  iapply (show (bigSep Finset.univ fun ck : Dev nD × Fin 15 => (reached ER (kcell ck) 0 : sProp 𝕄)) ⊢ reached ER (kcell ck) 0 from
    bigSep_elim (Finset.mem_univ ck))
  iexact H

/-- A device's positions in its own fifteen cells. -/
def positions (c : Dev nD) : sProp 𝕄 :=
  iprop(atPos ER (barCell c) 0 ∅ 0 ∗ (bigSep Finset.univ fun j : Fin 7 => atPos ER (sndCell c j) 0 ∅ 0)
    ∗ bigSep Finset.univ fun j : Fin 7 => atPos ER (rcvCell c j) 0 ∅ 0)
/-- The tokens of the duties a device pays by its transfers: the peer's receive duty and its own send duty. -/
def xferToks (c : Dev nD) : sProp 𝕄 :=
  iprop((bigSep Finset.univ fun j : Fin 7 => dutyTok ER (rcvCell (fwd j c) j) 0 (0 : Fin 7))
    ∗ bigSep Finset.univ fun j : Fin 7 => dutyTok ER (sndCell c j) 0 (0 : Fin 7))
/-- The tokens of the duties it pays by its signals: its `j`-th peer sees it `7 - j` ahead. -/
def sigToks (c : Dev nD) : sProp 𝕄 := bigSep Finset.univ fun j : Fin 7 => dutyTok ER (barCell (fwd j c)) 0 j.rev

def linear (c : Dev nD) : sProp 𝕄 := iprop(positions c ∗ sigToks c ∗ xferToks c)
def linear1 (c : Dev nD) : sProp 𝕄 := iprop(positions c ∗ xferToks c)

/-- The credit the launch deals a device: its barrier's seven units and each receive cell's transfer. -/
def creds (c : Dev nD) : sProp 𝕄 :=
  iprop(cred (tallyAt (barCell c) () 7) ∗ bigSep Finset.univ fun j : Fin 7 => cred (tallyAt (rcvCell c j) () N))

def start (c : Dev nD) : sProp 𝕄 := iprop((∃ K, records m K ∗ linear c) ∗ creds c ∗ levAts L lv)

/-- Before the first point: the two scratch buffers whole at whatever they hold. -/
def Φ0 (c : Dev nD) : sProp 𝕄 := iprop(start m c ∗ (∃ f, accPts c f) ∗ ∃ f, tabPts fullShare c f)
/-- Between the points: the signals sent, the seven peers' rows of the table given away, the own row kept, the
    accumulator at the first block's column maxima. -/
def Φ1 (c : Dev nD) : sProp 𝕄 :=
  iprop((∃ K, records m K ∗ linear1 c) ∗ creds c ∗ levAts L lv ∗ accPts c (acc0 m c) ∗ ∃ f, rowPts fullShare c c f)
/-- After the last point: both scratch buffers whole again and the fourteen transfer semaphores back at zero. -/
def Φ2 (c : Dev nD) : sProp 𝕄 :=
  iprop((∃ f, accPts (F := F) c f) ∗ (∃ f, tabPts fullShare c f)
    ∗ (bigSep Finset.univ fun j : Fin 7 => semVal (sndCell c j) 0) ∗ bigSep Finset.univ fun j : Fin 7 => semVal (rcvCell c j) 0)

/-! ## The pipeline's proof data -/

def dats (_ : Fin 1) (c : Dev nD) : Dat τ (Elt F) Unit ℕ UU ℕ cfg0 c where
  A w := m ((cfg0.win w).arr.view.loc (c : Thread nD τ))
  after w t := match w with
    | ⟨0, _⟩ => Gen.iblk m c 0 t
    | ⟨1, _⟩ => outV m
  Φ t := match t with
    | ⟨0, _⟩ => Φ0 m c
    | ⟨1, _⟩ => Φ1 m c
    | ⟨_ + 2, _⟩ => Φ2 c
  q _ := fullShare
  owed t := match t with
    | ⟨0, _⟩ => O₀ c
    | ⟨1, _⟩ => O₁ c
    | ⟨_ + 2, _⟩ => 0

abbrev 𝒱₀ : Variants := Variants.none

/-! ## The body at each point: the program, what it starts from, what it ends with -/

/-- The body as the pipeline calls it at the first point (on the first input staging buffer) and at the second (on the
    second). -/
abbrev prog0 : Prog (TpuEff nD τ sig (Elt F) Λ₀ .tc) PUnit :=
  cc0_body (grid0.coords t0_0) (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3
abbrev prog1 : Prog (TpuEff nD τ sig (Elt F) Λ₀ .tc) PUnit :=
  cc0_body (grid0.coords t0_1) (Memref.whole cc0_stg0_1) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3

theorem bodyAt0_t0 : bodyAt0 (F := F) t0_0 = prog0 := rfl
theorem bodyAt0_t1 : bodyAt0 (F := F) t0_1 = prog1 := rfl

/-- The first point: from everything dealt at launch, both scratch buffers at whatever they hold, the first block staged,
    the result's staging buffer at whatever it holds (`g1`) … -/
def pre0 (K : Dev nD × Fin 15 → ℕ) (c : Dev nD) (W : Waits sig Unit) (g1 : Buf (Elt F) ((c : Thread nD τ).loc cc0_stg1_0)) : sProp 𝕄 :=
  iprop(records m K ∗ linear c ∗ creds c ∗ levAts L lv ∗ (∃ f, accPts c f) ∗ (∃ f, tabPts fullShare c f)
    ∗ owes (c : Thread nD τ) (O₀ c) W
    ∗ (((c : Thread nD τ).loc cc0_stg0_0) ↦{fullShare} (xblk m c t0_0))
    ∗ (((c : Thread nD τ).loc cc0_stg1_0) ↦{fullShare} g1))
/-- … to the seven signals sent and their rows given away, the accumulator at the first block's maxima, the two staging
    buffers as they were. -/
def post0 (c : Dev nD) (g1 : Buf (Elt F) ((c : Thread nD τ).loc cc0_stg1_0)) : sProp 𝕄 :=
  iprop(linear1 c ∗ creds c ∗ accPts c (acc0 m c) ∗ (∃ f, rowPts fullShare c c f)
    ∗ (∃ W', owes (c : Thread nD τ) (O₁ c) W')
    ∗ (((c : Thread nD τ).loc cc0_stg0_0) ↦{fullShare} (xblk m c t0_0))
    ∗ (((c : Thread nD τ).loc cc0_stg1_0) ↦{fullShare} g1))

/-- The second point: from that, the second block staged … -/
def pre1 (K : Dev nD × Fin 15 → ℕ) (c : Dev nD) (W : Waits sig Unit) (g1 : Buf (Elt F) ((c : Thread nD τ).loc cc0_stg1_0)) : sProp 𝕄 :=
  iprop(records m K ∗ linear1 c ∗ creds c ∗ levAts L lv ∗ accPts c (acc0 m c) ∗ (∃ f, rowPts fullShare c c f)
    ∗ owes (c : Thread nD τ) (O₁ c) W
    ∗ (((c : Thread nD τ).loc cc0_stg0_1) ↦{fullShare} (xblk m c t0_1))
    ∗ (((c : Thread nD τ).loc cc0_stg1_0) ↦{fullShare} g1))
/-- … to the result staged, both scratch buffers whole, the transfer semaphores back at zero, nothing owed. -/
def post1 (c : Dev nD) : sProp 𝕄 :=
  iprop(Φ2 c ∗ (∃ W', owes (c : Thread nD τ) 0 W')
    ∗ (((c : Thread nD τ).loc cc0_stg0_1) ↦{fullShare} (xblk m c t0_1))
    ∗ (((c : Thread nD τ).loc cc0_stg1_0) ↦{fullShare} (outV m)))

/-- Seven conjuncts written out. -/
theorem bigSep_fin7 {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

end Cert.Kernel.Coll

end
-- ==== Proof.Bits.Launch.lean ====
/- The launch of the all-gather-max kernel on the ring of eight devices: the ghost state each device starts from, the
   credit the launch deals it, the levels its waits sit at, and the run of the whole mesh from each device's body. -/
import proofs.«900919_g7700000000000920_dist_max_ax0_shard0_i_m2048_n1024_v7x_i8_f32_1_alg».proof.Proof.Bits.Proto

set_option maxRecDepth 16384

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions over finite index types, regrouped -/

/-- A double conjunction may be taken in either order. -/
theorem bigSep_swap {M : Type} [URA M] {α β : Type} [Fintype α] [Fintype β] (Φ : α → β → sProp M) :
    (bigSep Finset.univ fun a => bigSep Finset.univ fun b => Φ a b) = bigSep Finset.univ fun b => bigSep Finset.univ fun a => Φ a b :=
  (bigSep_univ_prod (fun p : α × β => Φ p.1 p.2)).symm.trans
    ((bigSep_univ_equiv (Equiv.prodComm β α) (fun p : α × β => Φ p.1 p.2)).trans (bigSep_univ_prod (fun p : β × α => Φ p.2 p.1)))

/-- The separating conjunction associates, as an equation. -/
theorem sep_assoc_eq {M : Type} [URA M] (P Q R : sProp M) : iprop((P ∗ Q) ∗ R) = iprop(P ∗ Q ∗ R) :=
by
  refine BI.Entails.antisymm (show _ ⊢ (_ : sProp M) from ?_) (show _ ⊢ (_ : sProp M) from ?_)
  · iintro ⟨⟨H1, H2⟩, H3⟩
    isplitl [H1]; · iexact H1
    isplitl [H2] <;> iassumption
  · iintro ⟨H1, H2, H3⟩
    isplitr [H3]
    · isplitl [H1] <;> iassumption
    iexact H3

/-- Three conjuncts written out. -/
theorem bigSep_fin3 {M : Type} [URA M] (Φ : Fin 3 → sProp M) : bigSep Finset.univ Φ = iprop(Φ 0 ∗ Φ 1 ∗ Φ 2) :=
  bigSep_univ_eq_bigSepL [0, 1, 2] (by decide) (by decide) Φ

/-- Fourteen conjuncts as the first seven and the last seven. -/
theorem bigSep_fin14_split {M : Type} [URA M] (Φ : Fin 14 → sProp M) :
    bigSep Finset.univ Φ = iprop((bigSep Finset.univ fun j : Fin 7 => Φ ⟨j.val, by omega⟩) ∗ bigSep Finset.univ fun j : Fin 7 => Φ ⟨7 + j.val, by omega⟩) := by
  rw [bigSep_univ_eq_bigSepL [0, 1, 2, 3, 4, 5, 6, 7, 8, 9, 10, 11, 12, 13] (by decide) (by decide) Φ, bigSep_fin7, bigSep_fin7]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13)
    = iprop((Φ 0 ∗ Φ 1 ∗ Φ 2 ∗ Φ 3 ∗ Φ 4 ∗ Φ 5 ∗ Φ 6) ∗ Φ 7 ∗ Φ 8 ∗ Φ 9 ∗ Φ 10 ∗ Φ 11 ∗ Φ 12 ∗ Φ 13)
  simp only [sep_assoc_eq]

/-- Fifteen conjuncts as the first, the next seven and the last seven. -/
theorem bigSep_fin15_split {M : Type} [URA M] (Φ : Fin 15 → sProp M) :
    bigSep Finset.univ Φ = iprop(Φ 0 ∗ (bigSep Finset.univ fun j : Fin 7 => Φ (sIx j)) ∗ bigSep Finset.univ fun j : Fin 7 => Φ (rIx j)) := by
  rw [bigSep_univ_eq_bigSepL [0, 1, 2, 3, 4, 5, 6, 7, 8, 9, 10, 11, 12, 13, 14] (by decide) (by decide) Φ, bigSep_fin7, bigSep_fin7]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14)
    = iprop(Φ 0 ∗ (Φ 1 ∗ Φ 2 ∗ Φ 3 ∗ Φ 4 ∗ Φ 5 ∗ Φ 6 ∗ Φ 7) ∗ Φ 8 ∗ Φ 9 ∗ Φ 10 ∗ Φ 11 ∗ Φ 12 ∗ Φ 13 ∗ Φ 14)
  simp only [sep_assoc_eq]

/-- A conjunction over a device's fifteen cells, by kind. -/
theorem bigSep_cells {M : Type} [URA M] (c : Dev nD) (Φ : GSem nD τ sig → sProp M) :
    (bigSep Finset.univ fun k : Fin 15 => Φ (kcell (c, k)))
      = iprop(Φ (barCell c) ∗ (bigSep Finset.univ fun j : Fin 7 => Φ (sndCell c j)) ∗ bigSep Finset.univ fun j : Fin 7 => Φ (rcvCell c j)) := by
  rw [bigSep_fin15_split]
  simp only [kcell_snd, kcell_rcv]
  rfl

/-! ## The launch: the cells, the tokens, the ghost state dealt -/

/-- The kernel's own fourteen semaphores: the seven send and the seven receive semaphores. -/
abbrev osem : Fin 14 → SemLoc sig := fun k => .dma ⟨3 + k.val, by show 3 + k.val < 17; omega⟩

theorem ownSemFacts : Pipeline.OwnSemFacts cfg0.spec osem := by decide

theorem share_eq (m : (ℓ : Loc nD τ sig) → Buf (Elt F) ℓ) (c : Dev nD) (w : Fin cfg0.W) : (dats m 0 c).share w = fullShare := by
  unfold Dat.share; split <;> rfl

theorem kcell_injective : Function.Injective (kcell : Dev nD × Fin 15 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl
def ringCells : Finset (GSem nD τ sig) := Finset.univ.map ⟨kcell, kcell_injective⟩

/-- The duties of a device's own cells, as (semaphore, duty): its barrier's seven, the one of each send cell, the one of
    each receive cell. -/
def tokKey : Fin 3 × Fin 7 → SemLoc sig × Fin 7
  | (0, j) => (.reg barS, j)
  | (1, j) => (.dma (sndS j), 0)
  | (2, j) => (.dma (rcvS j), 0)
theorem tokKey_injective : Function.Injective tokKey := by decide

abbrev tokOf (x : Dev nD × Fin 3 × Fin 7) : GSem nD τ sig × ℕ × Fin 7 := (((x.1 : Thread nD τ), (tokKey x.2).1), 0, (tokKey x.2).2)
theorem tokOf_injective : Function.Injective tokOf := by
  rintro ⟨c, kj⟩ ⟨c', kj'⟩ h
  have h1 : c = c' := congrArg (fun x : GSem nD τ sig × ℕ × Fin 7 => x.1.1.1) h
  subst h1
  have h2 : kj = kj' := tokKey_injective (Prod.ext (congrArg (fun x : GSem nD τ sig × ℕ × Fin 7 => x.1.2) h) (congrArg (fun x : GSem nD τ sig × ℕ × Fin 7 => x.2.2) h))
  subst h2; rfl
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun j : Fin 7 => dutyTok ER (barCell c) 0 j)
    ∗ (bigSep Finset.univ fun j : Fin 7 => dutyTok ER (sndCell c j) 0 (0 : Fin 7))
    ∗ bigSep Finset.univ fun j : Fin 7 => dutyTok ER (rcvCell c j) 0 (0 : Fin 7))

/-- What the launch element deals device `c`: its fifteen cells' round states, its positions in them with their first
    rounds opened, and their duty tokens. -/
def G (m : (ℓ : Loc nD τ sig) → Buf (Elt F) ℓ) (c : Dev nD) : sProp 𝕄 :=
  iprop((bigSep Finset.univ fun k : Fin 15 => roundState ER (sched m) (kcell (c, k)) 0)
    ∗ (bigSep Finset.univ fun k : Fin 15 => iprop(atPos ER (kcell (c, k)) 0 ∅ 0 ∗ reached ER (kcell (c, k)) 0)) ∗ toks c)

/-- What the global step makes of it: every cell's invariant and opened round on record, the positions, and the tokens
    of the duties the device itself pays. -/
def G' (m : (ℓ : Loc nD τ sig) → Buf (Elt F) ℓ) (c : Dev nD) : sProp 𝕄 := iprop(∃ K, records m K ∗ linear c)

theorem fund_ring (m : (ℓ : Loc nD τ sig) → Buf (Elt F) ℓ) :
    BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod, bigSep_fin3]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem osem_snd (j : Fin 7) : osem ⟨j.val, by omega⟩ = .dma (sndS j) := rfl
theorem osem_rcv (j : Fin 7) : osem ⟨7 + j.val, by omega⟩ = .dma (rcvS j) :=
  congrArg SemLoc.dma (Fin.ext (by show 3 + (7 + j.val) = 10 + j.val; omega))

/-- The kernel's own semaphores at zero: the seven send cells and the seven receive cells; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sndCell c j) 0) ∗ bigSep Finset.univ fun j : Fin 7 => semVal (rcvCell c j) 0) := by
  unfold Pipeline.ownSems0; rw [bigSep_fin14_split]
  simp only [osem_snd, osem_rcv]
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, bigSep_cells c (fun g => (semVal g 0 : sProp 𝕄))]
  iintro ⟨⟨HS, HV⟩, HB⟩
  isplitl [HB]; · iexact HB
  isplitl [HS] <;> iassumption

/-- Each device's cells get their invariants, from their counters at zero and their round states. -/
theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 15 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt around the ring. Duty `d` of a barrier cell goes to its payer, `d + 1` places ahead of the cell's
    owner: device `c` ends with duty `7 - 1 - j` of its `j`-th peer's barrier cell. A receive cell's token goes to its
    payer, `j + 1` places behind: device `c` ends with the token of its `j`-th peer's `j`-th receive cell. -/
theorem toks_around : (bigSep Finset.univ fun c : Dev nD => (toks c : sProp 𝕄))
    ⊢ bigSep Finset.univ fun c : Dev nD => iprop(sigToks c ∗ xferToks c) := by
  have hbar : (bigSep Finset.univ fun c : Dev nD => bigSep Finset.univ fun j : Fin 7 => (dutyTok ER (barCell c) 0 j : sProp 𝕄))
      = bigSep Finset.univ fun c : Dev nD => sigToks c := by
    rw [bigSep_swap, bigSep_univ_equiv Fin.revPerm (fun j : Fin 7 => bigSep Finset.univ fun c : Dev nD => (dutyTok ER (barCell c) 0 j : sProp 𝕄)),
      bigSep_congr (s := Finset.univ) (fun (j : Fin 7) _ => bigSep_univ_equiv (ringAt j) (fun c : Dev nD => (dutyTok ER (barCell c) 0 (Fin.revPerm j) : sProp 𝕄))),
      bigSep_swap]
    rfl
  have hrcv : (bigSep Finset.univ fun c : Dev nD => bigSep Finset.univ fun j : Fin 7 => (dutyTok ER (rcvCell c j) 0 (0 : Fin 7) : sProp 𝕄))
      = bigSep Finset.univ fun c : Dev nD => bigSep Finset.univ fun j : Fin 7 => (dutyTok ER (rcvCell (fwd j c) j) 0 (0 : Fin 7) : sProp 𝕄) := by
    rw [bigSep_swap,
      bigSep_congr (s := Finset.univ) (fun (j : Fin 7) _ => bigSep_univ_equiv (ringAt j) (fun c : Dev nD => (dutyTok ER (rcvCell c j) 0 (0 : Fin 7) : sProp 𝕄))),
      bigSep_swap]
    rfl
  unfold toks xferToks
  rw [bigSep_sep', bigSep_sep', bigSep_sep', bigSep_sep', hbar, hrcv]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (m : (ℓ : Loc nD τ sig) → Buf (Elt F) ℓ) (K : Dev nD × Fin 15 → ℕ) (c : Dev nD) :
    iprop(records m K ∗ linear c) ⊢ G' m c := by
  unfold G'; iintro H; iexists K; iexact H

theorem regroup (m : (ℓ : Loc nD τ sig) → Buf (Elt F) ℓ) :
    (bigSep Finset.univ fun c : Dev nD => iprop((bigSep Finset.univ fun k => iprop(∃ κ : ℕ, cellInv ER (sched m) κ (kcell (c, k))))
          ∗ (bigSep Finset.univ fun k : Fin 15 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 15 => iprop(∃ κ : ℕ, cellInv ER (sched m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄))
        (fun c : Dev nD => iprop(sigToks c ∗ xferToks c))).symm).trans
      (bigSep_mono fun c _ => show _ ⊢ linear c from Entails.of_eq (by unfold linear positions; rw [bigSep_cells c (fun g => (atPos ER g 0 ∅ 0 : sProp 𝕄))])))
    isplitl [Hat]; · iexact Hat
    iexact Htk

/-- The global step: own and unscoped semaphores of every device at once. -/
theorem glob (m : (ℓ : Loc nD τ sig) → Buf (Elt F) ℓ) :
    (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- What a device owes at launch, as a sum over its seven peers. -/
theorem O₀_eq (d : Dev nD) : O₀ d = ∑ j : Fin 7, (rcvT d j + sigT d j) := by
  show 0 + rcvT d 6 + rcvT d 5 + rcvT d 4 + rcvT d 3 + rcvT d 2 + rcvT d 1 + rcvT d 0
    + sigT d 6 + sigT d 5 + sigT d 4 + sigT d 3 + sigT d 2 + sigT d 1 + sigT d 0 = _
  rw [Fin.sum_univ_seven, zero_add]; abel

/-- Seven units on one cell. -/
theorem seven_units (g : GSem nD τ sig) : (∑ _j : Fin 7, (tallyAt g () 1 : CellTallies nD τ sig Unit)) = tallyAt g () 7 := by
  rw [Fin.sum_univ_seven]; simp only [tallyAt_add]

/-- The credit the launch deals device `c`: for each `j`, the device `j + 1` places behind owes `c`'s barrier cell a unit
    and `c`'s `j`-th receive cell one row's transfer. -/
theorem launch_creds (c : Dev nD) : (Pipeline.launchCred O₀ c : sProp 𝕄) ⊢ creds c := by
  have h0 : (O₀ : Dev nD → CellTallies nD τ sig Unit) = fun d => ∑ j ∈ Finset.univ, (fun (j : Fin 7) (d : Dev nD) => rcvT d j + sigT d j) j d :=
    funext O₀_eq
  rw [h0, Pipeline.launchCred_sum Finset.univ (fun (j : Fin 7) (d : Dev nD) => rcvT d j + sigT d j) c]
  have hj (j : Fin 7) : (Pipeline.launchCred (fun d : Dev nD => rcvT d j + sigT d j) c : sProp 𝕄)
      ⊢ iprop(cred (tallyAt (rcvCell c j) () N) ∗ cred (tallyAt (barCell c) () 1)) := by
    rw [Pipeline.launchCred_add (fun d => rcvT d j) (fun d => sigT d j) c]
    exact BIClass.sep_mono (Pipeline.launchCred_tallyAt (.dma (rcvS j)) (fwd j) (bwd j) (fwd_bwd j) (bwd_fwd j) () N c)
      (Pipeline.launchCred_tallyAt (.reg barS) (fwd j) (bwd j) (fwd_bwd j) (bwd_fwd j) () 1 c)
  have hfin : iprop((bigSep Finset.univ fun j : Fin 7 => cred (tallyAt (rcvCell c j) () N)) ∗ cred (tallyAt (barCell c) () 7))
      ⊢ (creds c : sProp 𝕄) := by
    unfold creds
    iintro ⟨H1, H2⟩
    isplitl [H2] <;> iassumption
  refine (bigSep_mono fun j _ => hj j).trans ?_
  rw [bigSep_sep', ← Pipeline.cred_finsetSum Finset.univ (fun _ : Fin 7 => (tallyAt (barCell c) () 1 : CellTallies nD τ sig Unit)), seven_units]
  exact hfin

/-! ### The levels -/

/-- A wait on a staging semaphore sits below everything a device ever owes: barrier cells and receive cells. -/
theorem mayWait_stage (c : Dev nD) (q : DmaSem sig) (hq : q.val < 3) (O : CellTallies nD τ sig Unit) (hO : O = O₀ c ∨ O = O₁ c ∨ O = 0) :
    (levAts L lv : sProp 𝕄) ⊢ MayWait (c : Thread nD τ) (.dma q) () O := by
  rcases hO with rfl | rfl | rfl
  · refine Pipeline.mayWait_of_levAts (by rw [L_tc]; exact Finset.mem_singleton_self _) fun g u hg => ?_
    rcases Osig_pos (c := c) (k := 0) hg with ⟨j, rfl⟩ | ⟨j, rfl⟩
    · exact ⟨by rw [L_tc]; exact Finset.mem_singleton_self _, by rw [lv_stage c q hq, lv_rcv]; decide⟩
    · exact ⟨by rw [L_tc]; exact Finset.mem_singleton_self _, by rw [lv_stage c q hq, lv_bar]; decide⟩
  · refine Pipeline.mayWait_of_levAts (by rw [L_tc]; exact Finset.mem_singleton_self _) fun g u hg => ?_
    rcases Orcv_pos (c := c) (k := 0) hg with ⟨j, rfl⟩
    exact ⟨by rw [L_tc]; exact Finset.mem_singleton_self _, by rw [lv_stage c q hq, lv_rcv]; decide⟩
  · rw [MayWait_zero]; iintro -; iempintro

theorem waits (m : (ℓ : Loc nD τ sig) → Buf (Elt F) ℓ) (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _ | _, ht⟩
      · exact Or.inl rfl
      · exact Or.inr (Or.inl rfl)
      · exact Or.inr (Or.inr rfl))

/-! ### The theorem's side conditions -/

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ0 m c from rfl, scopedRest0_eq]
  unfold Φ0 accPts tabPts
  iintro ⟨Hs, -, ⟨%f, Ha⟩, ⟨%g, Ht⟩⟩
  isplitl [Hs]; · iexact Hs
  isplitl [Ha]
  · iexists f; iexact Ha
  · iexists g; iexact Ht

theorem phi2_exit (m : (ℓ : Loc nD τ sig) → Buf (Elt F) ℓ) (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ2 c from rfl, scopedRest0_eq, ownSems0_eq]
  unfold Φ2 accPts tabPts
  iintro ⟨Ha, Ht, HS, HR⟩
  isplitr; · iempintro
  isplitl [HS HR]
  · isplitl [HS] <;> iassumption
  isplitl [Ha] <;> iassumption

/-! ### The run -/

set_option maxRecDepth 16384 in
/-- At the compiled mesh of eight devices, for any float values, from any memory with every counter at zero: every weakly
    fair execution of @main — the eight kernels handshaking on the barrier semaphore, then each writing its row into every
    peer's table — terminates, and every final state has each device's arrays at the proof data's final contents. -/
theorem run_main (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi2_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Coll.run_main' depends on axioms: [propext, Classical.choice, Quot.sound] -/
#guard_msgs in #print axioms run_main

end Cert.Kernel.Coll

end
-- ==== Proof.Bits.Oblig.lean ====
/- From the two bodies to the pipeline's obligation at both grid points: which staging buffers the pipeline
   hands the body at each point, and what it expects back. -/
import proofs.«900919_g7700000000000920_dist_max_ax0_shard0_i_m2048_n1024_v7x_i8_f32_1_alg».proof.Proof.Bits.Vals
import proofs.«900919_g7700000000000920_dist_max_ax0_shard0_i_m2048_n1024_v7x_i8_f32_1_alg».proof.Proof.Gen.Kernel.Launch
import proofs.«900919_g7700000000000920_dist_max_ax0_shard0_i_m2048_n1024_v7x_i8_f32_1_alg».proof.Proof.Gen.Kernel.Points
import Idealize.ShloMosaic.Lib.Pipeline.Launch
import Idealize.ShloMosaic.Lib.Pipeline.Kit
import Idealize.ShloMosaic.Lib.Tactic
import proofs.«900919_g7700000000000920_dist_max_ax0_shard0_i_m2048_n1024_v7x_i8_f32_1_alg».proof.Proof.Bits.Proto
set_option maxRecDepth 16384

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The input alternates between its two staging buffers; the result has one. -/
theorem slots_t0_0 : cfg0.slots t0_0 0 = ⟨0, by decide⟩ := by decide
theorem slots_t1_0 : cfg0.slots t0_1 0 = ⟨1, by decide⟩ := by decide
theorem slots_t0_1 : cfg0.slots t0_0 1 = ⟨0, by decide⟩ := by decide
theorem slots_t1_1 : cfg0.slots t0_1 1 = ⟨0, by decide⟩ := by decide
/-- The result's staging buffer is untouched at the first point and written back after the second. -/
theorem idle_t0 : idle0 1 (grid0.coords t0_0) = true := by decide
theorem idle_t1 : idle0 1 (grid0.coords t0_1) = false := by decide
theorem flush_t0 : (win0 1).flush t0_0 = false := by decide
theorem fetch1_t0 : (cfg0.win 1).fetch t0_0 = false := by decide
theorem fetch1_t1 : (cfg0.win 1).fetch t0_1 = false := by decide

/-- The input's current staging buffer holds the block of the point, at both points. -/
theorem before0 (m : (ℓ : Loc nD τ sig) → Buf (Elt F) ℓ) (c : Dev nD) (t : Fin cfg0.N) (d) : (dats m 0 c).before 0 t d = Gen.iblk m c 0 t :=
  ((dats m 0 c).before_in_eq_fetched 0 rfl (fun _ => rfl) (fun _ _ _ => rfl) (fun t => by
      show Gen.iblk m c 0 t = _; unfold Dat.blockOf Gen.iblk; rfl) t d).trans
    (by unfold Dat.fetched Dat.blockOf Gen.iblk; rfl)

/-- The result's staging buffer holds whatever it held, at both points. -/
theorem before1_t0 (m : (ℓ : Loc nD τ sig) → Buf (Elt F) ℓ) (c : Dev nD) (d) : (dats m 0 c).before 1 t0_0 d = d := by
  unfold Dat.before; rw [fetch1_t0]; rfl
theorem before1_t1 (m : (ℓ : Loc nD τ sig) → Buf (Elt F) ℓ) (c : Dev nD) (d) : (dats m 0 c).before 1 t0_1 d = d := by
  rw [(dats m 0 c).before_of_pos 1 t0_1 (by decide) fetch1_t1 d, if_neg (by decide)]
  show (dats m 0 c).left 1 t0_0 d = d
  unfold Dat.left
  have h : cfg0.idle 1 (cfg0.grid.coords t0_0) = true := by decide
  simp only [h]
  exact before1_t0 m c d

/-- The pipeline's body obligation on device `c`, from the two points' bodies. -/
theorem body_obligation (m : (ℓ : Loc nD τ sig) → Buf (Elt F) ℓ)
    (hb0 : ∀ (K : Dev nD × Fin 15 → ℕ) (c : Dev nD) (W : Waits sig Unit) (g1 : Buf (Elt F) ((c : Thread nD τ).loc cc0_stg1_0)) (Kt : PUnit → sProp 𝕄),
      iprop(pre0 m K c W g1 ∗ (post0 m c g1 -∗ Kt ⟨⟩)) ⊢ wp frame (wpE (defs₀ (F := F)) 𝒱₀ c none) Set.univ (prog0 (F := F)) Kt)
    (hb1 : ∀ (K : Dev nD × Fin 15 → ℕ) (c : Dev nD) (W : Waits sig Unit) (g1 : Buf (Elt F) ((c : Thread nD τ).loc cc0_stg1_0)) (Kt : PUnit → sProp 𝕄),
      iprop(pre1 m K c W g1 ∗ (post1 m c -∗ Kt ⟨⟩)) ⊢ wp frame (wpE (defs₀ (F := F)) 𝒱₀ c none) Set.univ (prog1 (F := F)) Kt)
    (c : Dev nD) : BodyObligation (dats (F := F) m 0 c) (defs₀ (F := F)) 𝒱₀ () Set.univ := fun t => by
  rcases fin_N0 t with rfl | rfl
  · rw [bigSep_W0, bigSep_W0]
    show iprop(Φ0 m c ∗ (dats m 0 c).owesAt () t0_0.castSucc
        ∗ (∃ d, owns (c : Thread nD τ) (Memref.whole cc0_stg0_0) fullShare ((dats m 0 c).before 0 t0_0 d))
        ∗ ∃ d, owns (c : Thread nD τ) (Memref.whole cc0_stg1_0) fullShare ((dats m 0 c).before 1 t0_0 d))
      ⊢ wp frame (wpE (defs₀ (F := F)) 𝒱₀ c none) Set.univ (prog0 (F := F)) (fun _ =>
          iprop(Φ1 m c ∗ (dats m 0 c).owesAt () t0_0.succ
            ∗ owns (c : Thread nD τ) (Memref.whole cc0_stg0_0) fullShare (Gen.iblk m c 0 t0_0)
            ∗ ∃ d, owns (c : Thread nD τ) (Memref.whole cc0_stg1_0) fullShare ((dats m 0 c).before 1 t0_0 d)))
    simp only [owns_whole_eq, before0, before1_t0]
    unfold Φ0 start Dat.owesAt Pipeline.owesWithin
    rw [show (dats m 0 c).owed t0_0.castSucc = O₀ c from rfl, show (dats m 0 c).owed t0_0.succ = O₁ c from rfl]
    iintro ⟨⟨⟨⟨%K, #Hrec, Hlin⟩, Hcr, #Hlev⟩, Hacc, Htab⟩, ⟨%W, %hW, HO⟩, ⟨%d0, %g0, %hg0, Hx⟩, ⟨%d1, %g1, %hg1, Hout⟩⟩
    subst hg0; subst hg1
    iapply (hb0 K c W g1 _)
    isplitl
    · unfold pre0
      isplitr; · iexact Hrec
      isplitl [Hlin]; · iexact Hlin
      isplitl [Hcr]; · iexact Hcr
      isplitr; · iexact Hlev
      isplitl [Hacc]; · iexact Hacc
      isplitl [Htab]; · iexact Htab
      isplitl [HO]; · iexact HO
      isplitl [Hx]; · iexact Hx
      iexact Hout
    · unfold post0 Φ1
      iintro ⟨Hlin, Hcr, Hacc, Hrow, ⟨%W', HO⟩, Hx, Hout⟩
      isplitl [Hlin Hcr Hacc Hrow]
      · isplitl [Hlin]
        · iexists K; isplitr; · iexact Hrec
          iexact Hlin
        isplitl [Hcr]; · iexact Hcr
        isplitr; · iexact Hlev
        isplitl [Hacc]; · iexact Hacc
        iexact Hrow
      isplitl [HO]
      · iexists W'; isplitr; · ipureintro; exact fun _ _ => Or.inl trivial
        iexact HO
      isplitl [Hx]
      · iexists _; isplitr; · (ipureintro; rfl)
        iexact Hx
      iexists g1; iexists _; isplitr; · (ipureintro; rfl)
      iexact Hout
  · rw [bigSep_W0, bigSep_W0]
    show iprop(Φ1 m c ∗ (dats m 0 c).owesAt () t0_1.castSucc
        ∗ (∃ d, owns (c : Thread nD τ) (Memref.whole cc0_stg0_1) fullShare ((dats m 0 c).before 0 t0_1 d))
        ∗ ∃ d, owns (c : Thread nD τ) (Memref.whole cc0_stg1_0) fullShare ((dats m 0 c).before 1 t0_1 d))
      ⊢ wp frame (wpE (defs₀ (F := F)) 𝒱₀ c none) Set.univ (prog1 (F := F)) (fun _ =>
          iprop(Φ2 c ∗ (dats m 0 c).owesAt () t0_1.succ
            ∗ owns (c : Thread nD τ) (Memref.whole cc0_stg0_1) fullShare (Gen.iblk m c 0 t0_1)
            ∗ owns (c : Thread nD τ) (Memref.whole cc0_stg1_0) fullShare (outV m)))
    simp only [owns_whole_eq, before0, before1_t1]
    unfold Φ1 Dat.owesAt Pipeline.owesWithin
    rw [show (dats m 0 c).owed t0_1.castSucc = O₁ c from rfl, show (dats m 0 c).owed t0_1.succ = 0 from rfl]
    iintro ⟨⟨⟨%K, #Hrec, Hlin⟩, Hcr, #Hlev, Hacc, Hrow⟩, ⟨%W, %hW, HO⟩, ⟨%d0, %g0, %hg0, Hx⟩, ⟨%d1, %g1, %hg1, Hout⟩⟩
    subst hg0; subst hg1
    iapply (hb1 K c W g1 _)
    isplitl
    · unfold pre1
      isplitr; · iexact Hrec
      isplitl [Hlin]; · iexact Hlin
      isplitl [Hcr]; · iexact Hcr
      isplitr; · iexact Hlev
      isplitl [Hacc]; · iexact Hacc
      isplitl [Hrow]; · iexact Hrow
      isplitl [HO]; · iexact HO
      isplitl [Hx]; · iexact Hx
      iexact Hout
    · unfold post1
      iintro ⟨HΦ, ⟨%W', HO⟩, Hx, Hout⟩
      isplitl [HΦ]; · iexact HΦ
      isplitl [HO]
      · iexists W'; isplitr; · ipureintro; exact fun _ _ => Or.inl trivial
        iexact HO
      isplitl [Hx]
      · iexists _; isplitr; · (ipureintro; rfl)
        iexact Hx
      iexists _; isplitr; · (ipureintro; rfl)
      iexact Hout

end Cert.Kernel.Coll

end
-- ==== Proof.Bits.Rows.lean ====
/- The rows of the gathered table: the [8,1024] scratch buffer held row by row and share by share.

   Row `r` of the table is the set of elements whose first coordinate is `r`; the eight rows are pairwise
   disjoint and cover the buffer, so the table's points-to is the product of its rows' points-tos; and a
   product over the eight devices splits into the factor at one device and the product over its seven peers. -/
import proofs.«900919_g7700000000000920_dist_max_ax0_shard0_i_m2048_n1024_v7x_i8_f32_1_alg».proof.Proof.Bits.Proto
import Idealize.ShloMosaic.Rules.PointsTo
import Idealize.ShloMosaic.Lib.Pipeline.Value

set_option maxRecDepth 16384

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- An element of the table's buffer lies in row `r`, as the kernel slices it, exactly when its first coordinate is `r`. -/
theorem mem_row_iff (c r : Dev nD) (i : Idx ((rowM r).view.loc (c : Thread nD τ))) :
    i ∈ (rowM r).view.set ↔ (i 0).val = r.val := by
  rw [View.set_slice_whole, Rect.mem_set_unit, k0_off2_eq r]
  have e0 : (![r.val, 0] : Fin 2 → ℕ) 0 = r.val := rfl
  have e1 : (![r.val, 0] : Fin 2 → ℕ) 1 = 0 := rfl
  have s0 : S1x1024.size (0 : Fin 2) = 1 := rfl
  have s1 : S1x1024.size (1 : Fin 2) = 1024 := rfl
  have b1 : ((i (1 : Fin 2) : Fin 1024) : ℕ) < 1024 := (i (1 : Fin 2)).isLt
  constructor
  · intro h
    have h0 := h (0 : Fin 2)
    rw [e0, s0] at h0
    omega
  · intro h
    refine Fin.forall_fin_two.mpr ⟨?_, ?_⟩
    · rw [e0, s0]; omega
    · rw [e1, s1]; omega

/-- Two different rows of the table share no element. -/
theorem rows_disjoint (c r r' : Dev nD) (h : r ≠ r') :
    Disjoint ((rowM r).view.set : Finset (Idx ((c : Thread nD τ).loc cc0_scratch1))) (rowM r').view.set := by
  rw [Finset.disjoint_left]
  intro i hi hi'
  rw [mem_row_iff c r] at hi
  rw [mem_row_iff c r'] at hi'
  exact h (Fin.ext (hi.symm.trans hi'))

/-- Every element of the table lies in the row its first coordinate names. -/
theorem rows_cover (c : Dev nD) :
    (Finset.univ : Finset (Idx ((c : Thread nD τ).loc cc0_scratch1)))
      = Finset.univ.biUnion fun r : Dev nD => (rowM r).view.set := by
  ext i
  simp only [Finset.mem_univ, Finset.mem_biUnion, true_and, true_iff]
  exact ⟨⟨(i 0).val, (i 0).isLt⟩, (mem_row_iff c ⟨(i 0).val, (i 0).isLt⟩ i).mpr rfl⟩

/-- The table held whole is its eight rows held one by one, at any share and any contents. -/
theorem tab_rows (q : PosShare TreeShare) (c : Dev nD) (f : Buf (Elt F) ((c : Thread nD τ).loc cc0_scratch1)) :
    (tabPts q c f : sProp 𝕄) = bigSep Finset.univ fun r : Dev nD => rowPts q c r f := by
  unfold tabPts rowPts
  rw [rows_cover c]
  exact pointsTo_biUnion Finset.univ _ fun r _ r' _ h => rows_disjoint c r r' h

/-- A row's points-to depends on the contents only through the row's own elements. -/
theorem row_congr (q : PosShare TreeShare) (c r : Dev nD) (f g : Buf (Elt F) ((rowM r).view.loc (c : Thread nD τ)))
    (h : ∀ i ∈ (rowM r).view.set, f i = g i) : (rowPts q c r f : sProp 𝕄) = rowPts q c r g := by
  unfold rowPts; exact pointsTo_congr h

theorem bwd_inj_left (c : Dev nD) : Function.Injective fun j : Fin 7 => bwd j c := by revert c; decide

/-- The seven devices ahead of `c` are exactly the devices other than `c`. -/
theorem erase_eq_image_fwd (c : Dev nD) :
    (Finset.univ : Finset (Dev nD)).erase c = Finset.univ.image fun j : Fin 7 => fwd j c := by revert c; decide
/-- So are the seven devices behind it. -/
theorem erase_eq_image_bwd (c : Dev nD) :
    (Finset.univ : Finset (Dev nD)).erase c = Finset.univ.image fun j : Fin 7 => bwd j c := by revert c; decide

/-- A product over the eight devices is the factor at `c` times the product over `c`'s seven peers ahead. -/
theorem bigSep_dev_fwd (c : Dev nD) {M : Type} [URA M] (Φ : Dev nD → sProp M) :
    bigSep Finset.univ Φ = iprop(Φ c ∗ bigSep Finset.univ fun j : Fin 7 => Φ (fwd j c)) := by
  rw [bigSep_univ_at Φ c, erase_eq_image_fwd c, bigSep_image_of_injOn ((fwd_inj_left c).injOn) Φ]

/-- The same over the seven peers behind. -/
theorem bigSep_dev_bwd (c : Dev nD) {M : Type} [URA M] (Φ : Dev nD → sProp M) :
    bigSep Finset.univ Φ = iprop(Φ c ∗ bigSep Finset.univ fun j : Fin 7 => Φ (bwd j c)) := by
  rw [bigSep_univ_at Φ c, erase_eq_image_bwd c, bigSep_image_of_injOn ((bwd_inj_left c).injOn) Φ]

/-- info: 'Cert.Kernel.Coll.mem_row_iff' depends on axioms: [propext, Classical.choice, Quot.sound] -/
#guard_msgs in #print axioms mem_row_iff

/-- info: 'Cert.Kernel.Coll.tab_rows' depends on axioms: [propext, Classical.choice, Quot.sound] -/
#guard_msgs in #print axioms tab_rows

/-- info: 'Cert.Kernel.Coll.row_congr' depends on axioms: [propext, Classical.choice, Quot.sound] -/
#guard_msgs in #print axioms row_congr

/-- info: 'Cert.Kernel.Coll.bigSep_dev_fwd' depends on axioms: [propext, Classical.choice, Quot.sound] -/
#guard_msgs in #print axioms bigSep_dev_fwd

/-- info: 'Cert.Kernel.Coll.bigSep_dev_bwd' depends on axioms: [propext, Classical.choice, Quot.sound] -/
#guard_msgs in #print axioms bigSep_dev_bwd

end Cert.Kernel.Coll

end
-- ==== Proof.Bits.Body0.lean ====
/- The body of the all-gather-max kernel at the FIRST grid point, on a symbolic device `c` of the ring of eight.

   At this point the body tells each of the seven devices ahead of `c` that `c` has entered — one unit on that
   device's barrier semaphore — and with each unit hands over that device's row of `c`'s own table, for the device
   to write its contribution into later. It then reads the first staged block of `c`'s rows and stores the block's
   column maxima into the accumulator. Nothing else runs: the accumulate branch and the exchange branch are
   those of the second point. -/
import proofs.«900919_g7700000000000920_dist_max_ax0_shard0_i_m2048_n1024_v7x_i8_f32_1_alg».proof.Proof.Bits.Proto
import proofs.«900919_g7700000000000920_dist_max_ax0_shard0_i_m2048_n1024_v7x_i8_f32_1_alg».proof.Proof.Bits.Rows
import proofs.«900919_g7700000000000920_dist_max_ax0_shard0_i_m2048_n1024_v7x_i8_f32_1_alg».proof.Proof.Gen.Kernel.Skeleton
import Idealize.ShloMosaic.Lib.Writes

set_option maxRecDepth 16384

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One signal of the seven -/

/-- The `j`-th signal: one unit to the barrier cell of the device `j + 1` places ahead (`n`, which is `fwd j c`). It pays
    duty `j.rev` of that cell — the addressed device sees this one `7 - j` ahead of itself — with that device's row of
    this device's own table and the fact that this device's receive cell `j.rev` is open; the unit comes off what
    this device owes. -/
theorem wp_signal_j (m : (ℓ : Loc nD τ sig) → Buf (Elt F) ℓ) (K : Dev nD × Fin 15 → ℕ) (c n : Dev nD) (j : Fin 7) (hn : n = fwd j c)
    {α : Type} {Q : α → sProp 𝕄} {k : PUnit → Prog (TpuEff nD τ sig (Elt F) Λ₀ .tc) α}
    (O₀ O : CellTallies nD τ sig Unit) (hO : O₀ = O + sigT c j) (W : Waits sig Unit)
    (f : Buf (Elt F) ((rowM (fwd j c)).view.loc (c : Thread nD τ))) :
    iprop(records m K ∗ owes (c : Thread nD τ) O₀ W ∗ dutyTok ER (barCell (fwd j c)) 0 j.rev ∗ rowPts fullShare c (fwd j c) f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS 1) k) Q) := by
  subst hn
  have h := Rounds.wp_signal 𝒱₀ ER (sched m) (c : Thread nD τ) none (defs := defs₀ (F := F)) (Γ := PendingWaitsCtx.empty) (dst := (fwd j c : Thread nD τ)) (sem := barS)
    (r := 0) (d := j.rev) (k' := 1) (k := k) (κ := K (fwd j c, 0)) (Q := Q)
    (by rw [duties_bar]; exact Finset.mem_univ _) (amount_bar m (fwd j c) j.rev) () O hO (W := W) (Es := Set.univ)
  rw [payload_bar] at h; unfold barPay at h; rw [fwd_rev_fwd] at h
  iintro ⟨#HR, HO, Htok, Hrow⟩
  iapply h
  isplitr
  · iapply (inv_at m K (fwd j c, 0)); iexact HR
  isplitl [HO]; · iexact HO
  isplitl [Htok]; · iexact Htok
  isplitl [Hrow]
  · isplitl [Hrow]
    · iexists f; iexact Hrow
    · iapply (show records m K ⊢ reached ER (rcvCell c j.rev) 0 from by
        have h := reached_at m K (c, rIx j.rev); rwa [kcell_rcv] at h)
      iexact HR
  · iapply (reached_at m K (fwd j c, 0)); iexact HR

namespace B0

/-! ## The four conditions at the first grid point

The grid coordinate is 0 there: the entry branch and the "first point" branch are taken, the "later point" branch
and the exchange branch are not. -/

theorem cond1_t0 : k0_cond1 (grid0.coords t0_0) = 1#1 := by decide
theorem cond2_t0 : Scalar.cmpi CmpIPredicate.ne
    (Scalar.extui (Scalar.cmpi CmpIPredicate.eq (BitVec.ofNat 32 ↑(grid0.coords t0_0 0)) 0#32)) 0#32 = 1#1 := by decide
theorem cond3_t0 : ¬ Scalar.cmpi CmpIPredicate.ne
    (Scalar.extui (Scalar.cmpi CmpIPredicate.sgt (BitVec.ofNat 32 ↑(grid0.coords t0_0 0)) 0#32)) 0#32 = 1#1 := by decide
theorem cond4_t0 : ¬ k0_cond4 (grid0.coords t0_0) = 1#1 := by decide

/-- The amount of each signal: the word 1 denotes one unit. -/
theorem one_toNat : (1#32 : BitVec 32).toNat = 1 := rfl

/-! ## The table, cut for the seven signals -/

/-- The whole table is the device's own row and the rows of the seven devices ahead of it. -/
theorem tab_split (c : Dev nD) (f : Buf (Elt F) ((c : Thread nD τ).loc cc0_scratch1)) :
    tabPts (F := F) fullShare c f
      = iprop(rowPts fullShare c c f ∗ rowPts fullShare c (fwd 0 c) f ∗ rowPts fullShare c (fwd 1 c) f ∗ rowPts fullShare c (fwd 2 c) f
          ∗ rowPts fullShare c (fwd 3 c) f ∗ rowPts fullShare c (fwd 4 c) f ∗ rowPts fullShare c (fwd 5 c) f ∗ rowPts fullShare c (fwd 6 c) f) := by
  rw [tab_rows, bigSep_dev_fwd c, bigSep_fin7]

/-! ## The accumulator after the first point -/

/-- The whole block and the whole accumulator, as the kernel's constant-zero indices address them. -/
abbrev rBlk : Rect S1024x1024 := Rect.unit (s := S1024x1024) ![0, 0] S1024x1024.size inb_S1024x1024_S1024x1024_0_0
abbrev rAcc : Rect S1x1024 := Rect.unit (s := S1x1024) ![0, 0] S1x1024.size inb_S1x1024_S1x1024_0_0

omit [FloatOps F] in
theorem zeros2 : (![0, 0] : Fin 2 → Nat) = fun _ => 0 := funext fun a => by fin_cases a <;> rfl

omit [FloatOps F] in
/-- Reading the whole staged block reads its contents. -/
theorem read_blk (f : (cc0_stg0_0 : Ref sig .tc).ty.Contents (Elt F)) :
    (Memref.whole cc0_stg0_0 : Memref sig .tc .vmem S1024x1024 .f32).view.readAt (Elt F) rBlk.toLoadRect f = f :=
  Memref.readAt_unit_zero (Elt F) cc0_stg0_0 zeros2 _ f

omit [FloatOps F] in
/-- Writing the whole accumulator leaves what is written. -/
theorem write_acc (f w : (cc0_scratch0 : Ref sig .tc).ty.Contents (Elt F)) :
    ((Memref.whole cc0_scratch0 : Memref sig .tc .vmem S1x1024 .f32).access rAcc : View sig .tc _ _ _).write (Elt F) f w Finset.univ = w :=
  Memref.write_access_unit_zero_univ (Elt F) cc0_scratch0 zeros2 _ f w

/-- One store of the block's column maxima over whatever the accumulator held leaves exactly those maxima. -/
theorem acc_value (m : (ℓ : Loc nD τ sig) → Buf (Elt F) ℓ) (c : Dev nD) (fa : Buf (Elt F) ((c : Thread nD τ).loc cc0_scratch0)) :
    (Memref.whole cc0_scratch0 : Memref sig .tc .vmem S1x1024 .f32).view.writes (Elt F) fa
        [⟨rAcc, k0_pay2 ((Memref.whole cc0_stg0_0 : Memref sig .tc .vmem S1024x1024 .f32).view.readAt (Elt F) rBlk.toLoadRect (xblk m c t0_0))⟩]
      = acc0 m c := by
  rw [read_blk, View.writes_singleton]; unfold acc0
  exact write_acc fa (k0_pay2 (xblk m c t0_0))

end B0

open B0

/-! ## The body -/

set_option backward.isDefEq.respectTransparency.types false in
/-- The body at the first grid point, on device `c`. From everything dealt at launch — the records of all cells, the
    device's positions and duty tokens, its credit, both scratch buffers at whatever they hold, the first block
    staged, the result's staging buffer at `g1` — it reaches: the seven units paid (what is still owed is the seven
    transfers' credit), the seven peers' rows of the table given away with them and the own row kept, the
    accumulator at the first block's column maxima, the two staging buffers as they were. -/
theorem sound_body0 (m : (ℓ : Loc nD τ sig) → Buf (Elt F) ℓ) (K : Dev nD × Fin 15 → ℕ) (c : Dev nD) (W : Waits sig Unit)
    (g1 : Buf (Elt F) ((c : Thread nD τ).loc cc0_stg1_0)) (Kt : PUnit → sProp 𝕄) :
    iprop(pre0 m K c W g1 ∗ (post0 m c g1 -∗ Kt ⟨⟩))
      ⊢ wp frame (wpE (defs₀ (F := F)) 𝒱₀ c none) Set.univ (prog0 (F := F)) Kt := by
  -- the program at this point: the entry branch and the first-point branch, straight-line
  unfold prog0
  rw [cc0_body_eq_skeleton]; unfold cc0_body_skel
  simp only [cond1_t0, cond2_t0, cond3_t0, cond4_t0, ↓reduceDIte]
  rw [k0_part1_eq_skeleton]; unfold k0_part1_skel
  simp only [semSignalWord, Prog.lift, Prog.bind_op, Prog.bind_ret, Prog.pure_eq_ret, wp_deviceId, one_toNat]
  -- what the device holds: the table cut into its eight rows, the seven signal tokens one by one
  unfold pre0 linear sigToks O₀ accPts
  simp only [tab_split, bigSep_fin7]
  iintro ⟨⟨#HR, ⟨Hpos, ⟨Hs0, Hs1, Hs2, Hs3, Hs4, Hs5, Hs6⟩, Hx⟩, Hcr, -, ⟨%fa, Hacc⟩, ⟨%ft, Hrc, Hr0, Hr1, Hr2, Hr3, Hr4, Hr5, Hr6⟩, HO, Hi, Ho⟩, Hpost⟩
  -- the seven signals: the `j`-th goes to the device `j + 1` ahead with that device's row, and peels the last
  -- summand off what is owed
  iapply (wp_signal_j m K c _ 0 (dev1_eq (grid0.coords t0_0) c cond1_t0) (Osig c 0) (Osig c 1) rfl W ft) $$ [HO Hs0 Hr0]
  · isplitr; · iexact HR
    iframe
  iintro HO
  iapply (wp_signal_j m K c _ 1 (dev2_eq (grid0.coords t0_0) c cond1_t0) (Osig c 1) (Osig c 2) rfl W ft) $$ [HO Hs1 Hr1]
  · isplitr; · iexact HR
    iframe
  iintro HO
  iapply (wp_signal_j m K c _ 2 (dev3_eq (grid0.coords t0_0) c cond1_t0) (Osig c 2) (Osig c 3) rfl W ft) $$ [HO Hs2 Hr2]
  · isplitr; · iexact HR
    iframe
  iintro HO
  iapply (wp_signal_j m K c _ 3 (dev4_eq (grid0.coords t0_0) c cond1_t0) (Osig c 3) (Osig c 4) rfl W ft) $$ [HO Hs3 Hr3]
  · isplitr; · iexact HR
    iframe
  iintro HO
  iapply (wp_signal_j m K c _ 4 (dev5_eq (grid0.coords t0_0) c cond1_t0) (Osig c 4) (Osig c 5) rfl W ft) $$ [HO Hs4 Hr4]
  · isplitr; · iexact HR
    iframe
  iintro HO
  iapply (wp_signal_j m K c _ 5 (dev6_eq (grid0.coords t0_0) c cond1_t0) (Osig c 5) (Osig c 6) rfl W ft) $$ [HO Hs5 Hr5]
  · isplitr; · iexact HR
    iframe
  iintro HO
  iapply (wp_signal_j m K c _ 6 (dev7_eq (grid0.coords t0_0) c cond1_t0) (Osig c 6) (Osig c 7) rfl W ft) $$ [HO Hs6 Hr6]
  · isplitr; · iexact HR
    iframe
  iintro HO
  -- the block is read, the accumulator read and then overwritten with the block's column maxima
  ihave Hi' : (((Memref.whole cc0_stg0_0 : Memref sig .tc .vmem S1024x1024 .f32).view.loc (c : Thread nD τ)) ↦{fullShare} (xblk m c t0_0)) $$ [Hi]
  · iexact Hi
  ihave Hacc' : (((Memref.whole cc0_scratch0 : Memref sig .tc .vmem S1x1024 .f32).view.loc (c : Thread nD τ)) ↦{fullShare} fa) $$ [Hacc]
  · iexact Hacc
  sl_exec
  sl_step
  -- what is left is the post: positions and transfer tokens untouched, the credit, the accumulator at the maxima,
  -- the own row, the seven transfers' credit still owed, the two staging buffers
  iapply Hpost
  unfold post0 linear1 accPts
  isplitl [Hpos Hx]; · iframe
  isplitl [Hcr]; · iexact Hcr
  isplitl [Hacc']
  · rw [← acc_value m c fa]; iexact Hacc'
  isplitl [Hrc]; · iexists ft; iexact Hrc
  isplitl [HO]; · iexists W; iexact HO
  isplitl [Hi']; · iexact Hi'
  iexact Ho

/-- info: 'Cert.Kernel.Coll.sound_body0' depends on axioms: [propext, Classical.choice, Quot.sound] -/
#guard_msgs in #print axioms sound_body0

end Cert.Kernel.Coll

end
-- ==== Proof.Bits.Rows2.lean ====
/- The rows of the gathered table, continued: the store and the load of a device's own row, what a landed
   transfer leaves in the destination's row, and the shares a row is held at.

   The kernel stores and loads its own row through a rectangle whose offsets are the same pair as the row
   slice's, so both touch exactly that row; a transfer writes, element by element, what it read at the same
   place; and a row held whole is its left half with seven shares cut from its right half. -/
import proofs.«900919_g7700000000000920_dist_max_ax0_shard0_i_m2048_n1024_v7x_i8_f32_1_alg».proof.Proof.Bits.Rows
import Idealize.ShloMosaic.Lib.ValueIdx
import Idealize.ShloMosaic.Rules.PointsTo
import Idealize.ShloMosaic.Lib.Pipeline.Value

set_option maxRecDepth 16384

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The rectangle the kernel stores its own row through, and loads it back through. -/
abbrev rS (c : Dev nD) : Rect S8x1024 :=
  Rect.unit (s := S8x1024) (k0_off1 c) S1x1024.size (k0_off1_inb (grid0.coords t0_1) c (by decide))

/-- That rectangle is row `c`: the store's offsets and the slice's offsets are the same pair. -/
theorem rS_eq (c : Dev nD) : rS c = Rect.unit (s := S8x1024) (k0_off2 c) S1x1024.size (off2_inb c) :=
  Rect.unit_congr ((k0_off1_eq c).trans (k0_off2_eq c).symm) _ _

/-- The elements an access through it touches are row `c`'s. -/
theorem access_row_set (c : Dev nD) :
    ((tabM : Memref sig .tc .vmem S8x1024 .f32).access (rS c)).set = (rowM c).view.set := by
  rw [rS_eq c]

theorem store_row_sub (c : Dev nD) :
    ((tabM : Memref sig .tc .vmem S8x1024 .f32).access (rS c)).setOn Finset.univ ⊆ (rowM c).view.set := by
  rw [View.setOn_univ, access_row_set c]

theorem load_row_sub (c : Dev nD) :
    (tabM : Memref sig .tc .vmem S8x1024 .f32).view.setOn (rS c).toLoadRect.set ⊆ (rowM c).view.set := by
  rw [← access_row_set c]
  exact (View.set_slice (v := (tabM : Memref sig .tc .vmem S8x1024 .f32).view) (rS c)).symm.subset

/-- Where the store's view puts column `b` of the stored vector: at row `c`, column `b` of the table. -/
theorem access_emb (c : Dev nD) (i : Idx ((rowM c).view.loc (c : Thread nD τ))) (hi : (i 0).val = c.val) :
    ((tabM : Memref sig .tc .vmem S8x1024 .f32).access (rS c)).emb (ValueIdx.ix2 (0 : Fin 1) (i 1)) = i := by
  funext a
  apply Fin.ext
  match a with
  | ⟨0, _⟩ =>
    show k0_off1 c 0 + 1 * 0 = (i 0).val
    rw [k0_off1_eq c, hi]; rfl
  | ⟨1, _⟩ =>
    show k0_off1 c 1 + 1 * (i 1).val = (i 1).val
    rw [k0_off1_eq c]
    show 0 + 1 * (i 1).val = (i 1).val
    omega

/-- After the unmasked store of `w` through that rectangle, row `c` of the table holds `w`, column by column. -/
theorem store_row_apply (c : Dev nD) (f : Buf (Elt F) ((rowM c).view.loc (c : Thread nD τ))) (w : Vec F S1x1024 .f32) :
    ∀ i ∈ (rowM c).view.set,
      (((tabM : Memref sig .tc .vmem S8x1024 .f32).access (rS c)).write (Elt F) f w Finset.univ) i
        = w (ValueIdx.ix2 (0 : Fin 1) (i 1)) := by
  intro i hi
  rw [mem_row_iff c c i] at hi
  have h := View.write_emb_of_mem (v := ((tabM : Memref sig .tc .vmem S8x1024 .f32).access (rS c))) (Val := Elt F) f w
    (M := Finset.univ) (x := ValueIdx.ix2 (0 : Fin 1) (i 1)) (Finset.mem_univ _)
  rw [access_emb c i hi] at h
  exact h

/-- Storing the device's own contribution through that rectangle makes row `c` of its table the final table's row `c`. -/
theorem stored_row_eq (m : (ℓ : Loc nD τ sig) → Buf (Elt F) ℓ) (c : Dev nD)
    (f : Buf (Elt F) ((rowM c).view.loc (c : Thread nD τ))) :
    (rowPts fullShare c c
        (((tabM : Memref sig .tc .vmem S8x1024 .f32).access (rS c)).write (Elt F) f (rowV m c) Finset.univ) : sProp 𝕄)
      = rowPts fullShare c c (tabV m c) := by
  refine row_congr fullShare c c _ _ fun i hi => ?_
  rw [store_row_apply c f (rowV m c) i hi]
  rw [mem_row_iff c c i] at hi
  have hc : (⟨(i 0).val, (i 0).isLt⟩ : Dev nD) = c := Fin.ext hi
  show rowV m c (ValueIdx.ix2 (0 : Fin 1) (i 1)) = rowV m ⟨(i 0).val, (i 0).isLt⟩ (ValueIdx.ix2 (0 : Fin 1) (i 1))
  rw [hc]

/-- Where row `r`'s view puts its column `b`: at row `r`, column `b` of the table, on whichever device. -/
theorem row_emb (t r : Dev nD) (i : Idx ((rowM r).view.loc (t : Thread nD τ))) (hi : (i 0).val = r.val) :
    (rowM r).view.emb (ValueIdx.ix2 (0 : Fin 1) (i 1)) = i := by
  funext a
  apply Fin.ext
  match a with
  | ⟨0, _⟩ =>
    show k0_off2 r 0 + 1 * 0 = (i 0).val
    rw [k0_off2_eq r, hi]; rfl
  | ⟨1, _⟩ =>
    show k0_off2 r 1 + 1 * (i 1).val = (i 1).val
    rw [k0_off2_eq r]
    show 0 + 1 * (i 1).val = (i 1).val
    omega

/-- A transfer of row `r` out of a table with contents `g` lands, in row `r` of the destination table, exactly `g`'s
    row `r`: element by element the written value is the one read at the same place. -/
theorem landed_row_eq (c t r : Dev nD) (fd : Buf (Elt F) ((rowM r).view.loc (t : Thread nD τ)))
    (g : Buf (Elt F) ((rowM r).view.loc (c : Thread nD τ))) :
    (rowPts fullShare t r ((rowM r).view.write (Elt F) fd ((rowM r).view.read (Elt F) g) Finset.univ) : sProp 𝕄)
      = rowPts fullShare t r g := by
  refine row_congr fullShare t r _ _ fun i hi => ?_
  rw [mem_row_iff t r i] at hi
  have h := View.write_emb_of_mem (v := (rowM r).view) (Val := Elt F) fd ((rowM r).view.read (Elt F) g)
    (M := Finset.univ) (x := ValueIdx.ix2 (0 : Fin 1) (i 1)) (Finset.mem_univ _)
  rw [View.read_apply, row_emb t r i hi] at h
  exact h

/-- The final table is the same function on every device, so a row of it landing on `t` is `t`'s final row. -/
theorem landed_tab (m : (ℓ : Loc nD τ sig) → Buf (Elt F) ℓ) (c t r : Dev nD)
    (fd : Buf (Elt F) ((rowM r).view.loc (t : Thread nD τ))) :
    (rowPts fullShare t r ((rowM r).view.write (Elt F) fd ((rowM r).view.read (Elt F) (tabV m c)) Finset.univ) : sProp 𝕄)
      = rowPts fullShare t r (tabV m t) :=
  landed_row_eq c t r fd (tabV m c)

/-- A row at any share is its two half-shares. -/
theorem row_halves (q : PosShare TreeShare) (c r : Dev nD) (f : Buf (Elt F) ((rowM r).view.loc (c : Thread nD τ))) :
    (rowPts q c r f : sProp 𝕄) ⊣⊢ iprop(rowPts q.left c r f ∗ rowPts q.right c r f) := by
  unfold rowPts; exact pointsTo_share (PosShare.mem_left_op_right q)

/-- The same as an equation between assertions. -/
theorem row_halves_eq (q : PosShare TreeShare) (c r : Dev nD) (f : Buf (Elt F) ((rowM r).view.loc (c : Thread nD τ))) :
    (rowPts q c r f : sProp 𝕄) = iprop(rowPts q.left c r f ∗ rowPts q.right c r f) :=
  have h := row_halves q c r f
  BI.equiv_iff.mp ⟨h.1, h.2⟩

/-- Associativity of the separating conjunction, as an equation. -/
theorem sep_assoc_rows2 {M : Type} [URA M] (P Q R : sProp M) : iprop((P ∗ Q) ∗ R) = iprop(P ∗ Q ∗ R) :=
  have h : iprop((P ∗ Q) ∗ R) ⊣⊢ iprop(P ∗ Q ∗ R) := Idealize.SL.BI.Laws.sep_assoc
  BI.equiv_iff.mp ⟨h.1, h.2⟩

/-- The own row held whole is its left half, kept, and the seven shares of its right half, lent one to each transfer:
    the right half is halved three levels down, its last quarter left uncut. -/
theorem row_lend_eq (c : Dev nD) (f : Buf (Elt F) ((rowM c).view.loc (c : Thread nD τ))) :
    (rowPts fullShare c c f : sProp 𝕄)
      = iprop(rowPts fullShare.left c c f ∗ bigSep Finset.univ fun j : Fin 7 => rowPts (sh j) c c f) := by
  rw [bigSep_fin7,
    row_halves_eq fullShare c c f,
    row_halves_eq fullShare.right c c f,
    row_halves_eq fullShare.right.left c c f,
    row_halves_eq fullShare.right.right c c f,
    row_halves_eq fullShare.right.left.left c c f,
    row_halves_eq fullShare.right.left.right c c f,
    row_halves_eq fullShare.right.right.left c c f]
  simp only [sep_assoc_rows2]
  rfl

theorem row_lend (c : Dev nD) (f : Buf (Elt F) ((rowM c).view.loc (c : Thread nD τ))) :
    (rowPts fullShare c c f : sProp 𝕄)
      ⊣⊢ iprop(rowPts fullShare.left c c f ∗ bigSep Finset.univ fun j : Fin 7 => rowPts (sh j) c c f) :=
  .of_eq (row_lend_eq c f)

/-- The table at any share: the own row, and the rows of the seven devices behind. -/
theorem tab_at_bwd (q : PosShare TreeShare) (c : Dev nD) (f : Buf (Elt F) ((c : Thread nD τ).loc cc0_scratch1)) :
    (tabPts q c f : sProp 𝕄) = iprop(rowPts q c c f ∗ bigSep Finset.univ fun j : Fin 7 => rowPts q c (bwd j c) f) :=
  (tab_rows q c f).trans (bigSep_dev_bwd c fun r : Dev nD => (rowPts q c r f : sProp 𝕄))

/-- The same over the seven devices ahead. -/
theorem tab_at_fwd (q : PosShare TreeShare) (c : Dev nD) (f : Buf (Elt F) ((c : Thread nD τ).loc cc0_scratch1)) :
    (tabPts q c f : sProp 𝕄) = iprop(rowPts q c c f ∗ bigSep Finset.univ fun j : Fin 7 => rowPts q c (fwd j c) f) :=
  (tab_rows q c f).trans (bigSep_dev_fwd c fun r : Dev nD => (rowPts q c r f : sProp 𝕄))

/-- The kept halves of all eight rows make the table's left half. -/
theorem tab_left (c : Dev nD) (f : Buf (Elt F) ((c : Thread nD τ).loc cc0_scratch1)) :
    (iprop(rowPts fullShare.left c c f ∗ bigSep Finset.univ fun j : Fin 7 => rowPts fullShare.left c (bwd j c) f) : sProp 𝕄)
      ⊣⊢ tabPts fullShare.left c f :=
  .of_eq (tab_at_bwd fullShare.left c f).symm

/-- All eight rows whole make the table whole. -/
theorem tab_full (c : Dev nD) (f : Buf (Elt F) ((c : Thread nD τ).loc cc0_scratch1)) :
    (iprop(rowPts fullShare c c f ∗ bigSep Finset.univ fun j : Fin 7 => rowPts fullShare c (bwd j c) f) : sProp 𝕄)
      ⊣⊢ tabPts fullShare c f :=
  .of_eq (tab_at_bwd fullShare c f).symm

/-- info: 'Cert.Kernel.Coll.store_row_sub' depends on axioms: [propext, Classical.choice, Quot.sound] -/
#guard_msgs in #print axioms store_row_sub

/-- info: 'Cert.Kernel.Coll.load_row_sub' depends on axioms: [propext, Classical.choice, Quot.sound] -/
#guard_msgs in #print axioms load_row_sub

/-- info: 'Cert.Kernel.Coll.store_row_apply' depends on axioms: [propext, Classical.choice, Quot.sound] -/
#guard_msgs in #print axioms store_row_apply

/-- info: 'Cert.Kernel.Coll.stored_row_eq' depends on axioms: [propext, Classical.choice, Quot.sound] -/
#guard_msgs in #print axioms stored_row_eq

/-- info: 'Cert.Kernel.Coll.landed_row_eq' depends on axioms: [propext, Classical.choice, Quot.sound] -/
#guard_msgs in #print axioms landed_row_eq

/-- info: 'Cert.Kernel.Coll.landed_tab' depends on axioms: [propext, Classical.choice, Quot.sound] -/
#guard_msgs in #print axioms landed_tab

/-- info: 'Cert.Kernel.Coll.row_lend' depends on axioms: [propext, Classical.choice, Quot.sound] -/
#guard_msgs in #print axioms row_lend

/-- info: 'Cert.Kernel.Coll.row_halves' depends on axioms: [propext, Classical.choice, Quot.sound] -/
#guard_msgs in #print axioms row_halves

/-- info: 'Cert.Kernel.Coll.tab_left' depends on axioms: [propext, Classical.choice, Quot.sound] -/
#guard_msgs in #print axioms tab_left

/-- info: 'Cert.Kernel.Coll.tab_full' depends on axioms: [propext, Classical.choice, Quot.sound] -/
#guard_msgs in #print axioms tab_full

end Cert.Kernel.Coll

end
-- ==== Proof.Bits.Wrap1.lean ====
/- The remote steps of the second grid point, each as one rule over the protocol's names: the wait on the barrier
   semaphore, the `j`-th transfer, and the waits on the `j`-th receive and send semaphores. -/
import proofs.«900919_g7700000000000920_dist_max_ax0_shard0_i_m2048_n1024_v7x_i8_f32_1_alg».proof.Proof.Bits.Proto

set_option maxRecDepth 16384

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The printed semaphores and the printed row, by name -/

@[simp] theorem snd_sem0 : ((cc0_scratch2.slice (Rect.unit (s := S7) ![0] S1.size inb_S7_S1_0)).squeeze S_ squeezes_S1_S_).sem = sndS 0 := rfl
@[simp] theorem rcv_sem0 : ((cc0_scratch3.slice (Rect.unit (s := S7) ![0] S1.size inb_S7_S1_0)).squeeze S_ squeezes_S1_S_).sem = rcvS 0 := rfl
@[simp] theorem snd_sem1 : ((cc0_scratch2.slice (Rect.unit (s := S7) ![1] S1.size inb_S7_S1_1)).squeeze S_ squeezes_S1_S_).sem = sndS 1 := rfl
@[simp] theorem rcv_sem1 : ((cc0_scratch3.slice (Rect.unit (s := S7) ![1] S1.size inb_S7_S1_1)).squeeze S_ squeezes_S1_S_).sem = rcvS 1 := rfl
@[simp] theorem snd_sem2 : ((cc0_scratch2.slice (Rect.unit (s := S7) ![2] S1.size inb_S7_S1_2)).squeeze S_ squeezes_S1_S_).sem = sndS 2 := rfl
@[simp] theorem rcv_sem2 : ((cc0_scratch3.slice (Rect.unit (s := S7) ![2] S1.size inb_S7_S1_2)).squeeze S_ squeezes_S1_S_).sem = rcvS 2 := rfl
@[simp] theorem snd_sem3 : ((cc0_scratch2.slice (Rect.unit (s := S7) ![3] S1.size inb_S7_S1_3)).squeeze S_ squeezes_S1_S_).sem = sndS 3 := rfl
@[simp] theorem rcv_sem3 : ((cc0_scratch3.slice (Rect.unit (s := S7) ![3] S1.size inb_S7_S1_3)).squeeze S_ squeezes_S1_S_).sem = rcvS 3 := rfl
@[simp] theorem snd_sem4 : ((cc0_scratch2.slice (Rect.unit (s := S7) ![4] S1.size inb_S7_S1_4)).squeeze S_ squeezes_S1_S_).sem = sndS 4 := rfl
@[simp] theorem rcv_sem4 : ((cc0_scratch3.slice (Rect.unit (s := S7) ![4] S1.size inb_S7_S1_4)).squeeze S_ squeezes_S1_S_).sem = rcvS 4 := rfl
@[simp] theorem snd_sem5 : ((cc0_scratch2.slice (Rect.unit (s := S7) ![5] S1.size inb_S7_S1_5)).squeeze S_ squeezes_S1_S_).sem = sndS 5 := rfl
@[simp] theorem rcv_sem5 : ((cc0_scratch3.slice (Rect.unit (s := S7) ![5] S1.size inb_S7_S1_5)).squeeze S_ squeezes_S1_S_).sem = rcvS 5 := rfl
@[simp] theorem snd_sem6 : ((cc0_scratch2.slice (Rect.unit (s := S7) ![6] S1.size inb_S7_S1_6)).squeeze S_ squeezes_S1_S_).sem = sndS 6 := rfl
@[simp] theorem rcv_sem6 : ((cc0_scratch3.slice (Rect.unit (s := S7) ![6] S1.size inb_S7_S1_6)).squeeze S_ squeezes_S1_S_).sem = rcvS 6 := rfl

/-- The slice of the table the kernel takes at its own device id is that device's row. -/
theorem row_eq (i) (c : Dev nD) (h) :
    (tabM.slice (Rect.unit (s := S8x1024) (k0_off2 c) S1x1024.size (k0_off2_inb i c h)) (fun _ => rfl)) = rowM c := rfl

/-! ## The wait on the barrier semaphore -/

/-- Everything still owed between the points sits on receive cells of peers, at level 2, above the barrier cell's 1. -/
theorem mayWait_bar (c : Dev nD) : (levAts L lv : sProp 𝕄) ⊢ MayWait (c : Thread nD τ) (.reg barS) () (O₁ c) :=
  Pipeline.mayWait_of_levAts (by rw [L_tc]; exact Finset.mem_singleton_self _) fun g u h => by
    obtain ⟨j, rfl⟩ := Orcv_pos h
    refine ⟨by rw [L_tc]; exact Finset.mem_singleton_self _, ?_⟩
    rw [lv_rcv]
    show lv (barCell c) () < 2
    rw [lv_bar]; exact Nat.lt_succ_self 1

/-- The wait for the seven units of the barrier cell's round: the device gets the seven peers' rows of their tables,
    each with the fact that the peer has opened the receive cell the transfer will credit. -/
theorem wp_wait_bar (m : (ℓ : Loc nD τ sig) → Buf (Elt F) ℓ) (K : Dev nD × Fin 15 → ℕ) (c : Dev nD) (W : Waits sig Unit)
    {n : ℕ} (hn : n = 7) {α : Type} {k : PUnit → Prog (TpuEff nD τ sig (Elt F) Λ₀ .tc) α} {Q : α → sProp 𝕄} :
    iprop(records m K ∗ cred (tallyAt (barCell c) () 7) ∗ owes (c : Thread nD τ) (O₁ c) W ∗ atPos ER (barCell c) 0 ∅ 0 ∗ levAts L lv)
      ⊢ iprop(((owes (c : Thread nD τ) (O₁ c) (insert (SemLoc.reg barS, ()) W) ∗ atPos ER (barCell c) 1 ∅ 0 ∗ reached ER (barCell c) 1
                ∗ bigSep Finset.univ fun j : Fin 7 => barPay (F := F) c j)
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  iintro ⟨#Hrec, Hc, HO, Hat, #Hlv⟩ Hk
  iapply (Rounds.wp_wait_rest_token 𝒱₀ ER (sched m) (c : Thread nD τ) none (κ := K (c, 0))
      (wpE_semWait_eq 𝒱₀ (c : Thread nD τ) none Set.univ) (Set.mem_univ _) () (O := O₁ c) (W := W) (R := 0) (m := 0) (T := ∅)
      (by rw [expect_bar])) $$ [Hc HO Hat]
  · isplitr; · iapply (inv_at m K (c, 0)); iexact Hrec
    isplitl [Hc]; · iexact Hc
    isplitl [HO]; · iexact HO
    isplitr; · iapply (mayWait_bar c); iexact Hlv
    iexact Hat
  iintro ⟨HO, Hat, Hr, Hpay⟩
  iapply Hk
  isplitl [HO]; · iexact HO
  isplitl [Hat]; · iexact Hat
  isplitl [Hr]; · iexact Hr
  iapply (Entails.of_eq (rest_bar m c))
  iexact Hpay

/-! ## The seven transfers -/

/-- Every peer is within reach of the ring's interconnect. -/
theorem routes_fwd (j : Fin 7) (c : Dev nD) : τ.routes (c : Thread nD τ) (Dev.tc (fwd j c) : Thread nD τ) = true := by
  revert j c; decide

/-- The `j`-th transfer: the device lends share `sh j` of its own row, held at the final contents, writes that row
    of the table of the peer `j + 1` places ahead, which it owns, and pays the peer's `j`-th receive cell; its own
    `j`-th send cell is credited. What lands is the peer's final row: `hland`. -/
theorem wp_send_j (m : (ℓ : Loc nD τ sig) → Buf (Elt F) ℓ) (K : Dev nD × Fin 15 → ℕ) (c n : Dev nD) (j : Fin 7) (hn : n = fwd j c)
    {hsc : (rowM c : Memref sig (Dev.tc n : Thread nD τ).2.kind .vmem S1x1024 .f32).view.ref.isScScratch = false}
    {hsrc : (rowM c : Memref sig (c : Thread nD τ).2.kind .vmem S1x1024 .f32).view.WordExact}
    {hdst : (rowM c : Memref sig (Dev.tc n : Thread nD τ).2.kind .vmem S1x1024 .f32).view.WordExact}
    {hsem : (DmaTarget.remote (Dev.tc n : Thread nD τ) (rowM c) (.dma (sndS j)) hsc).Typed .vmem (.dma (rcvS j))}
    (fn : Buf (Elt F) ((rowM c).view.loc ((fwd j c : Dev nD) : Thread nD τ)))
    (hland : rowPts fullShare (fwd j c) c ((rowM c).view.write (Elt F) fn ((rowM c).view.read (Elt F) (tabV m c)) Finset.univ)
      ⊢ rowPts fullShare (fwd j c) c (tabV m (fwd j c)))
    (O : CellTallies nD τ sig Unit) (hO : Orcv c j.val = O + rcvT c j) (W : Waits sig Unit)
    {α : Type} {k : PUnit → Prog (TpuEff nD τ sig (Elt F) Λ₀ .tc) α} {Q : α → sProp 𝕄} :
    iprop(records m K ∗ rowPts (sh j) c c (tabV m c) ∗ rowPts fullShare (fwd j c) c fn ∗ owes (c : Thread nD τ) (Orcv c j.val) W
          ∗ dutyTok ER (sndCell c j) 0 (0 : Fin 7) ∗ dutyTok ER (rcvCell (fwd j c) j) 0 (0 : Fin 7))
      ⊢ iprop(((cred (tallyAt (sndCell c j) () N) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc n : Thread nD τ) (rowM c) (.dma (sndS j)) hsc) (.dma (rcvS j)) hsrc hdst hsem) k) Q) := by
  subst hn
  unfold rowPts at hland ⊢
  iintro ⟨#Hrec, Hs, Hd, HO, Ht1, Ht2⟩ Hk
  iapply (Rounds.wp_send_pointsTo 𝒱₀ ER (sched m) (c : Thread nD τ) none (c' := (Dev.tc (fwd j c) : Thread nD τ))
      (src := rowM c) (dst := rowM c) (q := sh j) (fs := tabV m c) (fd := fn)
      (r₁ := 0) (r₂ := 0) (d₁ := (0 : Fin 7)) (d₂ := (0 : Fin 7)) (κ₁ := K (c, sIx j)) (κ₂ := K (fwd j c, rIx j))
      (by rw [duties_snd]; exact Finset.mem_singleton_self _) (by rw [duties_rcv]; exact Finset.mem_singleton_self _)
      () () N rfl (amount_snd m c j 0) (amount_rcv m (fwd j c) j 0) O hO
      (by rw [payload_snd]; unfold sndPay rowPts; exact BI.Entails.refl _)
      (by rw [payload_rcv]; unfold rcvPay rowPts; rw [bwd_fwd]; exact hland)
      (routes_fwd j c)) $$ [Hs Hd HO Ht1 Ht2]
  · isplitr; · iapply (Entails.of_eq (congrArg (fun g => (cellInv ER (sched m) (K (c, sIx j)) g : sProp 𝕄)) (kcell_snd c j))); iapply (inv_at m K (c, sIx j)); iexact Hrec
    isplitr; · iapply (Entails.of_eq (congrArg (fun g => (cellInv ER (sched m) (K (fwd j c, rIx j)) g : sProp 𝕄)) (kcell_rcv (fwd j c) j))); iapply (inv_at m K (fwd j c, rIx j)); iexact Hrec
    isplitl [Hs]; · iexact Hs
    isplitl [Hd]; · iexact Hd
    isplitl [HO]; · iexact HO
    isplitl [Ht1]; · iexact Ht1
    isplitr; · iapply (Entails.of_eq (congrArg (fun g => (reached ER g 0 : sProp 𝕄)) (kcell_snd c j))); iapply (reached_at m K (c, sIx j)); iexact Hrec
    isplitl [Ht2]; · iexact Ht2
    iapply (Entails.of_eq (congrArg (fun g => (reached ER g 0 : sProp 𝕄)) (kcell_rcv (fwd j c) j))); iapply (reached_at m K (fwd j c, rIx j)); iexact Hrec
  iexact Hk

/-! ## The waits on the transfer semaphores -/

/-- The wait on the `j`-th receive semaphore, the device owing nothing any more: the row the peer `j + 1` places
    behind has written is handed over at its final contents, and the cell, its one round done, is closed with its
    counter back at zero. -/
theorem wp_wait_rcv_of (m : (ℓ : Loc nD τ sig) → Buf (Elt F) ℓ) (K : Dev nD × Fin 15 → ℕ) (c : Dev nD) (j : Fin 7) (W : Waits sig Unit)
    {sp' : Space} {s' : Shape} {e' : EltTy} {src : Memref sig (c : Thread nD τ).2.kind sp' s' e'} {dst : Memref sig .tc .vmem S1x1024 .f32}
    {hsrc : src.view.WordExact} {hdst : dst.view.WordExact} (hcr : dst.view.dmaCredit = N)
    {α : Type} {k : PUnit → Prog (TpuEff nD τ sig (Elt F) Λ₀ .tc) α} {Q : α → sProp 𝕄} :
    iprop(records m K ∗ cred (tallyAt (rcvCell c j) () N) ∗ owes (c : Thread nD τ) 0 W ∗ atPos ER (rcvCell c j) 0 ∅ 0)
      ⊢ iprop(((rcvPay m c j ∗ semVal (rcvCell c j) 0 ∗ owes (c : Thread nD τ) 0 (insert (SemLoc.dma (rcvS j), ()) W))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcvS j) src dst hsrc hdst) k) Q) := by
  iintro ⟨#Hrec, Hc, HO, Hat⟩ Hk
  ihave Hinv := (inv_at m K (c, rIx j)) $$ Hrec
  ihave Hinv := (Entails.of_eq (congrArg (fun g => (cellInv ER (sched m) (K (c, rIx j)) g : sProp 𝕄)) (kcell_rcv c j))) $$ Hinv
  iapply (Rounds.wp_wait_rest_token 𝒱₀ ER (sched m) (c : Thread nD τ) none (κ := K (c, rIx j))
      (wpE_waitDma2_eq 𝒱₀ (c : Thread nD τ) none Set.univ) (Set.mem_univ _) () (O := 0) (W := W) (R := 0) (m := 0) (T := ∅)
      (by rw [expect_rcv, hcr, Nat.zero_add])) $$ [Hc HO Hat]
  · isplitr; · iexact Hinv
    isplitl [Hc]; · iapply (Entails.of_eq (congrArg (fun n => (cred (tallyAt (rcvCell c j) () n) : sProp 𝕄)) hcr.symm)); iexact Hc
    isplitl [HO]; · iexact HO
    isplitr; · rw [MayWait_zero]; iempintro
    iexact Hat
  iintro ⟨HO, Hat, Hr, Hpay⟩
  imod (Rounds.cell_close ER (sched m) (Set.mem_univ (K (c, rIx j))) (fun h => h) (R := 0 + 1) (duties_later m (rcvCell c j))) $$ [Hat] with Hz
  · isplitr; · iexact Hinv
    iexact Hat
  iapply Hk
  isplitl [Hpay]; · iapply (Entails.of_eq (rest_rcv m c j)); iexact Hpay
  isplitl [Hz]; · iexact Hz
  iexact HO

/-- The wait on the `j`-th send semaphore: the lent share of the own row comes back, and the cell is closed with its
    counter back at zero. -/
theorem wp_wait_snd_of (m : (ℓ : Loc nD τ sig) → Buf (Elt F) ℓ) (K : Dev nD × Fin 15 → ℕ) (c : Dev nD) (j : Fin 7) (W : Waits sig Unit)
    {sp' : Space} {s' : Shape} {e' : EltTy} {src : Memref sig (c : Thread nD τ).2.kind sp' s' e'} {dst : Memref sig .tc .vmem S1x1024 .f32}
    {hsrc : src.view.WordExact} {hdst : dst.view.WordExact} (hcr : dst.view.dmaCredit = N)
    {α : Type} {k : PUnit → Prog (TpuEff nD τ sig (Elt F) Λ₀ .tc) α} {Q : α → sProp 𝕄} :
    iprop(records m K ∗ cred (tallyAt (sndCell c j) () N) ∗ owes (c : Thread nD τ) 0 W ∗ atPos ER (sndCell c j) 0 ∅ 0)
      ⊢ iprop(((sndPay m c j ∗ semVal (sndCell c j) 0 ∗ owes (c : Thread nD τ) 0 (insert (SemLoc.dma (sndS j), ()) W))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sndS j) src dst hsrc hdst) k) Q) := by
  iintro ⟨#Hrec, Hc, HO, Hat⟩ Hk
  ihave Hinv := (inv_at m K (c, sIx j)) $$ Hrec
  ihave Hinv := (Entails.of_eq (congrArg (fun g => (cellInv ER (sched m) (K (c, sIx j)) g : sProp 𝕄)) (kcell_snd c j))) $$ Hinv
  iapply (Rounds.wp_wait_rest_token 𝒱₀ ER (sched m) (c : Thread nD τ) none (κ := K (c, sIx j))
      (wpE_waitDma2_eq 𝒱₀ (c : Thread nD τ) none Set.univ) (Set.mem_univ _) () (O := 0) (W := W) (R := 0) (m := 0) (T := ∅)
      (by rw [expect_snd, hcr, Nat.zero_add])) $$ [Hc HO Hat]
  · isplitr; · iexact Hinv
    isplitl [Hc]; · iapply (Entails.of_eq (congrArg (fun n => (cred (tallyAt (sndCell c j) () n) : sProp 𝕄)) hcr.symm)); iexact Hc
    isplitl [HO]; · iexact HO
    isplitr; · rw [MayWait_zero]; iempintro
    iexact Hat
  iintro ⟨HO, Hat, Hr, Hpay⟩
  imod (Rounds.cell_close ER (sched m) (Set.mem_univ (K (c, sIx j))) (fun h => h) (R := 0 + 1) (duties_later m (sndCell c j))) $$ [Hat] with Hz
  · isplitr; · iexact Hinv
    iexact Hat
  iapply Hk
  isplitl [Hpay]; · iapply (Entails.of_eq (rest_snd m c j)); iexact Hpay
  isplitl [Hz]; · iexact Hz
  iexact HO

/-- A transfer into any row of the table credits what one row's transfer credits. -/
theorem row_credit (r : Dev nD) : (rowM r).view.dmaCredit = N := rfl

/-- `wp_wait_rcv_of` where the wait names a row of the table, as the kernel's waits do. -/
theorem wp_wait_rcv_j (m : (ℓ : Loc nD τ sig) → Buf (Elt F) ℓ) (K : Dev nD × Fin 15 → ℕ) (c : Dev nD) (j : Fin 7) (W : Waits sig Unit)
    {r : Dev nD} {sp' : Space} {s' : Shape} {e' : EltTy} {src : Memref sig (c : Thread nD τ).2.kind sp' s' e'}
    {hsrc : src.view.WordExact} {hdst : (rowM r).view.WordExact}
    {α : Type} {k : PUnit → Prog (TpuEff nD τ sig (Elt F) Λ₀ .tc) α} {Q : α → sProp 𝕄} :
    iprop(records m K ∗ cred (tallyAt (rcvCell c j) () N) ∗ owes (c : Thread nD τ) 0 W ∗ atPos ER (rcvCell c j) 0 ∅ 0)
      ⊢ iprop(((rcvPay m c j ∗ semVal (rcvCell c j) 0 ∗ owes (c : Thread nD τ) 0 (insert (SemLoc.dma (rcvS j), ()) W))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcvS j) src (rowM r) hsrc hdst) k) Q) :=
  wp_wait_rcv_of m K c j W (row_credit r)

/-- `wp_wait_snd_of` where the wait names a row of the table. -/
theorem wp_wait_snd_j (m : (ℓ : Loc nD τ sig) → Buf (Elt F) ℓ) (K : Dev nD × Fin 15 → ℕ) (c : Dev nD) (j : Fin 7) (W : Waits sig Unit)
    {r : Dev nD} {sp' : Space} {s' : Shape} {e' : EltTy} {src : Memref sig (c : Thread nD τ).2.kind sp' s' e'}
    {hsrc : src.view.WordExact} {hdst : (rowM r).view.WordExact}
    {α : Type} {k : PUnit → Prog (TpuEff nD τ sig (Elt F) Λ₀ .tc) α} {Q : α → sProp 𝕄} :
    iprop(records m K ∗ cred (tallyAt (sndCell c j) () N) ∗ owes (c : Thread nD τ) 0 W ∗ atPos ER (sndCell c j) 0 ∅ 0)
      ⊢ iprop(((sndPay m c j ∗ semVal (sndCell c j) 0 ∗ owes (c : Thread nD τ) 0 (insert (SemLoc.dma (sndS j), ()) W))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sndS j) src (rowM r) hsrc hdst) k) Q) :=
  wp_wait_snd_of m K c j W (row_credit r)

/-- info: 'Cert.Kernel.Coll.wp_wait_bar' depends on axioms: [propext, Classical.choice, Quot.sound] -/
#guard_msgs in #print axioms wp_wait_bar
/-- info: 'Cert.Kernel.Coll.wp_send_j' depends on axioms: [propext, Classical.choice, Quot.sound] -/
#guard_msgs in #print axioms wp_send_j
/-- info: 'Cert.Kernel.Coll.wp_wait_rcv_j' depends on axioms: [propext, Classical.choice, Quot.sound] -/
#guard_msgs in #print axioms wp_wait_rcv_j
/-- info: 'Cert.Kernel.Coll.wp_wait_snd_j' depends on axioms: [propext, Classical.choice, Quot.sound] -/
#guard_msgs in #print axioms wp_wait_snd_j

end Cert.Kernel.Coll

end
-- ==== Proof.Bits.Gather.lean ====
/- The table's rows, cut by share and put back: what the second point holds around its load of the whole table.

   A row held at a share is its two halves; the right half of the whole is the seven shares a device lends to its seven
   transfers. Each received row gives its left half to the table read as a whole at the left half share, and everything
   comes back to the table held whole. -/
import proofs.«900919_g7700000000000920_dist_max_ax0_shard0_i_m2048_n1024_v7x_i8_f32_1_alg».proof.Proof.Bits.Proto
import proofs.«900919_g7700000000000920_dist_max_ax0_shard0_i_m2048_n1024_v7x_i8_f32_1_alg».proof.Proof.Bits.Rows
import Idealize.ShloMosaic.Rules.PointsTo

set_option maxRecDepth 16384

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The separating conjunction associates, as an equation. -/
theorem sep_assoc_rows {M : Type} [URA M] (P Q R : sProp M) : iprop((P ∗ Q) ∗ R) = iprop(P ∗ Q ∗ R) := by
  refine BI.Entails.antisymm (show _ ⊢ (_ : sProp M) from ?_) (show _ ⊢ (_ : sProp M) from ?_)
  · iintro ⟨⟨H1, H2⟩, H3⟩
    isplitl [H1]; · iexact H1
    isplitl [H2] <;> iassumption
  · iintro ⟨H1, H2, H3⟩
    isplitr [H3]
    · isplitl [H1] <;> iassumption
    iexact H3

/-- A row held at a share is the row held at the share's two halves. -/
theorem row_split (q : PosShare TreeShare) (c r : Dev nD) (f : Buf (Elt F) ((rowM r).view.loc (c : Thread nD τ))) :
    (rowPts q c r f : sProp 𝕄) = iprop(rowPts q.left c r f ∗ rowPts q.right c r f) := by
  unfold rowPts
  have hu : ((rowM r).view.loc (c : Thread nD τ) ↦[(rowM r).view.set]{q} f : sProp 𝕄)
      ⊣⊢ iprop(((rowM r).view.loc (c : Thread nD τ) ↦[(rowM r).view.set]{q.left} f)
        ∗ (rowM r).view.loc (c : Thread nD τ) ↦[(rowM r).view.set]{q.right} f) :=
    pointsTo_share (PosShare.mem_left_op_right q)
  exact BI.equiv_iff.mp ⟨hu.1, hu.2⟩

/-- The right half of a row is the seven lent shares of it. -/
theorem row_sevenths (c r : Dev nD) (f : Buf (Elt F) ((rowM r).view.loc (c : Thread nD τ))) :
    (rowPts fullShare.right c r f : sProp 𝕄) = bigSep Finset.univ fun j : Fin 7 => rowPts (sh j) c r f := by
  rw [bigSep_fin7, row_split fullShare.right, row_split fullShare.right.left, row_split fullShare.right.right,
    row_split fullShare.right.left.left, row_split fullShare.right.left.right, row_split fullShare.right.right.left]
  simp only [sep_assoc_rows]
  rfl

/-- The own row: its left half kept, its right half cut into the seven shares lent to the seven transfers. -/
theorem lend_own (c : Dev nD) (f : Buf (Elt F) ((c : Thread nD τ).loc cc0_scratch1)) :
    (rowPts fullShare c c f : sProp 𝕄) ⊢ iprop(rowPts fullShare.left c c f ∗ bigSep Finset.univ fun j : Fin 7 => rowPts (sh j) c c f) := by
  rw [row_split fullShare c c f, row_sevenths c c f]

/-- Each received row cut in its two halves: the eight left halves are the whole table at the left half share. -/
theorem gather_left (c : Dev nD) (f : Buf (Elt F) ((c : Thread nD τ).loc cc0_scratch1)) :
    iprop(rowPts fullShare.left c c f ∗ bigSep Finset.univ fun j : Fin 7 => rowPts fullShare c (bwd j c) f)
      ⊢ (iprop(tabPts fullShare.left c f ∗ bigSep Finset.univ fun j : Fin 7 => rowPts fullShare.right c (bwd j c) f) : sProp 𝕄) := by
  rw [tab_rows fullShare.left c f, bigSep_dev_bwd c (fun r : Dev nD => (rowPts fullShare.left c r f : sProp 𝕄)),
    bigSep_congr (s := Finset.univ) (fun (j : Fin 7) _ => row_split fullShare c (bwd j c) f), bigSep_sep']
  iintro ⟨H1, H2, H3⟩
  isplitr [H3]
  · isplitl [H1] <;> iassumption
  iexact H3

/-- Everything back: the seven shares make the own row's right half, the halves make every row whole, the rows make the
    table. -/
theorem regather (c : Dev nD) (f : Buf (Elt F) ((c : Thread nD τ).loc cc0_scratch1)) :
    iprop(tabPts fullShare.left c f ∗ (bigSep Finset.univ fun j : Fin 7 => rowPts fullShare.right c (bwd j c) f)
        ∗ bigSep Finset.univ fun j : Fin 7 => rowPts (sh j) c c f)
      ⊢ (tabPts fullShare c f : sProp 𝕄) := by
  rw [tab_rows fullShare.left c f, tab_rows fullShare c f,
    bigSep_dev_bwd c (fun r : Dev nD => (rowPts fullShare.left c r f : sProp 𝕄)),
    bigSep_dev_bwd c (fun r : Dev nD => (rowPts fullShare c r f : sProp 𝕄)),
    bigSep_congr (s := Finset.univ) (fun (j : Fin 7) _ => row_split fullShare c (bwd j c) f), bigSep_sep',
    row_split fullShare c c f, row_sevenths c c f]
  iintro ⟨⟨H1, H2⟩, H3, H4⟩
  isplitl [H1 H4]
  · isplitl [H1] <;> iassumption
  isplitl [H2] <;> iassumption

/-- info: 'Cert.Kernel.Coll.lend_own' depends on axioms: [propext, Classical.choice, Quot.sound] -/
#guard_msgs in #print axioms lend_own

/-- info: 'Cert.Kernel.Coll.gather_left' depends on axioms: [propext, Classical.choice, Quot.sound] -/
#guard_msgs in #print axioms gather_left

/-- info: 'Cert.Kernel.Coll.regather' depends on axioms: [propext, Classical.choice, Quot.sound] -/
#guard_msgs in #print axioms regather

end Cert.Kernel.Coll

end
-- ==== Proof.Bits.Body1.lean ====
/- The second grid point on a device: the accumulator is brought to the column maxima of both blocks and written
   into the device's own row of the table; the seven peers are waited for, the row is copied into every peer's
   table, the seven rows that land complete the table, and the result is the table's column maxima. -/
import proofs.«900919_g7700000000000920_dist_max_ax0_shard0_i_m2048_n1024_v7x_i8_f32_1_alg».proof.Proof.Bits.Vals
import proofs.«900919_g7700000000000920_dist_max_ax0_shard0_i_m2048_n1024_v7x_i8_f32_1_alg».proof.Proof.Gen.Kernel.Launch
import proofs.«900919_g7700000000000920_dist_max_ax0_shard0_i_m2048_n1024_v7x_i8_f32_1_alg».proof.Proof.Gen.Kernel.Points
import Idealize.ShloMosaic.Lib.Pipeline.Launch
import Idealize.ShloMosaic.Lib.Pipeline.Kit
import Idealize.ShloMosaic.Lib.Tactic
import proofs.«900919_g7700000000000920_dist_max_ax0_shard0_i_m2048_n1024_v7x_i8_f32_1_alg».proof.Proof.Bits.Proto
import proofs.«900919_g7700000000000920_dist_max_ax0_shard0_i_m2048_n1024_v7x_i8_f32_1_alg».proof.Proof.Gen.Kernel.Skeleton
import proofs.«900919_g7700000000000920_dist_max_ax0_shard0_i_m2048_n1024_v7x_i8_f32_1_alg».proof.Proof.Bits.Rows
import proofs.«900919_g7700000000000920_dist_max_ax0_shard0_i_m2048_n1024_v7x_i8_f32_1_alg».proof.Proof.Bits.Rows2
import proofs.«900919_g7700000000000920_dist_max_ax0_shard0_i_m2048_n1024_v7x_i8_f32_1_alg».proof.Proof.Bits.Wrap1
import proofs.«900919_g7700000000000920_dist_max_ax0_shard0_i_m2048_n1024_v7x_i8_f32_1_alg».proof.Proof.Bits.Gather
set_option maxRecDepth 16384

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The conditions at the second point -/

theorem cond1_t1 : k0_cond1 (grid0.coords t0_1) = 0#1 := by decide
theorem cond4_t1 : k0_cond4 (grid0.coords t0_1) = 1#1 := by decide
theorem arg0_t1 : (BitVec.ofNat 32 ((grid0.coords t0_1) 0).val) = 1#32 := by decide

/-! ## Whole-buffer reads and writes at offset zero -/

omit [FloatOps F] in
theorem hz2 : (![0, 0] : Fin 2 → Nat) = fun _ => 0 := funext fun a => by fin_cases a <;> rfl
omit [FloatOps F] in
theorem read_x1 (f : (cc0_stg0_1 : Ref sig .tc).ty.Contents (Elt F)) :
    (Memref.whole cc0_stg0_1 : Memref sig .tc .vmem S1024x1024 .f32).view.readAt (Elt F)
      (Rect.unit (s := S1024x1024) ![0, 0] S1024x1024.size inb_S1024x1024_S1024x1024_0_0).toLoadRect f = f :=
  Memref.readAt_unit_zero (Elt F) cc0_stg0_1 hz2 _ f
omit [FloatOps F] in
theorem read_acc (f : (cc0_scratch0 : Ref sig .tc).ty.Contents (Elt F)) :
    (accM : Memref sig .tc .vmem S1x1024 .f32).view.readAt (Elt F)
      (Rect.unit (s := S1x1024) ![0, 0] S1x1024.size inb_S1x1024_S1x1024_0_0).toLoadRect f = f :=
  Memref.readAt_unit_zero (Elt F) cc0_scratch0 hz2 _ f
omit [FloatOps F] in
theorem write_acc (f w : (cc0_scratch0 : Ref sig .tc).ty.Contents (Elt F)) :
    ((accM : Memref sig .tc .vmem S1x1024 .f32).access (Rect.unit (s := S1x1024) ![0, 0] S1x1024.size inb_S1x1024_S1x1024_0_0) : View sig .tc _ _ _).write (Elt F) f w Finset.univ = w :=
  Memref.write_access_unit_zero_univ (Elt F) cc0_scratch0 hz2 _ f w
omit [FloatOps F] in
theorem read_tab (f : (cc0_scratch1 : Ref sig .tc).ty.Contents (Elt F)) :
    (tabM : Memref sig .tc .vmem S8x1024 .f32).view.readAt (Elt F)
      (Rect.unit (s := S8x1024) ![0, 0] S8x1024.size inb_S8x1024_S8x1024_0_0).toLoadRect f = f :=
  Memref.readAt_unit_zero (Elt F) cc0_scratch1 hz2 _ f
omit [FloatOps F] in
theorem write_out (f w : (cc0_stg1_0 : Ref sig .tc).ty.Contents (Elt F)) :
    ((Memref.whole cc0_stg1_0 : Memref sig .tc .vmem S1x1024 .f32).access (Rect.unit (s := S1x1024) ![0, 0] S1x1024.size inb_S1x1024_S1x1024_0_0) : View sig .tc _ _ _).write (Elt F) f w Finset.univ = w :=
  Memref.write_access_unit_zero_univ (Elt F) cc0_stg1_0 hz2 _ f w

set_option maxHeartbeats 4000000 in
/-- The body at the second point, one rule per effect in program order. -/
theorem sound_body1 (m : (ℓ : Loc nD τ sig) → Buf (Elt F) ℓ) (K : Dev nD × Fin 15 → ℕ) (c : Dev nD) (W : Waits sig Unit)
    (g1 : Buf (Elt F) ((c : Thread nD τ).loc cc0_stg1_0)) (Kt : PUnit → sProp 𝕄) :
    iprop(pre1 m K c W g1 ∗ (post1 m c -∗ Kt ⟨⟩)) ⊢ wp frame (wpE (defs₀ (F := F)) 𝒱₀ c none) Set.univ (prog1 (F := F)) Kt := by
  unfold prog1
  simp only [cc0_body_eq_skeleton]; unfold cc0_body_skel
  have h10 : Scalar.cmpi .ne (Scalar.extui (Scalar.cmpi .eq (1#32 : BitVec 32) 0#32)) (0#32 : BitVec 32) = 0#1 := by decide
  have h13 : Scalar.cmpi .ne (Scalar.extui (Scalar.cmpi .sgt (1#32 : BitVec 32) 0#32)) (0#32 : BitVec 32) = 1#1 := by decide
  simp only [cond1_t1, cond4_t1, arg0_t1, h10, h13, show (0#1 : BitVec 1) ≠ 1#1 from by decide, ↓reduceDIte]
  simp only [k0_part2_eq_skeleton, k0_part3_eq_skeleton, k0_part4_eq_skeleton, k0_part5_eq_skeleton, k0_part6_eq_skeleton]
  unfold k0_part2_skel k0_part3_skel k0_part4_skel k0_part5_skel k0_part6_skel
  simp only [semSignalWord, semWaitWord, Prog.lift, Prog.bind_op, Prog.bind_ret, Prog.pure_eq_ret]
  unfold pre1 linear1 positions xferToks creds
  simp only [bigSep_fin7]
  iintro ⟨⟨#Hrec, ⟨⟨HatB, ⟨HaS0, HaS1, HaS2, HaS3, HaS4, HaS5, HaS6⟩, ⟨HaR0, HaR1, HaR2, HaR3, HaR4, HaR5, HaR6⟩⟩, ⟨HtR0, HtR1, HtR2, HtR3, HtR4, HtR5, HtR6⟩, ⟨HtS0, HtS1, HtS2, HtS3, HtS4, HtS5, HtS6⟩⟩,
    ⟨HcB, ⟨HcR0, HcR1, HcR2, HcR3, HcR4, HcR5, HcR6⟩⟩, #Hlev, Hacc, ⟨%f0, Hrow⟩, HO, Hx, Hout⟩, Hk⟩
  -- the second block; the accumulator brought to the column maxima of both blocks
  iapply (wp_load 𝒱₀ (c : Thread nD τ) none Set.univ (m := (Memref.whole cc0_stg0_1 : Memref sig .tc .vmem S1024x1024 .f32)) (Finset.subset_univ _)) $$ Hx; iintro Hx
  rw [read_x1]
  unfold accPts
  iapply (wp_load 𝒱₀ (c : Thread nD τ) none Set.univ (m := (accM : Memref sig .tc .vmem S1x1024 .f32)) (Finset.subset_univ _)) $$ Hacc; iintro Hacc
  rw [read_acc]
  iapply (wp_load 𝒱₀ (c : Thread nD τ) none Set.univ (m := (accM : Memref sig .tc .vmem S1x1024 .f32)) (Finset.subset_univ _)) $$ Hacc; iintro Hacc
  iapply (wp_store 𝒱₀ (c : Thread nD τ) none Set.univ (m := (accM : Memref sig .tc .vmem S1x1024 .f32)) (r := Rect.unit (s := S1x1024) ![0, 0] S1x1024.size inb_S1x1024_S1x1024_0_0) (Mk := Finset.univ) (Finset.subset_univ _)) $$ Hacc; iintro Hacc
  rw [write_acc]
  simp only [wp_deviceId]
  iapply (wp_load 𝒱₀ (c : Thread nD τ) none Set.univ (m := (accM : Memref sig .tc .vmem S1x1024 .f32)) (Finset.subset_univ _)) $$ Hacc; iintro Hacc
  rw [read_acc]
  -- the own row of the table: read, then overwritten with the accumulator
  ihave Hrow := (Entails.of_eq (show rowPts fullShare c c f0
      = ((tabM : Memref sig .tc .vmem S8x1024 .f32).view.loc (c : Thread nD τ) ↦[(rowM c).view.set]{fullShare} f0) from rfl)) $$ Hrow
  iapply (wp_load 𝒱₀ (c : Thread nD τ) none Set.univ (m := (tabM : Memref sig .tc .vmem S8x1024 .f32)) (load_row_sub c)) $$ Hrow; iintro Hrow
  iapply (wp_store 𝒱₀ (c : Thread nD τ) none Set.univ (m := (tabM : Memref sig .tc .vmem S8x1024 .f32)) (r := rS c) (Mk := Finset.univ) (store_row_sub c)) $$ Hrow; iintro Hrow
  ihave Hrow := (Entails.of_eq (show ((((tabM : Memref sig .tc .vmem S8x1024 .f32).access (rS c)).loc (c : Thread nD τ) ↦[(rowM c).view.set]{fullShare}
        ((tabM : Memref sig .tc .vmem S8x1024 .f32).access (rS c)).write (Elt F) f0 (k0_pay4 (k0_pay3 (xblk m c t0_1) (acc0 m c))) Finset.univ : sProp 𝕄))
      = rowPts fullShare c c (tabV m c) from stored_row_eq m c f0)) $$ Hrow
  -- the wait for the seven peers: each hands over the row of its table this device will write
  iapply (wp_wait_bar m K c W (n := (7#32 : BitVec 32).toNat) (by decide)) $$ [HcB HO HatB]
  · isplitr; · iexact Hrec
    isplitl [HcB]; · iexact HcB
    isplitl [HO]; · iexact HO
    isplitl [HatB]; · iexact HatB
    iexact Hlev
  iintro ⟨HO, HatB, -, Hpay⟩
  ihave Hpay := (Entails.of_eq (bigSep_fin7 _)) $$ Hpay
  unfold barPay
  icases Hpay with ⟨⟨⟨%fn0, Hp0⟩, -⟩, ⟨⟨%fn1, Hp1⟩, -⟩, ⟨⟨%fn2, Hp2⟩, -⟩, ⟨⟨%fn3, Hp3⟩, -⟩, ⟨⟨%fn4, Hp4⟩, -⟩, ⟨⟨%fn5, Hp5⟩, -⟩, ⟨⟨%fn6, Hp6⟩, -⟩⟩
  -- the own row: its left half kept for the load of the table, its right half lent to the seven transfers
  ihave Hl := (lend_own c (tabV m c)) $$ Hrow
  icases Hl with ⟨HrowL, Hsh⟩
  ihave Hsh := (Entails.of_eq (bigSep_fin7 _)) $$ Hsh
  icases Hsh with ⟨Hs0, Hs1, Hs2, Hs3, Hs4, Hs5, Hs6⟩
  -- transfer 0: the own row into the table of the device 1 ahead
  iapply (wp_send_j m K c _ 0 (dev8_eq (grid0.coords t0_1) c cond4_t1) fn0 (Entails.of_eq (landed_tab m c (fwd 0 c) c fn0)) (Orcv c 1) rfl _) $$ [Hs0 Hp0 HO HtS0 HtR0]
  · isplitr; · iexact Hrec
    isplitl [Hs0]; · iexact Hs0
    isplitl [Hp0]; · iexact Hp0
    isplitl [HO]; · iexact HO
    isplitl [HtS0]; · iexact HtS0
    iexact HtR0
  iintro ⟨HcS0, HO⟩
  -- transfer 1: the own row into the table of the device 2 ahead
  iapply (wp_send_j m K c _ 1 (dev9_eq (grid0.coords t0_1) c cond4_t1) fn1 (Entails.of_eq (landed_tab m c (fwd 1 c) c fn1)) (Orcv c 2) rfl _) $$ [Hs1 Hp1 HO HtS1 HtR1]
  · isplitr; · iexact Hrec
    isplitl [Hs1]; · iexact Hs1
    isplitl [Hp1]; · iexact Hp1
    isplitl [HO]; · iexact HO
    isplitl [HtS1]; · iexact HtS1
    iexact HtR1
  iintro ⟨HcS1, HO⟩
  -- transfer 2: the own row into the table of the device 3 ahead
  iapply (wp_send_j m K c _ 2 (dev10_eq (grid0.coords t0_1) c cond4_t1) fn2 (Entails.of_eq (landed_tab m c (fwd 2 c) c fn2)) (Orcv c 3) rfl _) $$ [Hs2 Hp2 HO HtS2 HtR2]
  · isplitr; · iexact Hrec
    isplitl [Hs2]; · iexact Hs2
    isplitl [Hp2]; · iexact Hp2
    isplitl [HO]; · iexact HO
    isplitl [HtS2]; · iexact HtS2
    iexact HtR2
  iintro ⟨HcS2, HO⟩
  -- transfer 3: the own row into the table of the device 4 ahead
  iapply (wp_send_j m K c _ 3 (dev11_eq (grid0.coords t0_1) c cond4_t1) fn3 (Entails.of_eq (landed_tab m c (fwd 3 c) c fn3)) (Orcv c 4) rfl _) $$ [Hs3 Hp3 HO HtS3 HtR3]
  · isplitr; · iexact Hrec
    isplitl [Hs3]; · iexact Hs3
    isplitl [Hp3]; · iexact Hp3
    isplitl [HO]; · iexact HO
    isplitl [HtS3]; · iexact HtS3
    iexact HtR3
  iintro ⟨HcS3, HO⟩
  -- transfer 4: the own row into the table of the device 5 ahead
  iapply (wp_send_j m K c _ 4 (dev12_eq (grid0.coords t0_1) c cond4_t1) fn4 (Entails.of_eq (landed_tab m c (fwd 4 c) c fn4)) (Orcv c 5) rfl _) $$ [Hs4 Hp4 HO HtS4 HtR4]
  · isplitr; · iexact Hrec
    isplitl [Hs4]; · iexact Hs4
    isplitl [Hp4]; · iexact Hp4
    isplitl [HO]; · iexact HO
    isplitl [HtS4]; · iexact HtS4
    iexact HtR4
  iintro ⟨HcS4, HO⟩
  -- transfer 5: the own row into the table of the device 6 ahead
  iapply (wp_send_j m K c _ 5 (dev13_eq (grid0.coords t0_1) c cond4_t1) fn5 (Entails.of_eq (landed_tab m c (fwd 5 c) c fn5)) (Orcv c 6) rfl _) $$ [Hs5 Hp5 HO HtS5 HtR5]
  · isplitr; · iexact Hrec
    isplitl [Hs5]; · iexact Hs5
    isplitl [Hp5]; · iexact Hp5
    isplitl [HO]; · iexact HO
    isplitl [HtS5]; · iexact HtS5
    iexact HtR5
  iintro ⟨HcS5, HO⟩
  -- transfer 6: the own row into the table of the device 7 ahead
  iapply (wp_send_j m K c _ 6 (dev14_eq (grid0.coords t0_1) c cond4_t1) fn6 (Entails.of_eq (landed_tab m c (fwd 6 c) c fn6)) (Orcv c 7) rfl _) $$ [Hs6 Hp6 HO HtS6 HtR6]
  · isplitr; · iexact Hrec
    isplitl [Hs6]; · iexact Hs6
    isplitl [Hp6]; · iexact Hp6
    isplitl [HO]; · iexact HO
    isplitl [HtS6]; · iexact HtS6
    iexact HtR6
  iintro ⟨HcS6, HO⟩
  -- the row of the device 1 behind has landed
  iapply (wp_wait_rcv_j m K c 0 _) $$ [HcR0 HO HaR0]
  · isplitr; · iexact Hrec
    isplitl [HcR0]; · iexact HcR0
    isplitl [HO]; · iexact HO
    iexact HaR0
  iintro ⟨Hr0, HzR0, HO⟩
  -- the row of the device 2 behind has landed
  iapply (wp_wait_rcv_j m K c 1 _) $$ [HcR1 HO HaR1]
  · isplitr; · iexact Hrec
    isplitl [HcR1]; · iexact HcR1
    isplitl [HO]; · iexact HO
    iexact HaR1
  iintro ⟨Hr1, HzR1, HO⟩
  -- the row of the device 3 behind has landed
  iapply (wp_wait_rcv_j m K c 2 _) $$ [HcR2 HO HaR2]
  · isplitr; · iexact Hrec
    isplitl [HcR2]; · iexact HcR2
    isplitl [HO]; · iexact HO
    iexact HaR2
  iintro ⟨Hr2, HzR2, HO⟩
  -- the row of the device 4 behind has landed
  iapply (wp_wait_rcv_j m K c 3 _) $$ [HcR3 HO HaR3]
  · isplitr; · iexact Hrec
    isplitl [HcR3]; · iexact HcR3
    isplitl [HO]; · iexact HO
    iexact HaR3
  iintro ⟨Hr3, HzR3, HO⟩
  -- the row of the device 5 behind has landed
  iapply (wp_wait_rcv_j m K c 4 _) $$ [HcR4 HO HaR4]
  · isplitr; · iexact Hrec
    isplitl [HcR4]; · iexact HcR4
    isplitl [HO]; · iexact HO
    iexact HaR4
  iintro ⟨Hr4, HzR4, HO⟩
  -- the row of the device 6 behind has landed
  iapply (wp_wait_rcv_j m K c 5 _) $$ [HcR5 HO HaR5]
  · isplitr; · iexact Hrec
    isplitl [HcR5]; · iexact HcR5
    isplitl [HO]; · iexact HO
    iexact HaR5
  iintro ⟨Hr5, HzR5, HO⟩
  -- the row of the device 7 behind has landed
  iapply (wp_wait_rcv_j m K c 6 _) $$ [HcR6 HO HaR6]
  · isplitr; · iexact Hrec
    isplitl [HcR6]; · iexact HcR6
    isplitl [HO]; · iexact HO
    iexact HaR6
  iintro ⟨Hr6, HzR6, HO⟩
  -- the table is complete: its eight rows' left halves are the whole table at the left half share
  unfold rcvPay
  ihave Hg := (gather_left c (tabV m c)) $$ [HrowL Hr0 Hr1 Hr2 Hr3 Hr4 Hr5 Hr6]
  · isplitl [HrowL]; · iexact HrowL
    iapply (Entails.of_eq (bigSep_fin7 (fun j : Fin 7 => rowPts (F := F) fullShare c (bwd j c) (tabV m c))).symm)
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  icases Hg with ⟨Htab, Hrights⟩
  unfold tabPts
  iapply (wp_load 𝒱₀ (c : Thread nD τ) none Set.univ (m := (tabM : Memref sig .tc .vmem S8x1024 .f32)) (Finset.subset_univ _)) $$ Htab; iintro Htab
  rw [read_tab]
  iapply (wp_load 𝒱₀ (c : Thread nD τ) none Set.univ (m := (Memref.whole cc0_stg1_0 : Memref sig .tc .vmem S1x1024 .f32)) (Finset.subset_univ _)) $$ Hout; iintro Hout
  iapply (wp_store 𝒱₀ (c : Thread nD τ) none Set.univ (m := (Memref.whole cc0_stg1_0 : Memref sig .tc .vmem S1x1024 .f32)) (r := Rect.unit (s := S1x1024) ![0, 0] S1x1024.size inb_S1x1024_S1x1024_0_0) (Mk := Finset.univ) (Finset.subset_univ _)) $$ Hout; iintro Hout
  rw [write_out]
  -- transfer 0 has read its source: the lent share comes back
  iapply (wp_wait_snd_j m K c 0 _) $$ [HcS0 HO HaS0]
  · isplitr; · iexact Hrec
    isplitl [HcS0]; · iexact HcS0
    isplitl [HO]; · iexact HO
    iexact HaS0
  iintro ⟨Hq0, HzS0, HO⟩
  -- transfer 1 has read its source: the lent share comes back
  iapply (wp_wait_snd_j m K c 1 _) $$ [HcS1 HO HaS1]
  · isplitr; · iexact Hrec
    isplitl [HcS1]; · iexact HcS1
    isplitl [HO]; · iexact HO
    iexact HaS1
  iintro ⟨Hq1, HzS1, HO⟩
  -- transfer 2 has read its source: the lent share comes back
  iapply (wp_wait_snd_j m K c 2 _) $$ [HcS2 HO HaS2]
  · isplitr; · iexact Hrec
    isplitl [HcS2]; · iexact HcS2
    isplitl [HO]; · iexact HO
    iexact HaS2
  iintro ⟨Hq2, HzS2, HO⟩
  -- transfer 3 has read its source: the lent share comes back
  iapply (wp_wait_snd_j m K c 3 _) $$ [HcS3 HO HaS3]
  · isplitr; · iexact Hrec
    isplitl [HcS3]; · iexact HcS3
    isplitl [HO]; · iexact HO
    iexact HaS3
  iintro ⟨Hq3, HzS3, HO⟩
  -- transfer 4 has read its source: the lent share comes back
  iapply (wp_wait_snd_j m K c 4 _) $$ [HcS4 HO HaS4]
  · isplitr; · iexact Hrec
    isplitl [HcS4]; · iexact HcS4
    isplitl [HO]; · iexact HO
    iexact HaS4
  iintro ⟨Hq4, HzS4, HO⟩
  -- transfer 5 has read its source: the lent share comes back
  iapply (wp_wait_snd_j m K c 5 _) $$ [HcS5 HO HaS5]
  · isplitr; · iexact Hrec
    isplitl [HcS5]; · iexact HcS5
    isplitl [HO]; · iexact HO
    iexact HaS5
  iintro ⟨Hq5, HzS5, HO⟩
  -- transfer 6 has read its source: the lent share comes back
  iapply (wp_wait_snd_j m K c 6 _) $$ [HcS6 HO HaS6]
  · isplitr; · iexact Hrec
    isplitl [HcS6]; · iexact HcS6
    isplitl [HO]; · iexact HO
    iexact HaS6
  iintro ⟨Hq6, HzS6, HO⟩
  -- every share and every half back: the table whole again
  unfold sndPay
  ihave Hfull := (regather c (tabV m c)) $$ [Htab Hrights Hq0 Hq1 Hq2 Hq3 Hq4 Hq5 Hq6]
  · isplitl [Htab]; · (unfold tabPts; iexact Htab)
    isplitl [Hrights]; · iexact Hrights
    iapply (Entails.of_eq (bigSep_fin7 (fun j : Fin 7 => rowPts (F := F) (sh j) c c (tabV m c))).symm)
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    iexact Hq6
  rw [wp_ret]; imodintro
  iapply Hk
  unfold post1 Φ2
  isplitl [Hacc Hfull HzS0 HzR0 HzS1 HzR1 HzS2 HzR2 HzS3 HzR3 HzS4 HzR4 HzS5 HzR5 HzS6 HzR6]
  · isplitl [Hacc]; · (iexists _; unfold accPts; iexact Hacc)
    isplitl [Hfull]; · (iexists _; iexact Hfull)
    isplitl [HzS0 HzS1 HzS2 HzS3 HzS4 HzS5 HzS6]
    · iapply (Entails.of_eq (bigSep_fin7 (fun j : Fin 7 => (semVal (sndCell c j) 0 : sProp 𝕄))).symm)
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    · iapply (Entails.of_eq (bigSep_fin7 (fun j : Fin 7 => (semVal (rcvCell c j) 0 : sProp 𝕄))).symm)
      isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      iexact HzR6
  isplitl [HO]; · (iexists _; iexact HO)
  isplitl [Hx]; · iexact Hx
  iexact Hout

/-- info: 'Cert.Kernel.Coll.sound_body1' depends on axioms: [propext, Classical.choice, Quot.sound] -/
#guard_msgs in #print axioms sound_body1

end Cert.Kernel.Coll

end
-- ==== Proof.Bits.FinalArr.lean ====
/- The arrays when the pipeline is done.

   The argument's array is only ever fetched from, so it ends as it began. The result's array is written back once,
   at the last grid point, through a block that is the whole one-row array; what is written is the result vector,
   so the array ends holding exactly that vector. -/
import proofs.«900919_g7700000000000920_dist_max_ax0_shard0_i_m2048_n1024_v7x_i8_f32_1_alg».proof.Proof.Bits.Proto
import Idealize.ShloMosaic.Lib.Pipeline.Cells
import Idealize.ShloMosaic.Lib.Pipeline.Value

set_option maxRecDepth 16384

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- The argument's array is an input of the pipeline: no point writes it back, so after the last point it holds
    what it held at launch. -/
theorem final_arg (c : Dev nD) :
    (dats (F := F) m 0 c).arrAt (0 : Fin 2) cfg0.N = m ((c : Thread nD τ).loc main_arg0) :=
  (dats (F := F) m 0 c).arrAt_in 0 rfl cfg0.N

/-- The only point that writes the result back is the last one, and what it writes is the result vector: the
    result's block is the whole one-row array (block index `(0, 0)`, offsets zero), so the vector read through the
    block is the vector. -/
theorem flushed_out (c : Dev nD) (t : Fin cfg0.N) (hf : (cfg0.win 1).flush t = true) :
    (dats (F := F) m 0 c).flushed 1 t = ((cfg0.win 1).blk t).view.read (Elt F) (outV m) := by
  have h1 : t.val = 1 := by
    have h := (flush0_1 t).mp hf
    have hlt : t.val < 2 := Nat.lt_of_lt_of_eq t.isLt N_0
    omega
  obtain rfl : t = t0_1 := Fin.ext h1
  show (cfg0.win 1).cut (grid0.coords t0_1) (outV m) = _
  have hz : (fun a => win0_1.index t0_1 a * main_v1.ty.shape.size a) = fun _ => 0 :=
    funext fun a => by fin_cases a <;> decide
  exact (Memref.read_access_unit_zero (Elt F) main_v1 hz
    (fun a => by rw [congrFun hz a]; exact Nat.le_of_eq (Nat.zero_add _)) (outV m)).symm

/-- Every index of the result array lies in the block the last point writes back: that block starts at offset zero
    on both axes and has the array's extents. -/
theorem cover_out (c : Dev nD) (i : ((cfg0.win 1).arr.view.loc (c.tc : Thread nD τ)).2.ty.Idx) :
    ∃ t : Fin cfg0.N, (cfg0.win 1).flush t = true ∧ i ∈ ((cfg0.win 1).blk t).view.set := by
  refine ⟨t0_1, (flush0_1 t0_1).mpr rfl, ?_⟩
  show i ∈ ((View.whole main_v1).slice (win0_1.rect t0_1)).set
  rw [View.set_slice_whole, Rect.mem_set_unit]
  intro a
  have hoff : ∀ b : Fin main_v1.ty.shape.rank, win0_1.index t0_1 b * win0_1.size b = 0 := by decide +kernel
  have hsz : ∀ b : Fin main_v1.ty.shape.rank, win0_1.xsize (grid0.coords t0_1) b = main_v1.ty.shape.size b := by
    decide +kernel
  rw [hoff a, hsz a, Nat.zero_add]
  exact ⟨Nat.zero_le _, (i a).isLt⟩

/-- So after the last point the result array holds the result vector. -/
theorem final_out (c : Dev nD) :
    (dats (F := F) m 0 c).arrAt (1 : Fin 2) cfg0.N = outV m :=
  (dats (F := F) m 0 c).arrAt_eq_of_cover 1 (outV m) (flushed_out m c) (cover_out c)

/-- info: 'Cert.Kernel.Coll.final_arg' depends on axioms: [propext, Classical.choice, Quot.sound] -/
#guard_msgs in #print axioms final_arg
/-- info: 'Cert.Kernel.Coll.final_out' depends on axioms: [propext, Classical.choice, Quot.sound] -/
#guard_msgs in #print axioms final_out

end Cert.Kernel.Coll

end
-- ==== Proof.Bits.Frames.lean ====
/- The whole run of the kernel on the eight devices: every weakly fair execution ends with each device's result at
   the column maxima of the gathered table and its argument unchanged. -/
import proofs.«900919_g7700000000000920_dist_max_ax0_shard0_i_m2048_n1024_v7x_i8_f32_1_alg».proof.Proof.Bits.Launch
import proofs.«900919_g7700000000000920_dist_max_ax0_shard0_i_m2048_n1024_v7x_i8_f32_1_alg».proof.Proof.Bits.Oblig
import proofs.«900919_g7700000000000920_dist_max_ax0_shard0_i_m2048_n1024_v7x_i8_f32_1_alg».proof.Proof.Bits.Body0
import proofs.«900919_g7700000000000920_dist_max_ax0_shard0_i_m2048_n1024_v7x_i8_f32_1_alg».proof.Proof.Bits.Body1
import proofs.«900919_g7700000000000920_dist_max_ax0_shard0_i_m2048_n1024_v7x_i8_f32_1_alg».proof.Proof.Bits.FinalArr

set_option maxRecDepth 16384

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The launch over the two bodies, the final arrays read off: the result window's one write-back leaves the
    result, the argument's window is never written. -/
theorem run_vals (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c : Thread nD τ).loc main_v1) = outV m
      ∧ r.2.mem ((c : Thread nD τ).loc main_arg0) = m ((c : Thread nD τ).loc main_arg0)) :=
  (θ_run defs _ _).mono (fun r h c => ⟨(h c 1).trans (final_out m c), (h c 0).trans (final_arg m c)⟩)
    (run_main m ρ (body_obligation m (sound_body0 m) (sound_body1 m)))

/-- info: 'Cert.Kernel.Coll.run_vals' depends on axioms: [propext, Classical.choice, Quot.sound] -/
#guard_msgs in #print axioms run_vals

end Cert.Kernel.Coll

end
-- ==== Proof.lean ====
/- The certificate of the all-gather-max kernel on eight devices against the maximum over all rows on one.

   Each device reduces its 2048 rows to one row of column maxima in two steps of 1024 rows, writes that row into its own
   row of an 8-row table and, once its seven peers have signalled that their tables exist, copies the row into the same
   row of every peer's table; when the seven rows of its peers have landed, its result is the column maxima of the
   table. The maximum of the maxima of a partition of the rows is the maximum of all rows, which is the reference's
   result; the word-level program runs by the same protocol, its values forgotten. -/
import proofs.«900919_g7700000000000920_dist_max_ax0_shard0_i_m2048_n1024_v7x_i8_f32_1_alg».proof.Defs
import proofs.«900919_g7700000000000920_dist_max_ax0_shard0_i_m2048_n1024_v7x_i8_f32_1_alg».proof.Proof.Assemble
import proofs.«900919_g7700000000000920_dist_max_ax0_shard0_i_m2048_n1024_v7x_i8_f32_1_alg».proof.Proof.Frames
import proofs.«900919_g7700000000000920_dist_max_ax0_shard0_i_m2048_n1024_v7x_i8_f32_1_alg».proof.Proof.Bits.Frames
import Idealize.ShloMosaic.Adequacy
import Idealize.ShloMosaic.Init

noncomputable section

namespace Cert.Proof

open Idealize.ShloMosaic Idealize.SL.Sem

theorem claim : Cert.Claim :=
  Cert.Assemble.claim_of
    (fun m ρ => Cert.KernelIdeal.Coll.run_vals (F := Ideal) m ρ)
    (fun m ρ => (θ_run (Cert.Kernel.defs (F := Bits)) _ _).mono (fun _ h c => (h c).2) (Cert.Kernel.Coll.run_vals (F := Bits) m ρ))

end Cert.Proof

end
